-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_v184) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x65 : Shape := ⟨2, ![524288, 65]⟩
abbrev S_ : Shape := ⟨0, ![]⟩

class Facts : Prop where
  bcast_S_S524288x65 : S_.BroadcastsInDim S524288x65 (![] : Fin 0 → Fin S524288x65.rank)
  reducesTo_S524288x65_S_d0_1 : S524288x65.ReducesTo [0, 1] S_
  h_S_ : 0 < S_.numel

variable [Facts]

def fn {F : FTy → Type} [FloatOps F] (main_arg0 : FVec F S524288x65 .f32) : IVec S_ 1 :=
  let main_v0 : FVec F S524288x65 .f32 := Host.absf main_arg0
  let main_cst : FVec F S_ .f32 := constant S_ .f32 0x7F800000#32
  let main_v1 : FVec F S524288x65 .f32 := broadcastInDim S524288x65 ![] bcast_S_S524288x65 main_cst
  let main_v2 : IVec S524288x65 1 := cmpf .olt main_v0 main_v1
  let main_c : IVec S_ 1 := constantI S_ 1 1#1
  let main_v3 : IVec S_ 1 := (fun x v => Host.reduce IntOp.andi x v reducesTo_S524288x65_S_d0_1 h_S_) main_v2 main_c
  main_v3
-- ==== Kernel.lean ====
abbrev S524288x65 : Shape := ⟨2, ![524288, 65]⟩
abbrev S524288x76 : Shape := ⟨2, ![524288, 76]⟩
abbrev S8192x65 : Shape := ⟨2, ![8192, 65]⟩
abbrev S8192x76 : Shape := ⟨2, ![8192, 76]⟩
abbrev S8192x7 : Shape := ⟨2, ![8192, 7]⟩
abbrev S8192 : Shape := ⟨1, ![8192]⟩
abbrev S8192x1 : Shape := ⟨2, ![8192, 1]⟩
abbrev S8192x23 : Shape := ⟨2, ![8192, 23]⟩
abbrev S8192x18 : Shape := ⟨2, ![8192, 18]⟩
abbrev S8192x5 : Shape := ⟨2, ![8192, 5]⟩
abbrev S8192x3 : Shape := ⟨2, ![8192, 3]⟩
abbrev S8192x8 : Shape := ⟨2, ![8192, 8]⟩
abbrev S8192x53 : Shape := ⟨2, ![8192, 53]⟩
abbrev S8192x12 : Shape := ⟨2, ![8192, 12]⟩
abbrev S8192x2 : Shape := ⟨2, ![8192, 2]⟩
abbrev S8192x4 : Shape := ⟨2, ![8192, 4]⟩

abbrev nBuf : Space → Nat
  | .hbm => 3
  | .vmem => 6
  | .smem => 0
  | _ => 0

abbrev bufTy : (tb : Table) → Fin (tcTables nBuf tb) → BufTy
  | .hbm, ⟨0, _⟩ => ⟨S524288x65, .f32⟩
  | .hbm, ⟨1, _⟩ => ⟨S524288x65, .f32⟩
  | .hbm, ⟨2, _⟩ => ⟨S524288x76, .f32⟩
  | .local _ .vmem, ⟨0, _⟩ => ⟨S8192x65, .f32⟩
  | .local _ .vmem, ⟨1, _⟩ => ⟨S8192x65, .f32⟩
  | .local _ .vmem, ⟨2, _⟩ => ⟨S8192x65, .f32⟩
  | .local _ .vmem, ⟨3, _⟩ => ⟨S8192x65, .f32⟩
  | .local _ .vmem, ⟨4, _⟩ => ⟨S8192x76, .f32⟩
  | .local _ .vmem, ⟨5, _⟩ => ⟨S8192x76, .f32⟩
  | _, _ => ⟨S524288x65, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x65 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x65 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x76 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8192x65_S8192x65_0_0 : ∀ a, (![0, 0] : Fin 2 → Nat) a + S8192x65.size a ≤ S8192x65.size a
  h_S8192x65 : 0 < S8192x65.numel
  slices_S8192x65_o0_0_S8192x7 : S8192x65.Slices ![0, 0] S8192x7
  reduces_S8192x7_S8192 : S8192x7.Reduces [1] S8192
  shapeCasts_S8192_S8192x1 : S8192.ShapeCasts S8192x1
  broadcasts_S8192x1_S8192x7 : S8192x1.Broadcasts S8192x7
  slices_S8192x65_o0_7_S8192x23 : S8192x65.Slices ![0, 7] S8192x23
  reduces_S8192x23_S8192 : S8192x23.Reduces [1] S8192
  broadcasts_S8192x1_S8192x23 : S8192x1.Broadcasts S8192x23
  slices_S8192x65_o0_30_S8192x18 : S8192x65.Slices ![0, 30] S8192x18
  reduces_S8192x18_S8192 : S8192x18.Reduces [1] S8192
  broadcasts_S8192x1_S8192x18 : S8192x1.Broadcasts S8192x18
  slices_S8192x65_o0_48_S8192x5 : S8192x65.Slices ![0, 48] S8192x5
  reduces_S8192x5_S8192 : S8192x5.Reduces [1] S8192
  broadcasts_S8192x1_S8192x5 : S8192x1.Broadcasts S8192x5
  slices_S8192x65_o0_53_S8192x5 : S8192x65.Slices ![0, 53] S8192x5
  slices_S8192x65_o0_58_S8192x1 : S8192x65.Slices ![0, 58] S8192x1
  reduces_S8192x1_S8192 : S8192x1.Reduces [1] S8192
  slices_S8192x65_o0_59_S8192x3 : S8192x65.Slices ![0, 59] S8192x3
  reduces_S8192x3_S8192 : S8192x3.Reduces [1] S8192
  broadcasts_S8192x1_S8192x3 : S8192x1.Broadcasts S8192x3
  slices_S8192x65_o0_62_S8192x3 : S8192x65.Slices ![0, 62] S8192x3
  concatenates_S8192x7_S8192x23_S8192x18_S8192x5_S8192x5_S8192x1_S8192x3_S8192x3_S8192x65_d1 : Shape.Concatenates [S8192x7, S8192x23, S8192x18, S8192x5, S8192x5, S8192x1, S8192x3, S8192x3] S8192x65 1
  concatenates_S8192x1_S8192x1_S8192x1_S8192x1_S8192x1_S8192x1_S8192x1_S8192x1_S8192x8_d1 : Shape.Concatenates [S8192x1, S8192x1, S8192x1, S8192x1, S8192x1, S8192x1, S8192x1, S8192x1] S8192x8 1
  slices_S8192x65_o0_0_S8192x53 : S8192x65.Slices ![0, 0] S8192x53
  reduces_S8192x53_S8192 : S8192x53.Reduces [1] S8192
  slices_S8192x65_o0_53_S8192x12 : S8192x65.Slices ![0, 53] S8192x12
  reduces_S8192x12_S8192 : S8192x12.Reduces [1] S8192
  concatenates_S8192x1_S8192x1_S8192x2_d1 : Shape.Concatenates [S8192x1, S8192x1] S8192x2 1
  reduces_S8192x2_S8192 : S8192x2.Reduces [1] S8192
  broadcasts_S8192x1_S8192x2 : S8192x1.Broadcasts S8192x2
  slices_S8192x8_o0_0_S8192x4 : S8192x8.Slices ![0, 0] S8192x4
  reduces_S8192x4_S8192 : S8192x4.Reduces [1] S8192
  broadcasts_S8192x1_S8192x4 : S8192x1.Broadcasts S8192x4
  slices_S8192x8_o0_4_S8192x4 : S8192x8.Slices ![0, 4] S8192x4
  concatenates_S8192x4_S8192x4_S8192x8_d1 : Shape.Concatenates [S8192x4, S8192x4] S8192x8 1
  concatenates_S8192x65_S8192x8_S8192x2_S8192x1_S8192x76_d1 : Shape.Concatenates [S8192x65, S8192x8, S8192x2, S8192x1] S8192x76 1
  slices_S8192x8_o0_0_S8192x1 : S8192x8.Slices ![0, 0] S8192x1
  shapeCasts_S8192x1_S8192x1 : S8192x1.ShapeCasts S8192x1
  slices_S8192x8_o0_1_S8192x1 : S8192x8.Slices ![0, 1] S8192x1
  slices_S8192x8_o0_2_S8192x1 : S8192x8.Slices ![0, 2] S8192x1
  slices_S8192x8_o0_3_S8192x1 : S8192x8.Slices ![0, 3] S8192x1
  slices_S8192x8_o0_4_S8192x1 : S8192x8.Slices ![0, 4] S8192x1
  slices_S8192x8_o0_5_S8192x1 : S8192x8.Slices ![0, 5] S8192x1
  slices_S8192x8_o0_6_S8192x1 : S8192x8.Slices ![0, 6] S8192x1
  slices_S8192x8_o0_7_S8192x1 : S8192x8.Slices ![0, 7] S8192x1
  slices_S8192x2_o0_0_S8192x1 : S8192x2.Slices ![0, 0] S8192x1
  broadcasts_S8192x1_S8192x53 : S8192x1.Broadcasts S8192x53
  slices_S8192x2_o0_1_S8192x1 : S8192x2.Slices ![0, 1] S8192x1
  broadcasts_S8192x1_S8192x12 : S8192x1.Broadcasts S8192x12
  concatenates_S8192x53_S8192x12_S8192x65_d1 : Shape.Concatenates [S8192x53, S8192x12] S8192x65 1
  inb_S8192x76_S8192x76_0_0 : ∀ a, (![0, 0] : Fin 2 → Nat) a + S8192x76.size a ≤ S8192x76.size a
  h_S8192x76 : 0 < S8192x76.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x65.size a ≤ S524288x65.size a
  hwx0_0 : ∀ i : grid0.Coords, EltTy.bits .f32 = 32 ∨ (Rect.block (s := S524288x65) S8192x65.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x65.size a ≤ S524288x65.size a
  hwx0_1 : ∀ i : grid0.Coords, EltTy.bits .f32 = 32 ∨ (Rect.block (s := S524288x65) S8192x65.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x76.size a ≤ S524288x76.size a
  hwx0_2 : ∀ i : grid0.Coords, EltTy.bits .f32 = 32 ∨ (Rect.block (s := S524288x76) S8192x76.size (cc0_transform_2 i) (hinb0_2 i)).WholeWords (EltTy.packing .f32)

variable [Facts₀]

abbrev win0_0 : Pipeline.Window sig grid0 :=
  Pipeline.Window.ofSpec (Memref.whole main_arg0) S8192x65.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8192x65.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8192x76.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S524288x65 : Shape := ⟨2, ![524288, 65]⟩
abbrev S65 : Shape := ⟨1, ![65]⟩
abbrev S524288x7 : Shape := ⟨2, ![524288, 7]⟩
abbrev S_ : Shape := ⟨0, ![]⟩
abbrev S524288 : Shape := ⟨1, ![524288]⟩
abbrev S524288x1 : Shape := ⟨2, ![524288, 1]⟩
abbrev S524288x23 : Shape := ⟨2, ![524288, 23]⟩
abbrev S524288x18 : Shape := ⟨2, ![524288, 18]⟩
abbrev S524288x5 : Shape := ⟨2, ![524288, 5]⟩
abbrev S524288x3 : Shape := ⟨2, ![524288, 3]⟩
abbrev S524288x8 : Shape := ⟨2, ![524288, 8]⟩
abbrev S524288x53 : Shape := ⟨2, ![524288, 53]⟩
abbrev S524288x12 : Shape := ⟨2, ![524288, 12]⟩
abbrev S524288x2 : Shape := ⟨2, ![524288, 2]⟩
abbrev S524288x4 : Shape := ⟨2, ![524288, 4]⟩
abbrev S524288x76 : Shape := ⟨2, ![524288, 76]⟩
abbrev S65x1 : Shape := ⟨2, ![65, 1]⟩

abbrev nBuf : Space → Nat
  | .hbm => 258
  | .vmem => 0
  | .smem => 0
  | _ => 0

abbrev hbmTy0_0 (i : Nat) : BufTy := match i % 128 with
  | 0 => ⟨S524288x65, .f32⟩
  | 1 => ⟨S65, .i32⟩
  | 2 => ⟨S65, .i1⟩
  | 3 => ⟨S65, .i32⟩
  | 4 => ⟨S65, .i1⟩
  | 5 => ⟨S524288x7, .f32⟩
  | 6 => ⟨S_, .f32⟩
  | 7 => ⟨S524288, .f32⟩
  | 8 => ⟨S_, .f32⟩
  | 9 => ⟨S524288, .f32⟩
  | 10 => ⟨S524288, .f32⟩
  | 11 => ⟨S524288x1, .f32⟩
  | 12 => ⟨S524288x7, .f32⟩
  | 13 => ⟨S524288x7, .f32⟩
  | 14 => ⟨S524288x7, .f32⟩
  | 15 => ⟨S_, .f32⟩
  | 16 => ⟨S524288, .f32⟩
  | 17 => ⟨S524288x1, .f32⟩
  | 18 => ⟨S524288x7, .f32⟩
  | 19 => ⟨S524288x7, .f32⟩
  | 20 => ⟨S524288x23, .f32⟩
  | 21 => ⟨S_, .f32⟩
  | 22 => ⟨S524288, .f32⟩
  | 23 => ⟨S_, .f32⟩
  | 24 => ⟨S524288, .f32⟩
  | 25 => ⟨S524288, .f32⟩
  | 26 => ⟨S524288x1, .f32⟩
  | 27 => ⟨S524288x23, .f32⟩
  | 28 => ⟨S524288x23, .f32⟩
  | 29 => ⟨S524288x23, .f32⟩
  | 30 => ⟨S_, .f32⟩
  | 31 => ⟨S524288, .f32⟩
  | 32 => ⟨S524288x1, .f32⟩
  | 33 => ⟨S524288x23, .f32⟩
  | 34 => ⟨S524288x23, .f32⟩
  | 35 => ⟨S524288x18, .f32⟩
  | 36 => ⟨S_, .f32⟩
  | 37 => ⟨S524288, .f32⟩
  | 38 => ⟨S_, .f32⟩
  | 39 => ⟨S524288, .f32⟩
  | 40 => ⟨S524288, .f32⟩
  | 41 => ⟨S524288x1, .f32⟩
  | 42 => ⟨S524288x18, .f32⟩
  | 43 => ⟨S524288x18, .f32⟩
  | 44 => ⟨S524288x18, .f32⟩
  | 45 => ⟨S_, .f32⟩
  | 46 => ⟨S524288, .f32⟩
  | 47 => ⟨S524288x1, .f32⟩
  | 48 => ⟨S524288x18, .f32⟩
  | 49 => ⟨S524288x18, .f32⟩
  | 50 => ⟨S524288x5, .f32⟩
  | 51 => ⟨S_, .f32⟩
  | 52 => ⟨S524288, .f32⟩
  | 53 => ⟨S_, .f32⟩
  | 54 => ⟨S524288, .f32⟩
  | 55 => ⟨S524288, .f32⟩
  | 56 => ⟨S524288x1, .f32⟩
  | 57 => ⟨S524288x5, .f32⟩
  | 58 => ⟨S524288x5, .f32⟩
  | 59 => ⟨S524288x5, .f32⟩
  | 60 => ⟨S_, .f32⟩
  | 61 => ⟨S524288, .f32⟩
  | 62 => ⟨S524288x1, .f32⟩
  | 63 => ⟨S524288x5, .f32⟩
  | 64 => ⟨S524288x5, .f32⟩
  | 65 => ⟨S524288x5, .f32⟩
  | 66 => ⟨S_, .f32⟩
  | 67 => ⟨S524288, .f32⟩
  | 68 => ⟨S_, .f32⟩
  | 69 => ⟨S524288, .f32⟩
  | 70 => ⟨S524288, .f32⟩
  | 71 => ⟨S524288x1, .f32⟩
  | 72 => ⟨S524288x5, .f32⟩
  | 73 => ⟨S524288x5, .f32⟩
  | 74 => ⟨S524288x5, .f32⟩
  | 75 => ⟨S_, .f32⟩
  | 76 => ⟨S524288, .f32⟩
  | 77 => ⟨S524288x1, .f32⟩
  | 78 => ⟨S524288x5, .f32⟩
  | 79 => ⟨S524288x5, .f32⟩
  | 80 => ⟨S524288x1, .f32⟩
  | 81 => ⟨S_, .f32⟩
  | 82 => ⟨S524288, .f32⟩
  | 83 => ⟨S_, .f32⟩
  | 84 => ⟨S524288, .f32⟩
  | 85 => ⟨S524288, .f32⟩
  | 86 => ⟨S524288x1, .f32⟩
  | 87 => ⟨S524288x1, .f32⟩
  | 88 => ⟨S524288x1, .f32⟩
  | 89 => ⟨S_, .f32⟩
  | 90 => ⟨S524288, .f32⟩
  | 91 => ⟨S524288x1, .f32⟩
  | 92 => ⟨S524288x1, .f32⟩
  | 93 => ⟨S524288x3, .f32⟩
  | 94 => ⟨S_, .f32⟩
  | 95 => ⟨S524288, .f32⟩
  | 96 => ⟨S_, .f32⟩
  | 97 => ⟨S524288, .f32⟩
  | 98 => ⟨S524288, .f32⟩
  | 99 => ⟨S524288x1, .f32⟩
  | 100 => ⟨S524288x3, .f32⟩
  | 101 => ⟨S524288x3, .f32⟩
  | 102 => ⟨S524288x3, .f32⟩
  | 103 => ⟨S_, .f32⟩
  | 104 => ⟨S524288, .f32⟩
  | 105 => ⟨S524288x1, .f32⟩
  | 106 => ⟨S524288x3, .f32⟩
  | 107 => ⟨S524288x3, .f32⟩
  | 108 => ⟨S524288x3, .f32⟩
  | 109 => ⟨S_, .f32⟩
  | 110 => ⟨S524288, .f32⟩
  | 111 => ⟨S_, .f32⟩
  | 112 => ⟨S524288, .f32⟩
  | 113 => ⟨S524288, .f32⟩
  | 114 => ⟨S524288x1, .f32⟩
  | 115 => ⟨S524288x3, .f32⟩
  | 116 => ⟨S524288x3, .f32⟩
  | 117 => ⟨S524288x3, .f32⟩
  | 118 => ⟨S_, .f32⟩
  | 119 => ⟨S524288, .f32⟩
  | 120 => ⟨S524288x1, .f32⟩
  | 121 => ⟨S524288x3, .f32⟩
  | 122 => ⟨S524288x3, .f32⟩
  | 123 => ⟨S524288x65, .f32⟩
  | 124 => ⟨S524288x7, .f32⟩
  | 125 => ⟨S_, .f32⟩
  | 126 => ⟨S524288, .f32⟩
  | 127 => ⟨S_, .f32⟩
  | _ => ⟨S524288x65, .f32⟩

abbrev hbmTy0_1 (i : Nat) : BufTy := match i % 128 with
  | 0 => ⟨S524288, .f32⟩
  | 1 => ⟨S524288, .f32⟩
  | 2 => ⟨S524288x23, .f32⟩
  | 3 => ⟨S_, .f32⟩
  | 4 => ⟨S524288, .f32⟩
  | 5 => ⟨S_, .f32⟩
  | 6 => ⟨S524288, .f32⟩
  | 7 => ⟨S524288, .f32⟩
  | 8 => ⟨S524288x18, .f32⟩
  | 9 => ⟨S_, .f32⟩
  | 10 => ⟨S524288, .f32⟩
  | 11 => ⟨S_, .f32⟩
  | 12 => ⟨S524288, .f32⟩
  | 13 => ⟨S524288, .f32⟩
  | 14 => ⟨S524288x5, .f32⟩
  | 15 => ⟨S_, .f32⟩
  | 16 => ⟨S524288, .f32⟩
  | 17 => ⟨S_, .f32⟩
  | 18 => ⟨S524288, .f32⟩
  | 19 => ⟨S524288, .f32⟩
  | 20 => ⟨S524288x5, .f32⟩
  | 21 => ⟨S_, .f32⟩
  | 22 => ⟨S524288, .f32⟩
  | 23 => ⟨S_, .f32⟩
  | 24 => ⟨S524288, .f32⟩
  | 25 => ⟨S524288, .f32⟩
  | 26 => ⟨S524288x1, .f32⟩
  | 27 => ⟨S_, .f32⟩
  | 28 => ⟨S524288, .f32⟩
  | 29 => ⟨S_, .f32⟩
  | 30 => ⟨S524288, .f32⟩
  | 31 => ⟨S524288, .f32⟩
  | 32 => ⟨S524288x3, .f32⟩
  | 33 => ⟨S_, .f32⟩
  | 34 => ⟨S524288, .f32⟩
  | 35 => ⟨S_, .f32⟩
  | 36 => ⟨S524288, .f32⟩
  | 37 => ⟨S524288, .f32⟩
  | 38 => ⟨S524288x3, .f32⟩
  | 39 => ⟨S_, .f32⟩
  | 40 => ⟨S524288, .f32⟩
  | 41 => ⟨S_, .f32⟩
  | 42 => ⟨S524288, .f32⟩
  | 43 => ⟨S524288, .f32⟩
  | 44 => ⟨S524288x1, .f32⟩
  | 45 => ⟨S524288x1, .f32⟩
  | 46 => ⟨S524288x1, .f32⟩
  | 47 => ⟨S524288x1, .f32⟩
  | 48 => ⟨S524288x1, .f32⟩
  | 49 => ⟨S524288x1, .f32⟩
  | 50 => ⟨S524288x1, .f32⟩
  | 51 => ⟨S524288x1, .f32⟩
  | 52 => ⟨S524288x8, .f32⟩
  | 53 => ⟨S524288x53, .f32⟩
  | 54 => ⟨S_, .f32⟩
  | 55 => ⟨S524288, .f32⟩
  | 56 => ⟨S_, .f32⟩
  | 57 => ⟨S524288, .f32⟩
  | 58 => ⟨S524288, .f32⟩
  | 59 => ⟨S524288x12, .f32⟩
  | 60 => ⟨S_, .f32⟩
  | 61 => ⟨S524288, .f32⟩
  | 62 => ⟨S_, .f32⟩
  | 63 => ⟨S524288, .f32⟩
  | 64 => ⟨S524288, .f32⟩
  | 65 => ⟨S524288x1, .f32⟩
  | 66 => ⟨S524288x1, .f32⟩
  | 67 => ⟨S524288x2, .f32⟩
  | 68 => ⟨S_, .f32⟩
  | 69 => ⟨S524288, .f32⟩
  | 70 => ⟨S_, .f32⟩
  | 71 => ⟨S524288, .f32⟩
  | 72 => ⟨S524288, .f32⟩
  | 73 => ⟨S524288x1, .f32⟩
  | 74 => ⟨S524288x2, .f32⟩
  | 75 => ⟨S524288x2, .f32⟩
  | 76 => ⟨S524288x2, .f32⟩
  | 77 => ⟨S_, .f32⟩
  | 78 => ⟨S524288, .f32⟩
  | 79 => ⟨S524288x1, .f32⟩
  | 80 => ⟨S524288x2, .f32⟩
  | 81 => ⟨S524288x2, .f32⟩
  | 82 => ⟨S524288x4, .f32⟩
  | 83 => ⟨S_, .f32⟩
  | 84 => ⟨S524288, .f32⟩
  | 85 => ⟨S_, .f32⟩
  | 86 => ⟨S524288, .f32⟩
  | 87 => ⟨S524288, .f32⟩
  | 88 => ⟨S524288x1, .f32⟩
  | 89 => ⟨S524288x4, .f32⟩
  | 90 => ⟨S524288x4, .f32⟩
  | 91 => ⟨S524288x4, .f32⟩
  | 92 => ⟨S_, .f32⟩
  | 93 => ⟨S524288, .f32⟩
  | 94 => ⟨S524288x1, .f32⟩
  | 95 => ⟨S524288x4, .f32⟩
  | 96 => ⟨S524288x4, .f32⟩
  | 97 => ⟨S524288x4, .f32⟩
  | 98 => ⟨S_, .f32⟩
  | 99 => ⟨S524288, .f32⟩
  | 100 => ⟨S_, .f32⟩
  | 101 => ⟨S524288, .f32⟩
  | 102 => ⟨S524288, .f32⟩
  | 103 => ⟨S524288x1, .f32⟩
  | 104 => ⟨S524288x4, .f32⟩
  | 105 => ⟨S524288x4, .f32⟩
  | 106 => ⟨S524288x4, .f32⟩
  | 107 => ⟨S_, .f32⟩
  | 108 => ⟨S524288, .f32⟩
  | 109 => ⟨S524288x1, .f32⟩
  | 110 => ⟨S524288x4, .f32⟩
  | 111 => ⟨S524288x4, .f32⟩
  | 112 => ⟨S524288x8, .f32⟩
  | 113 => ⟨S_, .f32⟩
  | 114 => ⟨S524288x1, .f32⟩
  | 115 => ⟨S524288x76, .f32⟩
  | 116 => ⟨S_, .i32⟩
  | 117 => ⟨S65, .i32⟩
  | 118 => ⟨S65, .i32⟩
  | 119 => ⟨S65, .i32⟩
  | 120 => ⟨S65x1, .i32⟩
  | 121 => ⟨S524288x65, .f32⟩
  | 122 => ⟨S524288x65, .f32⟩
  | 123 => ⟨S_, .i32⟩
  | 124 => ⟨S65, .i32⟩
  | 125 => ⟨S65, .i32⟩
  | 126 => ⟨S65, .i32⟩
  | 127 => ⟨S65x1, .i32⟩
  | _ => ⟨S524288x65, .f32⟩

abbrev hbmTy0_2 (i : Nat) : BufTy := match i % 128 with
  | 0 => ⟨S524288x65, .f32⟩
  | 1 => ⟨S524288x65, .f32⟩
  | _ => ⟨S524288x65, .f32⟩

abbrev hbmTy (i : Nat) : BufTy := match i / 128 with
  | 0 => hbmTy0_0 i
  | 1 => hbmTy0_1 i
  | 2 => hbmTy0_2 i
  | _ => ⟨S524288x65, .f32⟩

abbrev bufTy : (tb : Table) → Fin (tcTables nBuf tb) → BufTy
  | .hbm, ⟨i, _⟩ => hbmTy i
  | _, _ => ⟨S524288x65, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_10 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_11 : Ref sig .tc := ⟨.hbm, 51, rfl⟩
abbrev main_v37 : Ref sig .tc := ⟨.hbm, 52, rfl⟩
abbrev main_cst_12 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_13 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_14 : Ref sig .tc := ⟨.hbm, 66, rfl⟩
abbrev main_v49 : Ref sig .tc := ⟨.hbm, 67, rfl⟩
abbrev main_cst_15 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_16 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_17 : Ref sig .tc := ⟨.hbm, 81, rfl⟩
abbrev main_v61 : Ref sig .tc := ⟨.hbm, 82, rfl⟩
abbrev main_cst_18 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_19 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_20 : Ref sig .tc := ⟨.hbm, 94, rfl⟩
abbrev main_v71 : Ref sig .tc := ⟨.hbm, 95, rfl⟩
abbrev main_cst_21 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_22 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_23 : Ref sig .tc := ⟨.hbm, 109, rfl⟩
abbrev main_v83 : Ref sig .tc := ⟨.hbm, 110, rfl⟩
abbrev main_cst_24 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_25 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_26 : Ref sig .tc := ⟨.hbm, 125, rfl⟩
abbrev main_v96 : Ref sig .tc := ⟨.hbm, 126, rfl⟩
abbrev main_cst_27 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_28 : Ref sig .tc := ⟨.hbm, 131, rfl⟩
abbrev main_v100 : Ref sig .tc := ⟨.hbm, 132, rfl⟩
abbrev main_cst_29 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_30 : Ref sig .tc := ⟨.hbm, 137, rfl⟩
abbrev main_v104 : Ref sig .tc := ⟨.hbm, 138, rfl⟩
abbrev main_cst_31 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_32 : Ref sig .tc := ⟨.hbm, 143, rfl⟩
abbrev main_v108 : Ref sig .tc := ⟨.hbm, 144, rfl⟩
abbrev main_cst_33 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_34 : Ref sig .tc := ⟨.hbm, 149, rfl⟩
abbrev main_v112 : Ref sig .tc := ⟨.hbm, 150, rfl⟩
abbrev main_cst_35 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_36 : Ref sig .tc := ⟨.hbm, 155, rfl⟩
abbrev main_v116 : Ref sig .tc := ⟨.hbm, 156, rfl⟩
abbrev main_cst_37 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_38 : Ref sig .tc := ⟨.hbm, 161, rfl⟩
abbrev main_v120 : Ref sig .tc := ⟨.hbm, 162, rfl⟩
abbrev main_cst_39 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_40 : Ref sig .tc := ⟨.hbm, 167, rfl⟩
abbrev main_v124 : Ref sig .tc := ⟨.hbm, 168, rfl⟩
abbrev main_cst_41 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_42 : Ref sig .tc := ⟨.hbm, 182, rfl⟩
abbrev main_v137 : Ref sig .tc := ⟨.hbm, 183, rfl⟩
abbrev main_cst_43 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_cst_44 : Ref sig .tc := ⟨.hbm, 188, rfl⟩
abbrev main_v141 : Ref sig .tc := ⟨.hbm, 189, rfl⟩
abbrev main_cst_45 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_46 : Ref sig .tc := ⟨.hbm, 196, rfl⟩
abbrev main_v147 : Ref sig .tc := ⟨.hbm, 197, rfl⟩
abbrev main_cst_47 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_cst_48 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_cst_49 : Ref sig .tc := ⟨.hbm, 211, rfl⟩
abbrev main_v159 : Ref sig .tc := ⟨.hbm, 212, rfl⟩
abbrev main_cst_50 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_cst_51 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_cst_52 : Ref sig .tc := ⟨.hbm, 226, rfl⟩
abbrev main_v171 : Ref sig .tc := ⟨.hbm, 227, rfl⟩
abbrev main_cst_53 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_cst_54 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_cst_55 : Ref sig .tc := ⟨.hbm, 241, rfl⟩
abbrev main_v183 : Ref sig .tc := ⟨.hbm, 242, rfl⟩
abbrev main_v184 : Ref sig .tc := ⟨.hbm, 243, rfl⟩
abbrev main_c_56 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_c_57 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩

abbrev nD : Nat := 1
abbrev τ : Topo := Topo.v7x

variable {F : FTy → Type} [FloatOps F]

class Facts₀ : Prop where
  slices_S524288x65_S524288x7_0_0 : S524288x65.Slices ![0, 0] S524288x7
  reducesTo_S524288x7_S524288_d1 : S524288x7.ReducesTo [1] S524288
  h_S_ : 0 < S_.numel
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x7_0_1 : S524288x1.BroadcastsInDim S524288x7 (![0, 1] : Fin 2 → Fin S524288x7.rank)
  slices_S524288x65_S524288x23_0_7 : S524288x65.Slices ![0, 7] S524288x23
  reducesTo_S524288x23_S524288_d1 : S524288x23.ReducesTo [1] S524288
  bcast_S524288x1_S524288x23_0_1 : S524288x1.BroadcastsInDim S524288x23 (![0, 1] : Fin 2 → Fin S524288x23.rank)
  slices_S524288x65_S524288x18_0_30 : S524288x65.Slices ![0, 30] S524288x18
  reducesTo_S524288x18_S524288_d1 : S524288x18.ReducesTo [1] S524288
  bcast_S524288x1_S524288x18_0_1 : S524288x1.BroadcastsInDim S524288x18 (![0, 1] : Fin 2 → Fin S524288x18.rank)
  slices_S524288x65_S524288x5_0_48 : S524288x65.Slices ![0, 48] S524288x5
  reducesTo_S524288x5_S524288_d1 : S524288x5.ReducesTo [1] S524288
  bcast_S524288x1_S524288x5_0_1 : S524288x1.BroadcastsInDim S524288x5 (![0, 1] : Fin 2 → Fin S524288x5.rank)
  slices_S524288x65_S524288x5_0_53 : S524288x65.Slices ![0, 53] S524288x5
  slices_S524288x65_S524288x1_0_58 : S524288x65.Slices ![0, 58] S524288x1
  reducesTo_S524288x1_S524288_d1 : S524288x1.ReducesTo [1] S524288
  slices_S524288x65_S524288x3_0_59 : S524288x65.Slices ![0, 59] S524288x3
  reducesTo_S524288x3_S524288_d1 : S524288x3.ReducesTo [1] S524288
  bcast_S524288x1_S524288x3_0_1 : S524288x1.BroadcastsInDim S524288x3 (![0, 1] : Fin 2 → Fin S524288x3.rank)
  slices_S524288x65_S524288x3_0_62 : S524288x65.Slices ![0, 62] S524288x3
  concatenates_S524288x7_S524288x23_S524288x18_S524288x5_S524288x5_S524288x1_S524288x3_S524288x3_S524288x65_d1 : Shape.Concatenates [S524288x7, S524288x23, S524288x18, S524288x5, S524288x5, S524288x1, S524288x3, S524288x3] S524288x65 1
  concatenates_S524288x1_S524288x1_S524288x1_S524288x1_S524288x1_S524288x1_S524288x1_S524288x1_S524288x8_d1 : Shape.Concatenates [S524288x1, S524288x1, S524288x1, S524288x1, S524288x1, S524288x1, S524288x1, S524288x1] S524288x8 1
  slices_S524288x65_S524288x53_0_0 : S524288x65.Slices ![0, 0] S524288x53
  reducesTo_S524288x53_S524288_d1 : S524288x53.ReducesTo [1] S524288
  slices_S524288x65_S524288x12_0_53 : S524288x65.Slices ![0, 53] S524288x12
  reducesTo_S524288x12_S524288_d1 : S524288x12.ReducesTo [1] S524288
  concatenates_S524288x1_S524288x1_S524288x2_d1 : Shape.Concatenates [S524288x1, S524288x1] S524288x2 1
  reducesTo_S524288x2_S524288_d1 : S524288x2.ReducesTo [1] S524288
  bcast_S524288x1_S524288x2_0_1 : S524288x1.BroadcastsInDim S524288x2 (![0, 1] : Fin 2 → Fin S524288x2.rank)
  slices_S524288x8_S524288x4_0_0 : S524288x8.Slices ![0, 0] S524288x4
  reducesTo_S524288x4_S524288_d1 : S524288x4.ReducesTo [1] S524288
  bcast_S524288x1_S524288x4_0_1 : S524288x1.BroadcastsInDim S524288x4 (![0, 1] : Fin 2 → Fin S524288x4.rank)
  slices_S524288x8_S524288x4_0_4 : S524288x8.Slices ![0, 4] S524288x4
  concatenates_S524288x4_S524288x4_S524288x8_d1 : Shape.Concatenates [S524288x4, S524288x4] S524288x8 1
  bcast_S_S524288x1 : S_.BroadcastsInDim S524288x1 (![] : Fin 0 → Fin S524288x1.rank)
  concatenates_S524288x65_S524288x8_S524288x2_S524288x1_S524288x76_d1 : Shape.Concatenates [S524288x65, S524288x8, S524288x2, S524288x1] S524288x76 1
  bcast_S_S65 : S_.BroadcastsInDim S65 (![] : Fin 0 → Fin S65.rank)
  bcast_S65_S65x1_0 : S65.BroadcastsInDim S65x1 (![0] : Fin 1 → Fin S65x1.rank)
  gather_S524288x8_S65x1_S524288x65_0_1_n_n_1_1_5242881_wf : GatherDims.WF S524288x8 S65x1 S524288x65 [0] [1] [] [1] [] 1 ![524288, 1]
  gather_S524288x2_S65x1_S524288x65_0_1_n_n_1_1_5242881_wf : GatherDims.WF S524288x2 S65x1 S524288x65 [0] [1] [] [1] [] 1 ![524288, 1]

variable [Facts₀]

def gather_S524288x8_S65x1_S524288x65_0_1_n_n_1_1_5242881 : GatherDims S524288x8 S65x1 S524288x65 where
  offsetDims := [0]
  collapsedSliceDims := [1]
  operandBatchingDims := []
  startIndicesBatchingDims := []
  startIndexMap := [1]
  indexVectorDim := 1
  sliceSizes := ![524288, 1]
  wf := gather_S524288x8_S65x1_S524288x65_0_1_n_n_1_1_5242881_wf
def gather_S524288x2_S65x1_S524288x65_0_1_n_n_1_1_5242881 : GatherDims S524288x2 S65x1 S524288x65 where
  offsetDims := [0]
  collapsedSliceDims := [1]
  operandBatchingDims := []
  startIndicesBatchingDims := []
  startIndexMap := [1]
  indexVectorDim := 1
  sliceSizes := ![524288, 1]
  wf := gather_S524288x2_S65x1_S524288x65_0_1_n_n_1_1_5242881_wf

class Facts : Prop extends Facts₀ where

variable [Facts]
-- ==== Proof.LibRowOps.lean ====
import Idealize.ShloMosaic.PureOps.Ideal.Laws
import Idealize.ShloMosaic.Lib.ValueIdx
import Idealize.ShloMosaic.Lib.ValueLayout
import Idealize.ShloMosaic.Lib.Pipeline.Value

/-!
# Rows of a matrix read one at a time

General lemmas, in the number of rows `N` and of columns `W`, that read the row-wise operations of a
`[N, W]` matrix at an entry `(r, c)`: a sum or a maximum along a row (a kernel's `vector.multi_reduction`, a host's
`stablehlo.reduce`), the keepdims column forms `[N] → [N, 1] → [N, W]` on both sides, a concatenation and a
column take along axis 1, and from them the softmax and the mean of a row as both sides spell them.
-/

set_option backward.isDefEq.respectTransparency.types false

noncomputable section

namespace RowOps

open Idealize.ShloMosaic Idealize.ShloMosaic.ValueIdx

variable {N W : Nat} {α : Type}

/-! ## The specification's words -/

/-- Entries `a, …, a + w - 1` of a family. -/
def seg {n : Nat} (x : Fin n → EReal) (a w : Nat) (h : a + w ≤ n) : Fin w → EReal :=
  fun k => x ⟨a + k.val, by have := k.isLt; omega⟩

/-- The largest entry of a family (from `-∞`), as both programs take it before a softmax. -/
def rmax (x : Fin W → EReal) : EReal :=
  max (Ideal.ofBits .f32 0xFF800000#32) ((Finset.univ : Finset (Fin W)).fold max (Ideal.ofBits .f32 0xFF800000#32) x)

/-- The softmax of a finite family of extended reals: `exp (x c - max x) / ∑ k, exp (x k - max x)`. -/
def smx (x : Fin W → EReal) (c : Fin W) : EReal :=
  Ideal.div (Ideal.exp (x c - rmax x)) (∑ k : Fin W, Ideal.exp (x k - rmax x))

/-- The mean of a family with the count given as a float word: `(∑ k, x k) / n`. -/
def mean (x : Fin W → EReal) (n : BitVec 32) : EReal :=
  Ideal.div (∑ k : Fin W, x k) (Ideal.ofBits .f32 n)

/-! ## A row reduction's source index -/

/-- The index a reduction along axis 1 reads: row `r`, column `k`. -/
theorem lift_row (h : (⟨2, ![N, W]⟩ : Shape).Reduces [1] ⟨1, ![N]⟩) (r : Fin N) (k : Fin W) :
    h.lift (ix1 r) k = ix2 r k := by
  funext c
  apply Fin.ext
  rw [Shape.Reduces.lift_val]
  unfold Shape.Reduces.liftVal
  match c with
  | ⟨0, _⟩ => simp
  | ⟨1, _⟩ => simp

/-! ## The kernel's spelling -/

/-- A kernel's sum along the rows, at row `r`. -/
theorem kRowSum_apply (v : FVec Ideal ⟨2, ![N, W]⟩ .f32) (acc : BitVec 32)
    (h : (⟨2, ![N, W]⟩ : Shape).Reduces [1] ⟨1, ![N]⟩) (hφ : FKind.Formats .f32) (hacc : acc = FKind.add.neutral .f32 hφ) (r : Fin N) :
    multiReduction .add [1] ⟨1, ![N]⟩ v acc h hφ hacc (ix1 r) = ∑ k : Fin W, v (ix2 r k) := by
  rw [Ideal.multiReduction_add_single]
  exact Finset.sum_congr rfl fun k _ => by rw [lift_row]

/-- A kernel's maximum along the rows, at row `r`. -/
theorem kRowMax_apply (v : FVec Ideal ⟨2, ![N, W]⟩ .f32) (acc : BitVec 32)
    (h : (⟨2, ![N, W]⟩ : Shape).Reduces [1] ⟨1, ![N]⟩) (hφ : FKind.Formats .f32) (hacc : acc = FKind.maximumf.neutral .f32 hφ) (r : Fin N) :
    multiReduction .maximumf [1] ⟨1, ![N]⟩ v acc h hφ hacc (ix1 r)
      = (Finset.univ : Finset (Fin W)).fold max (Ideal.ofBits .f32 acc) (fun k => v (ix2 r k)) := by
  rw [Ideal.multiReduction_maximumf_single]
  congr 1
  funext k
  exact congrArg v (lift_row h r k)

/-- A vector `[N]` cast to a column `[N, 1]`. -/
theorem castCol_apply (x : (⟨1, ![N]⟩ : Shape).Idx → α) (h : (⟨1, ![N]⟩ : Shape).ShapeCasts ⟨2, ![N, 1]⟩)
    (r : Fin N) (u : Fin 1) : shapeCast ⟨2, ![N, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[N, 1]` broadcast along the rows to `[N, W]`. -/
theorem bcastCol_apply (v : (⟨2, ![N, 1]⟩ : Shape).Idx → α) (h : (⟨2, ![N, 1]⟩ : Shape).Broadcasts ⟨2, ![N, W]⟩)
    (r : Fin N) (c : Fin W) : broadcastTo ⟨2, ![N, W]⟩ v h (ix2 r c) = v (ix2 r (0 : Fin 1)) := by
  refine broadcastTo_apply v h (ix2 r c) (ix2 r (0 : Fin 1)) fun ax => ?_
  match ax with
  | ⟨0, _⟩ =>
    show r.val = if N = 1 then 0 else r.val
    split
    · have := r.isLt; omega
    · rfl
  | ⟨1, _⟩ => rfl

/-! ## The host's spelling -/

/-- A host's sum along the rows, at row `r`: the initial value plus the row's sum. -/
theorem hRowSum_apply {u : Shape} (v : FVec Ideal ⟨2, ![N, W]⟩ .f32) (init : u.Idx → Ideal .f32)
    (h' : (⟨2, ![N, W]⟩ : Shape).ReducesTo [1] ⟨1, ![N]⟩) (h : (⟨2, ![N, W]⟩ : Shape).Reduces [1] ⟨1, ![N]⟩) (hu : 0 < u.numel) (r : Fin N) :
    Host.reduceAdd (F := Ideal) v init h' hu (ix1 r) = init (Shape.Idx.first hu) + ∑ k : Fin W, v (ix2 r k) := by
  unfold Host.reduceAdd
  rw [Ideal.hostReduceAdd_def, Ideal.hostReduceAdd_single h' h]
  congr 1
  exact Finset.sum_congr rfl fun k _ => by rw [lift_row]

/-- A host's maximum along the rows, at row `r`. -/
theorem hRowMax_apply {u : Shape} (v : FVec Ideal ⟨2, ![N, W]⟩ .f32) (init : u.Idx → Ideal .f32)
    (h' : (⟨2, ![N, W]⟩ : Shape).ReducesTo [1] ⟨1, ![N]⟩) (h : (⟨2, ![N, W]⟩ : Shape).Reduces [1] ⟨1, ![N]⟩) (hu : 0 < u.numel) (r : Fin N) :
    Host.reduce (FloatOps.maximumf (F := Ideal) (φ := .f32)) v init h' hu (ix1 r)
      = (Finset.univ : Finset (Fin W)).fold max (init (Shape.Idx.first hu)) (fun k => v (ix2 r k)) := by
  rw [Host.reduce_eq_fold_single _ v init h' h hu]
  congr 1
  funext k
  exact congrArg v (lift_row h r k)

/-- A scalar broadcast to a vector `[N]`. -/
theorem hBcast0_1_apply (x : (⟨0, ![]⟩ : Shape).Idx → α) (h : (⟨0, ![]⟩ : Shape).BroadcastsInDim ⟨1, ![N]⟩ ![])
    (r : Fin N) : broadcastInDim ⟨1, ![N]⟩ ![] h x (ix1 r) = x ix0 :=
  broadcastInDim_apply _ h x _ _ (fun a => a.elim0)

/-- A scalar broadcast to a matrix `[N, W]`. -/
theorem hBcast0_2_apply (x : (⟨0, ![]⟩ : Shape).Idx → α) (h : (⟨0, ![]⟩ : Shape).BroadcastsInDim ⟨2, ![N, W]⟩ ![])
    (r : Fin N) (c : Fin W) : broadcastInDim ⟨2, ![N, W]⟩ ![] h x (ix2 r c) = x ix0 :=
  broadcastInDim_apply _ h x _ _ (fun a => a.elim0)

/-- A vector `[N]` broadcast to a column `[N, 1]` (dims `[0]`). -/
theorem hBcastCol_apply (x : (⟨1, ![N]⟩ : Shape).Idx → α) (h : (⟨1, ![N]⟩ : Shape).BroadcastsInDim ⟨2, ![N, 1]⟩ ![0])
    (r : Fin N) (u : Fin 1) : broadcastInDim ⟨2, ![N, 1]⟩ ![0] h x (ix2 r u) = x (ix1 r) := by
  refine broadcastInDim_apply _ h x (ix2 r u) (ix1 r) fun a => ?_
  match a with
  | ⟨0, _⟩ =>
    show r.val = if N = 1 then 0 else r.val
    split
    · have := r.isLt; omega
    · rfl

/-- A column `[N, 1]` broadcast to `[N, W]` (dims `[0, 1]`). -/
theorem hBcastRow_apply (x : (⟨2, ![N, 1]⟩ : Shape).Idx → α) (h : (⟨2, ![N, 1]⟩ : Shape).BroadcastsInDim ⟨2, ![N, W]⟩ ![0, 1])
    (r : Fin N) (c : Fin W) : broadcastInDim ⟨2, ![N, W]⟩ ![0, 1] h x (ix2 r c) = x (ix2 r (0 : Fin 1)) := by
  refine broadcastInDim_apply _ h x (ix2 r c) (ix2 r (0 : Fin 1)) fun a => ?_
  match a with
  | ⟨0, _⟩ =>
    show r.val = if N = 1 then 0 else r.val
    split
    · have := r.isLt; omega
    · rfl
  | ⟨1, _⟩ => rfl

/-! ## A row's softmax and mean, as the kernel spells them -/

/-- The kernel's row maximum, kept as a column and broadcast back: every entry of row `r` reads the row's `rmax`. -/
theorem kMaxBack_apply (v : FVec Ideal ⟨2, ![N, W]⟩ .f32)
    (hR : (⟨2, ![N, W]⟩ : Shape).Reduces [1] ⟨1, ![N]⟩) (hC : (⟨1, ![N]⟩ : Shape).ShapeCasts ⟨2, ![N, 1]⟩)
    (hB : (⟨2, ![N, 1]⟩ : Shape).Broadcasts ⟨2, ![N, W]⟩) (hφ : FKind.Formats .f32)
    (hacc : (0xFF800000#32 : BitVec 32) = FKind.maximumf.neutral .f32 hφ) (r : Fin N) (c : Fin W) :
    broadcastTo ⟨2, ![N, W]⟩ (shapeCast ⟨2, ![N, 1]⟩ (maximumf (broadcast ⟨1, ![N]⟩ (Scalar.ofBits (F := Ideal) .f32 0xFF800000#32))
        (multiReduction .maximumf [1] ⟨1, ![N]⟩ v 0xFF800000#32 hR hφ hacc)) hC) hB (ix2 r c)
      = rmax (fun k => v (ix2 r k)) := by
  rw [bcastCol_apply, castCol_apply, maximumf_apply, broadcast_apply, kRowMax_apply]
  rfl

/-- The kernel's softmax along the rows of an `[N, W]` matrix, at `(r, c)`: the softmax of row `r`, at `c`. -/
theorem ksoftmax_apply (v : FVec Ideal ⟨2, ![N, W]⟩ .f32)
    (hR : (⟨2, ![N, W]⟩ : Shape).Reduces [1] ⟨1, ![N]⟩) (hC : (⟨1, ![N]⟩ : Shape).ShapeCasts ⟨2, ![N, 1]⟩)
    (hB : (⟨2, ![N, 1]⟩ : Shape).Broadcasts ⟨2, ![N, W]⟩) (hφ hφ' : FKind.Formats .f32)
    (hacc : (0xFF800000#32 : BitVec 32) = FKind.maximumf.neutral .f32 hφ)
    (hacc' : (0x00000000#32 : BitVec 32) = FKind.add.neutral .f32 hφ') (r : Fin N) (c : Fin W) :
    divf (exp (subf v (broadcastTo ⟨2, ![N, W]⟩ (shapeCast ⟨2, ![N, 1]⟩ (maximumf (broadcast ⟨1, ![N]⟩ (Scalar.ofBits (F := Ideal) .f32 0xFF800000#32))
        (multiReduction .maximumf [1] ⟨1, ![N]⟩ v 0xFF800000#32 hR hφ hacc)) hC) hB)))
      (broadcastTo ⟨2, ![N, W]⟩ (shapeCast ⟨2, ![N, 1]⟩ (multiReduction .add [1] ⟨1, ![N]⟩
        (exp (subf v (broadcastTo ⟨2, ![N, W]⟩ (shapeCast ⟨2, ![N, 1]⟩ (maximumf (broadcast ⟨1, ![N]⟩ (Scalar.ofBits (F := Ideal) .f32 0xFF800000#32))
          (multiReduction .maximumf [1] ⟨1, ![N]⟩ v 0xFF800000#32 hR hφ hacc)) hC) hB)))
        0x00000000#32 hR hφ' hacc') hC) hB) (ix2 r c)
      = smx (fun k => v (ix2 r k)) c := by
  have hM := fun c' : Fin W => kMaxBack_apply v hR hC hB hφ hacc r c'
  rw [divf_apply, bcastCol_apply, castCol_apply, kRowSum_apply]
  show Ideal.div (Ideal.exp (v (ix2 r c) - _)) (∑ k : Fin W, Ideal.exp (v (ix2 r k) - _)) = _
  simp only [hM]
  rfl

/-- The same for a one-column matrix, where the kernel subtracts and divides by the kept columns themselves. -/
theorem ksoftmax1_apply (v : FVec Ideal ⟨2, ![N, 1]⟩ .f32)
    (hR : (⟨2, ![N, 1]⟩ : Shape).Reduces [1] ⟨1, ![N]⟩) (hC : (⟨1, ![N]⟩ : Shape).ShapeCasts ⟨2, ![N, 1]⟩)
    (hφ hφ' : FKind.Formats .f32)
    (hacc : (0xFF800000#32 : BitVec 32) = FKind.maximumf.neutral .f32 hφ)
    (hacc' : (0x00000000#32 : BitVec 32) = FKind.add.neutral .f32 hφ') (r : Fin N) (c : Fin 1) :
    divf (exp (subf v (shapeCast ⟨2, ![N, 1]⟩ (maximumf (broadcast ⟨1, ![N]⟩ (Scalar.ofBits (F := Ideal) .f32 0xFF800000#32))
        (multiReduction .maximumf [1] ⟨1, ![N]⟩ v 0xFF800000#32 hR hφ hacc)) hC)))
      (shapeCast ⟨2, ![N, 1]⟩ (multiReduction .add [1] ⟨1, ![N]⟩
        (exp (subf v (shapeCast ⟨2, ![N, 1]⟩ (maximumf (broadcast ⟨1, ![N]⟩ (Scalar.ofBits (F := Ideal) .f32 0xFF800000#32))
          (multiReduction .maximumf [1] ⟨1, ![N]⟩ v 0xFF800000#32 hR hφ hacc)) hC)))
        0x00000000#32 hR hφ' hacc') hC) (ix2 r c)
      = smx (fun k => v (ix2 r k)) c := by
  have hM : ∀ c' : Fin 1, shapeCast ⟨2, ![N, 1]⟩ (maximumf (broadcast ⟨1, ![N]⟩ (Scalar.ofBits (F := Ideal) .f32 0xFF800000#32))
        (multiReduction .maximumf [1] ⟨1, ![N]⟩ v 0xFF800000#32 hR hφ hacc)) hC (ix2 r c') = rmax (fun k => v (ix2 r k)) := fun c' => by
    rw [castCol_apply, maximumf_apply, broadcast_apply, kRowMax_apply]; rfl
  rw [divf_apply, castCol_apply, kRowSum_apply]
  show Ideal.div (Ideal.exp (v (ix2 r c) - _)) (∑ k : Fin 1, Ideal.exp (v (ix2 r k) - _)) = _
  simp only [hM]
  rfl

/-- The kernel's mean along the rows, kept as a column: the row's sum over the splat count. -/
theorem kmean_apply (v : FVec Ideal ⟨2, ![N, W]⟩ .f32) (n : BitVec 32)
    (hR : (⟨2, ![N, W]⟩ : Shape).Reduces [1] ⟨1, ![N]⟩) (hC : (⟨1, ![N]⟩ : Shape).ShapeCasts ⟨2, ![N, 1]⟩)
    (hφ' : FKind.Formats .f32) (hacc' : (0x00000000#32 : BitVec 32) = FKind.add.neutral .f32 hφ') (r : Fin N) (u : Fin 1) :
    divf (shapeCast ⟨2, ![N, 1]⟩ (multiReduction .add [1] ⟨1, ![N]⟩ v 0x00000000#32 hR hφ' hacc') hC)
      (broadcast ⟨2, ![N, 1]⟩ (Scalar.ofBits (F := Ideal) .f32 n)) (ix2 r u)
      = mean (fun k => v (ix2 r k)) n := by
  rw [divf_apply, castCol_apply, kRowSum_apply, broadcast_apply]
  rfl

/-! ## A row's softmax and mean, as the host spells them -/

/-- The host's row maximum broadcast back over the row. -/
theorem hMaxBack_apply (v : FVec Ideal ⟨2, ![N, W]⟩ .f32)
    (hRT : (⟨2, ![N, W]⟩ : Shape).ReducesTo [1] ⟨1, ![N]⟩) (hR : (⟨2, ![N, W]⟩ : Shape).Reduces [1] ⟨1, ![N]⟩)
    (hS : 0 < (⟨0, ![]⟩ : Shape).numel)
    (hB0 : (⟨0, ![]⟩ : Shape).BroadcastsInDim ⟨1, ![N]⟩ ![]) (hB1 : (⟨1, ![N]⟩ : Shape).BroadcastsInDim ⟨2, ![N, 1]⟩ ![0])
    (hB2 : (⟨2, ![N, 1]⟩ : Shape).BroadcastsInDim ⟨2, ![N, W]⟩ ![0, 1]) (r : Fin N) (c : Fin W) :
    broadcastInDim ⟨2, ![N, W]⟩ ![0, 1] hB2 (broadcastInDim ⟨2, ![N, 1]⟩ ![0] hB1
        (maximumf (broadcastInDim ⟨1, ![N]⟩ ![] hB0 (constant (F := Ideal) ⟨0, ![]⟩ .f32 0xFF800000#32))
          (Host.reduce (FloatOps.maximumf (F := Ideal) (φ := .f32)) v (constant (F := Ideal) ⟨0, ![]⟩ .f32 0xFF800000#32) hRT hS))) (ix2 r c)
      = rmax (fun k => v (ix2 r k)) := by
  rw [hBcastRow_apply, hBcastCol_apply, maximumf_apply, hBcast0_1_apply, hRowMax_apply v _ hRT hR hS]
  rfl

/-- The host's softmax along the rows of an `[N, W]` matrix, at `(r, c)`. -/
theorem hsoftmax_apply (v : FVec Ideal ⟨2, ![N, W]⟩ .f32)
    (hRT : (⟨2, ![N, W]⟩ : Shape).ReducesTo [1] ⟨1, ![N]⟩) (hR : (⟨2, ![N, W]⟩ : Shape).Reduces [1] ⟨1, ![N]⟩)
    (hS : 0 < (⟨0, ![]⟩ : Shape).numel)
    (hB0 : (⟨0, ![]⟩ : Shape).BroadcastsInDim ⟨1, ![N]⟩ ![]) (hB1 : (⟨1, ![N]⟩ : Shape).BroadcastsInDim ⟨2, ![N, 1]⟩ ![0])
    (hB2 : (⟨2, ![N, 1]⟩ : Shape).BroadcastsInDim ⟨2, ![N, W]⟩ ![0, 1]) (r : Fin N) (c : Fin W) :
    Host.divf (Host.exp (subf v (broadcastInDim ⟨2, ![N, W]⟩ ![0, 1] hB2 (broadcastInDim ⟨2, ![N, 1]⟩ ![0] hB1
        (maximumf (broadcastInDim ⟨1, ![N]⟩ ![] hB0 (constant (F := Ideal) ⟨0, ![]⟩ .f32 0xFF800000#32))
          (Host.reduce (FloatOps.maximumf (F := Ideal) (φ := .f32)) v (constant (F := Ideal) ⟨0, ![]⟩ .f32 0xFF800000#32) hRT hS))))))
      (broadcastInDim ⟨2, ![N, W]⟩ ![0, 1] hB2 (broadcastInDim ⟨2, ![N, 1]⟩ ![0] hB1
        (Host.reduceAdd (Host.exp (subf v (broadcastInDim ⟨2, ![N, W]⟩ ![0, 1] hB2 (broadcastInDim ⟨2, ![N, 1]⟩ ![0] hB1
          (maximumf (broadcastInDim ⟨1, ![N]⟩ ![] hB0 (constant (F := Ideal) ⟨0, ![]⟩ .f32 0xFF800000#32))
            (Host.reduce (FloatOps.maximumf (F := Ideal) (φ := .f32)) v (constant (F := Ideal) ⟨0, ![]⟩ .f32 0xFF800000#32) hRT hS))))))
          (constant (F := Ideal) ⟨0, ![]⟩ .f32 0x00000000#32) hRT hS))) (ix2 r c)
      = smx (fun k => v (ix2 r k)) c := by
  have hM := fun c' : Fin W => hMaxBack_apply v hRT hR hS hB0 hB1 hB2 r c'
  set M := broadcastInDim ⟨2, ![N, W]⟩ ![0, 1] hB2 (broadcastInDim ⟨2, ![N, 1]⟩ ![0] hB1
        (maximumf (broadcastInDim ⟨1, ![N]⟩ ![] hB0 (constant (F := Ideal) ⟨0, ![]⟩ .f32 0xFF800000#32))
          (Host.reduce (FloatOps.maximumf (F := Ideal) (φ := .f32)) v (constant (F := Ideal) ⟨0, ![]⟩ .f32 0xFF800000#32) hRT hS))) with hMd
  have hE : ∀ k : Fin W, Host.exp (subf v M) (ix2 r k) = Ideal.exp (v (ix2 r k) - rmax (fun k => v (ix2 r k))) := fun k => by
    show Ideal.exp (v (ix2 r k) - M (ix2 r k)) = _
    rw [hM]
  show Ideal.div (Host.exp (subf v M) (ix2 r c)) _ = _
  rw [hBcastRow_apply, hBcastCol_apply, hRowSum_apply _ _ hRT hR hS]
  simp only [hE]
  show Ideal.div _ (Ideal.ofBits .f32 0x00000000#32 + _) = _
  rw [Ideal.ofBits_zero_f32, zero_add]
  rfl

/-- The same for a one-column matrix, where the host subtracts and divides by the kept columns themselves. -/
theorem hsoftmax1_apply (v : FVec Ideal ⟨2, ![N, 1]⟩ .f32)
    (hRT : (⟨2, ![N, 1]⟩ : Shape).ReducesTo [1] ⟨1, ![N]⟩) (hR : (⟨2, ![N, 1]⟩ : Shape).Reduces [1] ⟨1, ![N]⟩)
    (hS : 0 < (⟨0, ![]⟩ : Shape).numel)
    (hB0 : (⟨0, ![]⟩ : Shape).BroadcastsInDim ⟨1, ![N]⟩ ![]) (hB1 : (⟨1, ![N]⟩ : Shape).BroadcastsInDim ⟨2, ![N, 1]⟩ ![0])
    (r : Fin N) (c : Fin 1) :
    Host.divf (Host.exp (subf v (broadcastInDim ⟨2, ![N, 1]⟩ ![0] hB1
        (maximumf (broadcastInDim ⟨1, ![N]⟩ ![] hB0 (constant (F := Ideal) ⟨0, ![]⟩ .f32 0xFF800000#32))
          (Host.reduce (FloatOps.maximumf (F := Ideal) (φ := .f32)) v (constant (F := Ideal) ⟨0, ![]⟩ .f32 0xFF800000#32) hRT hS)))))
      (broadcastInDim ⟨2, ![N, 1]⟩ ![0] hB1
        (Host.reduceAdd (Host.exp (subf v (broadcastInDim ⟨2, ![N, 1]⟩ ![0] hB1
          (maximumf (broadcastInDim ⟨1, ![N]⟩ ![] hB0 (constant (F := Ideal) ⟨0, ![]⟩ .f32 0xFF800000#32))
            (Host.reduce (FloatOps.maximumf (F := Ideal) (φ := .f32)) v (constant (F := Ideal) ⟨0, ![]⟩ .f32 0xFF800000#32) hRT hS)))))
          (constant (F := Ideal) ⟨0, ![]⟩ .f32 0x00000000#32) hRT hS)) (ix2 r c)
      = smx (fun k => v (ix2 r k)) c := by
  set M := broadcastInDim ⟨2, ![N, 1]⟩ ![0] hB1
        (maximumf (broadcastInDim ⟨1, ![N]⟩ ![] hB0 (constant (F := Ideal) ⟨0, ![]⟩ .f32 0xFF800000#32))
          (Host.reduce (FloatOps.maximumf (F := Ideal) (φ := .f32)) v (constant (F := Ideal) ⟨0, ![]⟩ .f32 0xFF800000#32) hRT hS)) with hMd
  have hM : ∀ c' : Fin 1, M (ix2 r c') = rmax (fun k => v (ix2 r k)) := fun c' => by
    rw [hMd, hBcastCol_apply, maximumf_apply, hBcast0_1_apply, hRowMax_apply v _ hRT hR hS]; rfl
  have hE : ∀ k : Fin 1, Host.exp (subf v M) (ix2 r k) = Ideal.exp (v (ix2 r k) - rmax (fun k => v (ix2 r k))) := fun k => by
    show Ideal.exp (v (ix2 r k) - M (ix2 r k)) = _
    rw [hM]
  show Ideal.div (Host.exp (subf v M) (ix2 r c)) _ = _
  rw [hBcastCol_apply, hRowSum_apply _ _ hRT hR hS]
  simp only [hE]
  show Ideal.div _ (Ideal.ofBits .f32 0x00000000#32 + _) = _
  rw [Ideal.ofBits_zero_f32, zero_add]
  rfl

/-- The host's mean along the rows (a vector `[N]`): the row's sum over the broadcast count. -/
theorem hmean_apply (v : FVec Ideal ⟨2, ![N, W]⟩ .f32) (n : BitVec 32)
    (hRT : (⟨2, ![N, W]⟩ : Shape).ReducesTo [1] ⟨1, ![N]⟩) (hR : (⟨2, ![N, W]⟩ : Shape).Reduces [1] ⟨1, ![N]⟩)
    (hS : 0 < (⟨0, ![]⟩ : Shape).numel) (hB0 : (⟨0, ![]⟩ : Shape).BroadcastsInDim ⟨1, ![N]⟩ ![]) (r : Fin N) :
    Host.divf (Host.reduceAdd v (constant (F := Ideal) ⟨0, ![]⟩ .f32 0x00000000#32) hRT hS)
      (broadcastInDim ⟨1, ![N]⟩ ![] hB0 (constant (F := Ideal) ⟨0, ![]⟩ .f32 n)) (ix1 r)
      = mean (fun k => v (ix2 r k)) n := by
  show Ideal.div _ _ = _
  rw [hRowSum_apply _ _ hRT hR hS, hBcast0_1_apply]
  show Ideal.div (Ideal.ofBits .f32 0x00000000#32 + _) _ = _
  rw [Ideal.ofBits_zero_f32, zero_add]
  rfl

/-! ## A concatenation along the columns, and a take of columns -/

/-- A concatenation along axis 1 of matrices with `N` rows, read at `(r, c)`: piece `k`, whose columns start at `pre`,
    at `(r, c')` with `pre + c' = c`. -/
theorem concatCols_apply {T : Nat} (xs : List ((s : Shape) × (s.Idx → α)))
    (h : Shape.Concatenates (xs.map (·.1)) ⟨2, ![N, T]⟩ 1) (r : Fin N) (c : Fin T)
    (k : Nat) (hk : k < xs.length) (w : Nat) (x₁ : (⟨2, ![N, w]⟩ : Shape).Idx → α) (hxk : xs[k] = ⟨⟨2, ![N, w]⟩, x₁⟩)
    (pre : Nat)
    (hpre : (((xs.take k).map (·.1)).map fun s => if h : s.rank = 2 then s.size ((1 : Fin 2).cast h.symm) else 0).sum = pre)
    (c' : Fin w) (hc : pre + c'.val = c.val) :
    concatenate ⟨2, ![N, T]⟩ 1 xs h (ix2 r c) = x₁ (ix2 r c') :=
  concatenate_apply_piece (t := ⟨2, ![N, T]⟩) 1 xs h (ix2 r c) k hk ⟨2, ![N, w]⟩ x₁ hxk rfl pre hpre (ix2 r c')
    (fun b hb => by
      match b with
      | ⟨0, _⟩ => rfl
      | ⟨1, _⟩ => exact absurd rfl hb)
    hc

/-- The dimension numbers of `x[:, idx]` for an operand `[N, K]`, start indices `[C, 1]` and result `[N, C]`: the rows
    are the offset axis, the column is collapsed and is what the start index names. -/
abbrev colTakeDims (N K C : Nat) (wf : GatherDims.WF ⟨2, ![N, K]⟩ ⟨2, ![C, 1]⟩ ⟨2, ![N, C]⟩ [0] [1] [] [1] [] 1 ![N, 1]) :
    GatherDims ⟨2, ![N, K]⟩ ⟨2, ![C, 1]⟩ ⟨2, ![N, C]⟩ where
  offsetDims := [0]
  collapsedSliceDims := [1]
  operandBatchingDims := []
  startIndicesBatchingDims := []
  startIndexMap := [1]
  indexVectorDim := 1
  sliceSizes := ![N, 1]
  wf := wf

/-- THE COLUMN TAKE READ AT `(r, c)`: the operand's row `r` at the column `idx[c, 0]`, read signed and clamped into
    `[0, K − 1]`. -/
theorem gatherCols_apply {K C w : Nat} (hK : 0 < K)
    (wf : GatherDims.WF ⟨2, ![N, K]⟩ ⟨2, ![C, 1]⟩ ⟨2, ![N, C]⟩ [0] [1] [] [1] [] 1 ![N, 1])
    (x : (⟨2, ![N, K]⟩ : Shape).Idx → α) (idx : IVec ⟨2, ![C, 1]⟩ w) (r : Fin N) (c : Fin C) :
    Host.gather (colTakeDims N K C wf) x idx (ix2 r c)
      = x (ix2 r ⟨min (idx (ix2 c (0 : Fin 1))).toInt.toNat (K - 1), by omega⟩) := by
  have h01 : (0 : Fin 2) ∉ ([1] : List (Fin 2)) := by decide
  have e0 : (colTakeDims N K C wf).start (ix2 r c) idx (0 : Fin 2) + (colTakeDims N K C wf).batchCoord (ix2 r c) (0 : Fin 2)
      + (colTakeDims N K C wf).offCoord (ix2 r c) (0 : Fin 2) = r.val := by
    have hk : (0 : Fin 2) ∈ (colTakeDims N K C wf).sKept := (GatherDims.mem_sKept _ _).mpr ⟨h01, List.not_mem_nil⟩
    rw [GatherDims.batchCoord_eq_zero _ _ _ List.not_mem_nil, Nat.add_zero]
    unfold GatherDims.start GatherDims.offCoord
    rw [dif_neg h01, dif_pos hk, Nat.zero_add]
    rfl
  have e1 : (colTakeDims N K C wf).start (ix2 r c) idx (1 : Fin 2) + (colTakeDims N K C wf).batchCoord (ix2 r c) (1 : Fin 2)
      + (colTakeDims N K C wf).offCoord (ix2 r c) (1 : Fin 2) = min (idx (ix2 c (0 : Fin 1))).toInt.toNat (K - 1) := by
    have h1 : (1 : Fin 2) ∈ (colTakeDims N K C wf).startIndexMap := List.mem_singleton.mpr rfl
    rw [GatherDims.batchCoord_eq_zero _ _ _ List.not_mem_nil, Nat.add_zero,
      GatherDims.offCoord_eq_zero _ _ _ (fun h => ((GatherDims.mem_sKept _ _).mp h).1 (List.mem_singleton.mpr rfl)), Nat.add_zero]
    unfold GatherDims.start
    rw [dif_pos h1]
    have hsi : (colTakeDims N K C wf).siIdx (ix2 r c) ⟨List.idxOf (1 : Fin 2) (colTakeDims N K C wf).startIndexMap,
        List.idxOf_lt_length_iff.2 h1⟩ = ix2 c (0 : Fin 1) := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact e0
  | ⟨1, _⟩ => exact e1

end RowOps

end
-- ==== Proof.Spec.lean ====
import proofs.«121205_j47253230191392_1_alg».proof.Proof.LibRowOps

/-!
# What one row of the hierarchy computes

A row `x` of 65 leaf logits falls into eight sibling groups (columns 0–6, 7–29, 30–47, 48–52, 53–57, 58, 59–61, 62–64).
Each leaf's probability is the softmax within its group; each group's logit is the mean of its leaves, and the groups'
probabilities are the softmax among the first four and among the last four; the two top nodes' logits are the means of
columns 0–52 and 53–64, softmaxed. A leaf's path probability is the product leaf × group × top. The node row lists the 65 leaf
probabilities, the 8 group probabilities, the 2 top probabilities and the root's 1.
-/

noncomputable section

namespace HSpec

open Idealize.ShloMosaic RowOps

/-- The eight groups' logits: the mean of each group's leaves (the count as the float word both programs divide by). -/
def means (x : Fin 65 → EReal) : Fin 8 → EReal :=
  ![mean (seg x 0 7 (by omega)) 0x40E00000#32, mean (seg x 7 23 (by omega)) 0x41B80000#32,
    mean (seg x 30 18 (by omega)) 0x41900000#32, mean (seg x 48 5 (by omega)) 0x40A00000#32,
    mean (seg x 53 5 (by omega)) 0x40A00000#32, mean (seg x 58 1 (by omega)) 0x3F800000#32,
    mean (seg x 59 3 (by omega)) 0x40400000#32, mean (seg x 62 3 (by omega)) 0x40400000#32]

/-- The two top nodes' logits: the means of columns 0–52 and of columns 53–64. -/
def mtop (x : Fin 65 → EReal) : Fin 2 → EReal :=
  ![mean (seg x 0 53 (by omega)) 0x42540000#32, mean (seg x 53 12 (by omega)) 0x41400000#32]

/-- The two top nodes' probabilities. -/
def ptop (x : Fin 65 → EReal) : Fin 2 → EReal := smx (mtop x)

/-- The eight groups' probabilities: a softmax among groups 0–3 and one among groups 4–7. -/
def lvl2 (x : Fin 65 → EReal) (j : Fin 8) : EReal :=
  if h : j.val < 4 then smx (seg (means x) 0 4 (by omega)) ⟨j.val, h⟩
  else smx (seg (means x) 4 4 (by omega)) ⟨j.val - 4, by have := j.isLt; omega⟩

/-- A leaf's probability within its group. -/
def leaf (x : Fin 65 → EReal) (c : Fin 65) : EReal :=
  if h0 : c.val < 7 then smx (seg x 0 7 (by omega)) ⟨c.val - 0, by omega⟩
  else if h1 : c.val < 30 then smx (seg x 7 23 (by omega)) ⟨c.val - 7, by omega⟩
  else if h2 : c.val < 48 then smx (seg x 30 18 (by omega)) ⟨c.val - 30, by omega⟩
  else if h3 : c.val < 53 then smx (seg x 48 5 (by omega)) ⟨c.val - 48, by omega⟩
  else if h4 : c.val < 58 then smx (seg x 53 5 (by omega)) ⟨c.val - 53, by omega⟩
  else if h5 : c.val < 59 then smx (seg x 58 1 (by omega)) ⟨c.val - 58, by omega⟩
  else if h6 : c.val < 62 then smx (seg x 59 3 (by omega)) ⟨c.val - 59, by omega⟩
  else smx (seg x 62 3 (by omega)) ⟨c.val - 62, by have := c.isLt; omega⟩

/-- The group a leaf belongs to. -/
def gidx (c : Fin 65) : Fin 8 :=
  if c.val < 7 then 0 else if c.val < 30 then 1 else if c.val < 48 then 2 else if c.val < 53 then 3
  else if c.val < 58 then 4 else if c.val < 59 then 5 else if c.val < 62 then 6 else 7

/-- The top node above a leaf. -/
def tidx (c : Fin 65) : Fin 2 := if c.val < 53 then 0 else 1

/-- A leaf's path probability: leaf × group × top, multiplied in that order. -/
def pathRow (x : Fin 65 → EReal) (c : Fin 65) : EReal := leaf x c * lvl2 x (gidx c) * ptop x (tidx c)

/-- The node row: 65 leaves, 8 groups, 2 top nodes, the root. -/
def nodeRow (x : Fin 65 → EReal) (c : Fin 76) : EReal :=
  if h : c.val < 65 then leaf x ⟨c.val, h⟩
  else if h8 : c.val < 73 then lvl2 x ⟨c.val - 65, by omega⟩
  else if h2 : c.val < 75 then ptop x ⟨c.val - 73, by omega⟩
  else Ideal.ofBits .f32 0x3F800000#32

/-! ## The definitions read on each range of columns -/

theorem leaf_at (x : Fin 65 → EReal) (a w : Nat) (h : a + w ≤ 65) (k : Fin w)
    (hg : (a = 0 ∧ w = 7) ∨ (a = 7 ∧ w = 23) ∨ (a = 30 ∧ w = 18) ∨ (a = 48 ∧ w = 5) ∨ (a = 53 ∧ w = 5) ∨ (a = 58 ∧ w = 1)
      ∨ (a = 59 ∧ w = 3) ∨ (a = 62 ∧ w = 3)) :
    leaf x ⟨a + k.val, by have := k.isLt; omega⟩ = smx (seg x a w h) k := by
  have hk := k.isLt
  rcases hg with ⟨rfl, rfl⟩ | ⟨rfl, rfl⟩ | ⟨rfl, rfl⟩ | ⟨rfl, rfl⟩ | ⟨rfl, rfl⟩ | ⟨rfl, rfl⟩ | ⟨rfl, rfl⟩ | ⟨rfl, rfl⟩
  · unfold leaf; rw [dif_pos (show (0 + k.val) < 7 by omega)]; congr 1; exact Fin.ext (by simp)
  · unfold leaf
    rw [dif_neg (show ¬(7 + k.val) < 7 by omega), dif_pos (show (7 + k.val) < 30 by omega)]; congr 1; exact Fin.ext (by simp)
  · unfold leaf
    rw [dif_neg (show ¬(30 + k.val) < 7 by omega), dif_neg (show ¬(30 + k.val) < 30 by omega), dif_pos (show (30 + k.val) < 48 by omega)]
    congr 1; exact Fin.ext (by simp)
  · unfold leaf
    rw [dif_neg (show ¬(48 + k.val) < 7 by omega), dif_neg (show ¬(48 + k.val) < 30 by omega), dif_neg (show ¬(48 + k.val) < 48 by omega),
      dif_pos (show (48 + k.val) < 53 by omega)]
    congr 1; exact Fin.ext (by simp)
  · unfold leaf
    rw [dif_neg (show ¬(53 + k.val) < 7 by omega), dif_neg (show ¬(53 + k.val) < 30 by omega), dif_neg (show ¬(53 + k.val) < 48 by omega),
      dif_neg (show ¬(53 + k.val) < 53 by omega), dif_pos (show (53 + k.val) < 58 by omega)]
    congr 1; exact Fin.ext (by simp)
  · unfold leaf
    rw [dif_neg (show ¬(58 + k.val) < 7 by omega), dif_neg (show ¬(58 + k.val) < 30 by omega), dif_neg (show ¬(58 + k.val) < 48 by omega),
      dif_neg (show ¬(58 + k.val) < 53 by omega), dif_neg (show ¬(58 + k.val) < 58 by omega), dif_pos (show (58 + k.val) < 59 by omega)]
    congr 1; exact Fin.ext (by simp)
  · unfold leaf
    rw [dif_neg (show ¬(59 + k.val) < 7 by omega), dif_neg (show ¬(59 + k.val) < 30 by omega), dif_neg (show ¬(59 + k.val) < 48 by omega),
      dif_neg (show ¬(59 + k.val) < 53 by omega), dif_neg (show ¬(59 + k.val) < 58 by omega), dif_neg (show ¬(59 + k.val) < 59 by omega),
      dif_pos (show (59 + k.val) < 62 by omega)]
    congr 1; exact Fin.ext (by simp)
  · unfold leaf
    rw [dif_neg (show ¬(62 + k.val) < 7 by omega), dif_neg (show ¬(62 + k.val) < 30 by omega), dif_neg (show ¬(62 + k.val) < 48 by omega),
      dif_neg (show ¬(62 + k.val) < 53 by omega), dif_neg (show ¬(62 + k.val) < 58 by omega), dif_neg (show ¬(62 + k.val) < 59 by omega),
      dif_neg (show ¬(62 + k.val) < 62 by omega)]
    congr 1; exact Fin.ext (by simp)

theorem lvl2_lo (x : Fin 65 → EReal) (j : Fin 4) :
    lvl2 x ⟨0 + j.val, by have := j.isLt; omega⟩ = smx (seg (means x) 0 4 (by omega)) j := by
  have := j.isLt
  unfold lvl2; rw [dif_pos (show (0 + j.val) < 4 by omega)]; congr 1; exact Fin.ext (by simp)

theorem lvl2_hi (x : Fin 65 → EReal) (j : Fin 4) :
    lvl2 x ⟨4 + j.val, by have := j.isLt; omega⟩ = smx (seg (means x) 4 4 (by omega)) j := by
  have := j.isLt
  unfold lvl2; rw [dif_neg (show ¬(4 + j.val) < 4 by omega)]; congr 1; exact Fin.ext (by simp)

/-- Every column of the 65 lies in exactly one group, at some offset. -/
theorem col_cases (c : Fin 65) :
    (∃ k : Fin 7, c = ⟨0 + k.val, by have := k.isLt; omega⟩) ∨ (∃ k : Fin 23, c = ⟨7 + k.val, by have := k.isLt; omega⟩)
    ∨ (∃ k : Fin 18, c = ⟨30 + k.val, by have := k.isLt; omega⟩) ∨ (∃ k : Fin 5, c = ⟨48 + k.val, by have := k.isLt; omega⟩)
    ∨ (∃ k : Fin 5, c = ⟨53 + k.val, by have := k.isLt; omega⟩) ∨ (∃ k : Fin 1, c = ⟨58 + k.val, by have := k.isLt; omega⟩)
    ∨ (∃ k : Fin 3, c = ⟨59 + k.val, by have := k.isLt; omega⟩) ∨ (∃ k : Fin 3, c = ⟨62 + k.val, by have := k.isLt; omega⟩) := by
  have hc := c.isLt
  by_cases h0 : c.val < 7
  · exact .inl ⟨⟨c.val - 0, by omega⟩, Fin.ext (by simp)⟩
  by_cases h1 : c.val < 30
  · exact .inr (.inl ⟨⟨c.val - 7, by omega⟩, Fin.ext (by simp; omega)⟩)
  by_cases h2 : c.val < 48
  · exact .inr (.inr (.inl ⟨⟨c.val - 30, by omega⟩, Fin.ext (by simp; omega)⟩))
  by_cases h3 : c.val < 53
  · exact .inr (.inr (.inr (.inl ⟨⟨c.val - 48, by omega⟩, Fin.ext (by simp; omega)⟩)))
  by_cases h4 : c.val < 58
  · exact .inr (.inr (.inr (.inr (.inl ⟨⟨c.val - 53, by omega⟩, Fin.ext (by simp; omega)⟩))))
  by_cases h5 : c.val < 59
  · exact .inr (.inr (.inr (.inr (.inr (.inl ⟨⟨c.val - 58, by omega⟩, Fin.ext (by simp; omega)⟩)))))
  by_cases h6 : c.val < 62
  · exact .inr (.inr (.inr (.inr (.inr (.inr (.inl ⟨⟨c.val - 59, by omega⟩, Fin.ext (by simp; omega)⟩))))))
  · exact .inr (.inr (.inr (.inr (.inr (.inr (.inr ⟨⟨c.val - 62, by omega⟩, Fin.ext (by simp; omega)⟩))))))

theorem gidx_at (a w : Nat) (g : Fin 8) (h : a + w ≤ 65) (k : Fin w)
    (hg : (a = 0 ∧ w = 7 ∧ g = 0) ∨ (a = 7 ∧ w = 23 ∧ g = 1) ∨ (a = 30 ∧ w = 18 ∧ g = 2) ∨ (a = 48 ∧ w = 5 ∧ g = 3)
      ∨ (a = 53 ∧ w = 5 ∧ g = 4) ∨ (a = 58 ∧ w = 1 ∧ g = 5) ∨ (a = 59 ∧ w = 3 ∧ g = 6) ∨ (a = 62 ∧ w = 3 ∧ g = 7)) :
    gidx ⟨a + k.val, by have := k.isLt; omega⟩ = g := by
  have hk := k.isLt
  unfold gidx
  rcases hg with ⟨rfl, rfl, rfl⟩ | ⟨rfl, rfl, rfl⟩ | ⟨rfl, rfl, rfl⟩ | ⟨rfl, rfl, rfl⟩ | ⟨rfl, rfl, rfl⟩ | ⟨rfl, rfl, rfl⟩ | ⟨rfl, rfl, rfl⟩ | ⟨rfl, rfl, rfl⟩
  · rw [if_pos (show (0 + k.val) < 7 by omega)]
  · rw [if_neg (show ¬(7 + k.val) < 7 by omega), if_pos (show (7 + k.val) < 30 by omega)]
  · rw [if_neg (show ¬(30 + k.val) < 7 by omega), if_neg (show ¬(30 + k.val) < 30 by omega), if_pos (show (30 + k.val) < 48 by omega)]
  · rw [if_neg (show ¬(48 + k.val) < 7 by omega), if_neg (show ¬(48 + k.val) < 30 by omega), if_neg (show ¬(48 + k.val) < 48 by omega),
      if_pos (show (48 + k.val) < 53 by omega)]
  · rw [if_neg (show ¬(53 + k.val) < 7 by omega), if_neg (show ¬(53 + k.val) < 30 by omega), if_neg (show ¬(53 + k.val) < 48 by omega),
      if_neg (show ¬(53 + k.val) < 53 by omega), if_pos (show (53 + k.val) < 58 by omega)]
  · rw [if_neg (show ¬(58 + k.val) < 7 by omega), if_neg (show ¬(58 + k.val) < 30 by omega), if_neg (show ¬(58 + k.val) < 48 by omega),
      if_neg (show ¬(58 + k.val) < 53 by omega), if_neg (show ¬(58 + k.val) < 58 by omega), if_pos (show (58 + k.val) < 59 by omega)]
  · rw [if_neg (show ¬(59 + k.val) < 7 by omega), if_neg (show ¬(59 + k.val) < 30 by omega), if_neg (show ¬(59 + k.val) < 48 by omega),
      if_neg (show ¬(59 + k.val) < 53 by omega), if_neg (show ¬(59 + k.val) < 58 by omega), if_neg (show ¬(59 + k.val) < 59 by omega),
      if_pos (show (59 + k.val) < 62 by omega)]
  · rw [if_neg (show ¬(62 + k.val) < 7 by omega), if_neg (show ¬(62 + k.val) < 30 by omega), if_neg (show ¬(62 + k.val) < 48 by omega),
      if_neg (show ¬(62 + k.val) < 53 by omega), if_neg (show ¬(62 + k.val) < 58 by omega), if_neg (show ¬(62 + k.val) < 59 by omega),
      if_neg (show ¬(62 + k.val) < 62 by omega)]

theorem tidx_lo (c : Fin 65) (h : c.val < 53) : tidx c = 0 := by unfold tidx; rw [if_pos h]
theorem tidx_hi (c : Fin 65) (h : ¬c.val < 53) : tidx c = 1 := by unfold tidx; rw [if_neg h]

theorem nodeRow_leaf (x : Fin 65 → EReal) (c : Fin 65) : nodeRow x ⟨0 + c.val, by have := c.isLt; omega⟩ = leaf x c := by
  have := c.isLt
  unfold nodeRow; rw [dif_pos (show (0 + c.val) < 65 by omega)]; congr 1; exact Fin.ext (by simp)

theorem nodeRow_lvl2 (x : Fin 65 → EReal) (j : Fin 8) : nodeRow x ⟨65 + j.val, by have := j.isLt; omega⟩ = lvl2 x j := by
  have := j.isLt
  unfold nodeRow; rw [dif_neg (show ¬(65 + j.val) < 65 by omega), dif_pos (show (65 + j.val) < 73 by omega)]; congr 1; exact Fin.ext (by simp)

theorem nodeRow_top (x : Fin 65 → EReal) (j : Fin 2) : nodeRow x ⟨73 + j.val, by have := j.isLt; omega⟩ = ptop x j := by
  have := j.isLt
  unfold nodeRow
  rw [dif_neg (show ¬(73 + j.val) < 65 by omega), dif_neg (show ¬(73 + j.val) < 73 by omega), dif_pos (show (73 + j.val) < 75 by omega)]
  congr 1; exact Fin.ext (by simp)

theorem nodeRow_root (x : Fin 65 → EReal) : nodeRow x ⟨75, by omega⟩ = Ideal.ofBits .f32 0x3F800000#32 := by
  unfold nodeRow
  rw [dif_neg (show ¬(75 : Nat) < 65 by omega), dif_neg (show ¬(75 : Nat) < 73 by omega), dif_neg (show ¬(75 : Nat) < 75 by omega)]

/-- Every column of the 76 is a leaf's, a group's, a top node's, or the root's. -/
theorem col76_cases (c : Fin 76) :
    (∃ k : Fin 65, c = ⟨0 + k.val, by have := k.isLt; omega⟩) ∨ (∃ k : Fin 8, c = ⟨65 + k.val, by have := k.isLt; omega⟩)
    ∨ (∃ k : Fin 2, c = ⟨73 + k.val, by have := k.isLt; omega⟩) ∨ c = ⟨75, by omega⟩ := by
  have hc := c.isLt
  by_cases h0 : c.val < 65
  · exact .inl ⟨⟨c.val, h0⟩, Fin.ext (by simp)⟩
  by_cases h1 : c.val < 73
  · exact .inr (.inl ⟨⟨c.val - 65, by omega⟩, Fin.ext (by simp; omega)⟩)
  by_cases h2 : c.val < 75
  · exact .inr (.inr (.inl ⟨⟨c.val - 73, by omega⟩, Fin.ext (by simp; omega)⟩))
  · exact .inr (.inr (.inr (Fin.ext (by simp; omega))))

/-! ## Whole arrays: every row by itself -/

open Idealize.ShloMosaic.ValueIdx in
/-- Row `r` of a `[524288, 65]` array. -/
def arrRow (x : (⟨2, ![524288, 65]⟩ : Shape).Idx → EReal) (r : Fin 524288) : Fin 65 → EReal := fun k => x (ix2 r k)

open Idealize.ShloMosaic.ValueIdx in
/-- The array of path probabilities: each row's `pathRow`. -/
def pathArr (x : (⟨2, ![524288, 65]⟩ : Shape).Idx → EReal) : (⟨2, ![524288, 65]⟩ : Shape).Idx → EReal :=
  fun i => pathRow (arrRow x ⟨(i 0).val, idx2_lt0 i⟩) ⟨(i 1).val, idx2_lt1 i⟩

open Idealize.ShloMosaic.ValueIdx in
/-- The array of node probabilities: each row's `nodeRow`. -/
def nodeArr (x : (⟨2, ![524288, 65]⟩ : Shape).Idx → EReal) : (⟨2, ![524288, 76]⟩ : Shape).Idx → EReal :=
  fun i => nodeRow (arrRow x ⟨(i 0).val, idx2_lt0 i⟩) ⟨(i 1).val, idx2_lt1 i⟩

open Idealize.ShloMosaic.ValueIdx in
theorem pathArr_ix2 (x : (⟨2, ![524288, 65]⟩ : Shape).Idx → EReal) (r : Fin 524288) (c : Fin 65) :
    pathArr x (ix2 r c) = pathRow (arrRow x r) c := rfl

open Idealize.ShloMosaic.ValueIdx in
theorem nodeArr_ix2 (x : (⟨2, ![524288, 65]⟩ : Shape).Idx → EReal) (r : Fin 524288) (c : Fin 76) :
    nodeArr x (ix2 r c) = nodeRow (arrRow x r) c := rfl

end HSpec

end
-- ==== Proof.KernelValue.lean ====
import proofs.«121205_j47253230191392_1_alg».proof.Proof.Gen.KernelIdeal.Frame
import proofs.«121205_j47253230191392_1_alg».proof.Proof.LibRowOps
import proofs.«121205_j47253230191392_1_alg».proof.Proof.Spec

/-!
# The kernel's body, one block at a time

What the body leaves in the two output blocks, read at an entry `(r, c)`: the specification's row functions of row `r` of
the input block.
-/

set_option backward.isDefEq.respectTransparency.types false

noncomputable section

namespace Cert.KernelIdeal.KV

open Cert.KernelIdeal Cert.KernelIdeal.Gen Idealize.ShloMosaic Idealize.ShloMosaic.ValueIdx RowOps HSpec

/-- The offset of a whole-block access. -/
theorem hz : (![0, 0] : Fin 2 → Nat) = fun _ => 0 := funext fun a => by fin_cases a <;> rfl

/-- Row `r` of the input block. -/
abbrev row (x0 : FVec Ideal S8192x65 .f32) (r : Fin 8192) : Fin 65 → EReal := fun k => x0 (ix2 r k)

/-! ## The body's intermediate blocks -/

/-- The block of leaf probabilities. -/
def vLeaf (x0 : FVec Ideal S8192x65 .f32) : FVec Ideal S8192x65 .f32 :=
  k0_pay24 x0 (k0_pay3 x0) (k0_pay6 x0) (k0_pay11 (k0_pay9 x0) (k0_pay10 x0)) (k0_pay14 x0) (k0_pay17 x0) (k0_pay20 x0) (k0_pay21 x0)

/-- The block of the eight groups' mean logits. -/
def vMeans (x0 : FVec Ideal S8192x65 .f32) : FVec Ideal S8192x8 .f32 :=
  k0_pay25 x0 (k0_pay4 x0) (k0_pay7 x0) (k0_pay12 (k0_pay8 x0)) (k0_pay15 x0) (k0_pay18 x0) (k0_pay19 x0)

/-- The block of the two top probabilities. -/
def vTop (x0 : FVec Ideal S8192x65 .f32) : FVec Ideal S8192x2 .f32 := k0_pay28 (k0_pay26 x0) (k0_pay27 x0)

/-- The block of the eight group probabilities. -/
def vLvl2 (x0 : FVec Ideal S8192x65 .f32) : FVec Ideal S8192x8 .f32 := k0_pay29 (vMeans x0)

theorem out0_1_eq (x0 : FVec Ideal S8192x65 .f32) :
    out0_1 (F := Ideal) x0 = k0_pay1 (vLeaf x0) (vTop x0) (vLvl2 x0) (k0_pay31 (vMeans x0)) (k0_pay32 (vMeans x0)) := by
  unfold out0_1
  rw [View.canon_unit_zero hz]
  simp only [View.ld_unit_zero (S := S8192x65) hz]
  rfl

theorem out0_2_eq (x0 : FVec Ideal S8192x65 .f32) :
    out0_2 (F := Ideal) x0 = k0_pay30 (vLeaf x0) (vMeans x0) (k0_pay26 x0) (k0_pay27 x0) := by
  unfold out0_2
  rw [View.canon_unit_zero hz]
  simp only [View.ld_unit_zero (S := S8192x65) hz]
  rfl

/-! ## The eight-piece concatenation over the groups' widths -/

section cat8

variable (p0 : FVec Ideal S8192x7 .f32) (p1 : FVec Ideal S8192x23 .f32) (p2 : FVec Ideal S8192x18 .f32)
  (p3 p4 : FVec Ideal S8192x5 .f32) (p5 : FVec Ideal S8192x1 .f32) (p6 p7 : FVec Ideal S8192x3 .f32) (r : Fin 8192)

/-- Eight pieces of the groups' widths side by side. -/
abbrev cat8 : FVec Ideal S8192x65 .f32 :=
  concatenate S8192x65 1 [⟨S8192x7, p0⟩, ⟨S8192x23, p1⟩, ⟨S8192x18, p2⟩, ⟨S8192x5, p3⟩, ⟨S8192x5, p4⟩, ⟨S8192x1, p5⟩, ⟨S8192x3, p6⟩, ⟨S8192x3, p7⟩]
    concatenates_S8192x7_S8192x23_S8192x18_S8192x5_S8192x5_S8192x1_S8192x3_S8192x3_S8192x65_d1

theorem cat8_0 (k : Fin 7) : cat8 p0 p1 p2 p3 p4 p5 p6 p7 (ix2 r ⟨0 + k.val, by have := k.isLt; omega⟩) = p0 (ix2 r k) :=
  concatCols_apply _ _ r _ 0 (by simp) 7 p0 rfl 0 rfl k rfl

theorem cat8_1 (k : Fin 23) : cat8 p0 p1 p2 p3 p4 p5 p6 p7 (ix2 r ⟨7 + k.val, by have := k.isLt; omega⟩) = p1 (ix2 r k) :=
  concatCols_apply _ _ r _ 1 (by simp) 23 p1 rfl 7 rfl k rfl

theorem cat8_2 (k : Fin 18) : cat8 p0 p1 p2 p3 p4 p5 p6 p7 (ix2 r ⟨30 + k.val, by have := k.isLt; omega⟩) = p2 (ix2 r k) :=
  concatCols_apply _ _ r _ 2 (by simp) 18 p2 rfl 30 rfl k rfl

theorem cat8_3 (k : Fin 5) : cat8 p0 p1 p2 p3 p4 p5 p6 p7 (ix2 r ⟨48 + k.val, by have := k.isLt; omega⟩) = p3 (ix2 r k) :=
  concatCols_apply _ _ r _ 3 (by simp) 5 p3 rfl 48 rfl k rfl

theorem cat8_4 (k : Fin 5) : cat8 p0 p1 p2 p3 p4 p5 p6 p7 (ix2 r ⟨53 + k.val, by have := k.isLt; omega⟩) = p4 (ix2 r k) :=
  concatCols_apply _ _ r _ 4 (by simp) 5 p4 rfl 53 rfl k rfl

theorem cat8_5 (k : Fin 1) : cat8 p0 p1 p2 p3 p4 p5 p6 p7 (ix2 r ⟨58 + k.val, by have := k.isLt; omega⟩) = p5 (ix2 r k) :=
  concatCols_apply _ _ r _ 5 (by simp) 1 p5 rfl 58 rfl k rfl

theorem cat8_6 (k : Fin 3) : cat8 p0 p1 p2 p3 p4 p5 p6 p7 (ix2 r ⟨59 + k.val, by have := k.isLt; omega⟩) = p6 (ix2 r k) :=
  concatCols_apply _ _ r _ 6 (by simp) 3 p6 rfl 59 rfl k rfl

theorem cat8_7 (k : Fin 3) : cat8 p0 p1 p2 p3 p4 p5 p6 p7 (ix2 r ⟨62 + k.val, by have := k.isLt; omega⟩) = p7 (ix2 r k) :=
  concatCols_apply _ _ r _ 7 (by simp) 3 p7 rfl 62 rfl k rfl

end cat8

/-! ## The groups' softmaxes -/

section groups

variable (x0 : FVec Ideal S8192x65 .f32) (r : Fin 8192)

theorem pay3_apply (k : Fin 7) : k0_pay3 (F := Ideal) x0 (ix2 r k) = smx (seg (row x0 r) 0 7 (by omega)) k := by
  unfold k0_pay3 k0_pay2
  refine (ksoftmax_apply (N := 8192) (W := 7) _ reduces_S8192x7_S8192 shapeCasts_S8192_S8192x1 broadcasts_S8192x1_S8192x7 _ _ _ _ r k).trans ?_
  congr 1
  funext j
  exact slice2_axis1_eq 0 x0 slices_S8192x65_o0_0_S8192x7 r j

theorem pay6_apply (k : Fin 23) : k0_pay6 (F := Ideal) x0 (ix2 r k) = smx (seg (row x0 r) 7 23 (by omega)) k := by
  unfold k0_pay6 k0_pay5
  refine (ksoftmax_apply (N := 8192) (W := 23) _ reduces_S8192x23_S8192 shapeCasts_S8192_S8192x1 broadcasts_S8192x1_S8192x23 _ _ _ _ r k).trans ?_
  congr 1
  funext j
  exact slice2_axis1_eq 7 x0 slices_S8192x65_o0_7_S8192x23 r j

theorem pay11_apply (k : Fin 18) :
    k0_pay11 (F := Ideal) (k0_pay9 x0) (k0_pay10 x0) (ix2 r k) = smx (seg (row x0 r) 30 18 (by omega)) k := by
  unfold k0_pay11 k0_pay10 k0_pay9 k0_pay8
  refine (ksoftmax_apply (N := 8192) (W := 18) _ reduces_S8192x18_S8192 shapeCasts_S8192_S8192x1 broadcasts_S8192x1_S8192x18 _ _ _ _ r k).trans ?_
  congr 1
  funext j
  exact slice2_axis1_eq 30 x0 slices_S8192x65_o0_30_S8192x18 r j

theorem pay14_apply (k : Fin 5) : k0_pay14 (F := Ideal) x0 (ix2 r k) = smx (seg (row x0 r) 48 5 (by omega)) k := by
  unfold k0_pay14 k0_pay13
  refine (ksoftmax_apply (N := 8192) (W := 5) _ reduces_S8192x5_S8192 shapeCasts_S8192_S8192x1 broadcasts_S8192x1_S8192x5 _ _ _ _ r k).trans ?_
  congr 1
  funext j
  exact slice2_axis1_eq 48 x0 slices_S8192x65_o0_48_S8192x5 r j

theorem pay17_apply (k : Fin 5) : k0_pay17 (F := Ideal) x0 (ix2 r k) = smx (seg (row x0 r) 53 5 (by omega)) k := by
  unfold k0_pay17 k0_pay16
  refine (ksoftmax_apply (N := 8192) (W := 5) _ reduces_S8192x5_S8192 shapeCasts_S8192_S8192x1 broadcasts_S8192x1_S8192x5 _ _ _ _ r k).trans ?_
  congr 1
  funext j
  exact slice2_axis1_eq 53 x0 slices_S8192x65_o0_53_S8192x5 r j

/-- The block of leaf probabilities at `(r, c)`. -/
theorem vLeaf_apply (c : Fin 65) : vLeaf x0 (ix2 r c) = leaf (row x0 r) c := by
  rcases col_cases c with ⟨k, rfl⟩ | ⟨k, rfl⟩ | ⟨k, rfl⟩ | ⟨k, rfl⟩ | ⟨k, rfl⟩ | ⟨k, rfl⟩ | ⟨k, rfl⟩ | ⟨k, rfl⟩
  · rw [leaf_at (row x0 r) 0 7 (by omega) k (.inl ⟨rfl, rfl⟩)]
    unfold vLeaf k0_pay24
    exact (cat8_0 _ _ _ _ _ _ _ _ r k).trans (pay3_apply x0 r k)
  · rw [leaf_at (row x0 r) 7 23 (by omega) k (.inr (.inl ⟨rfl, rfl⟩))]
    unfold vLeaf k0_pay24
    exact (cat8_1 _ _ _ _ _ _ _ _ r k).trans (pay6_apply x0 r k)
  · rw [leaf_at (row x0 r) 30 18 (by omega) k (.inr (.inr (.inl ⟨rfl, rfl⟩)))]
    unfold vLeaf k0_pay24
    exact (cat8_2 _ _ _ _ _ _ _ _ r k).trans (pay11_apply x0 r k)
  · rw [leaf_at (row x0 r) 48 5 (by omega) k (.inr (.inr (.inr (.inl ⟨rfl, rfl⟩))))]
    unfold vLeaf k0_pay24
    exact (cat8_3 _ _ _ _ _ _ _ _ r k).trans (pay14_apply x0 r k)
  · rw [leaf_at (row x0 r) 53 5 (by omega) k (.inr (.inr (.inr (.inr (.inl ⟨rfl, rfl⟩)))))]
    unfold vLeaf k0_pay24
    exact (cat8_4 _ _ _ _ _ _ _ _ r k).trans (pay17_apply x0 r k)
  · rw [leaf_at (row x0 r) 58 1 (by omega) k (.inr (.inr (.inr (.inr (.inr (.inl ⟨rfl, rfl⟩))))))]
    unfold vLeaf k0_pay24
    refine (cat8_5 _ _ _ _ _ _ _ _ r k).trans ?_
    unfold k0_pay21 k0_pay20 k0_pay19
    refine (ksoftmax1_apply (N := 8192) _ reduces_S8192x1_S8192 shapeCasts_S8192_S8192x1 _ _ _ _ r k).trans ?_
    congr 1
    funext j
    exact slice2_axis1_eq 58 x0 slices_S8192x65_o0_58_S8192x1 r j
  · rw [leaf_at (row x0 r) 59 3 (by omega) k (.inr (.inr (.inr (.inr (.inr (.inr (.inl ⟨rfl, rfl⟩)))))))]
    unfold vLeaf k0_pay24
    refine (cat8_6 _ _ _ _ _ _ _ _ r k).trans ?_
    unfold k0_pay22
    refine (ksoftmax_apply (N := 8192) (W := 3) _ reduces_S8192x3_S8192 shapeCasts_S8192_S8192x1 broadcasts_S8192x1_S8192x3 _ _ _ _ r k).trans ?_
    congr 1
    funext j
    exact slice2_axis1_eq 59 x0 slices_S8192x65_o0_59_S8192x3 r j
  · rw [leaf_at (row x0 r) 62 3 (by omega) k (.inr (.inr (.inr (.inr (.inr (.inr (.inr ⟨rfl, rfl⟩)))))))]
    unfold vLeaf k0_pay24
    refine (cat8_7 _ _ _ _ _ _ _ _ r k).trans ?_
    unfold k0_pay23
    refine (ksoftmax_apply (N := 8192) (W := 3) _ reduces_S8192x3_S8192 shapeCasts_S8192_S8192x1 broadcasts_S8192x1_S8192x3 _ _ _ _ r k).trans ?_
    congr 1
    funext j
    exact slice2_axis1_eq 62 x0 slices_S8192x65_o0_62_S8192x3 r j

end groups

/-! ## The means -/

section means

variable (x0 : FVec Ideal S8192x65 .f32) (r : Fin 8192)

theorem pay4_apply (u : Fin 1) : k0_pay4 (F := Ideal) x0 (ix2 r u) = mean (seg (row x0 r) 0 7 (by omega)) 0x40E00000#32 := by
  unfold k0_pay4 k0_pay2
  refine (kmean_apply (N := 8192) (W := 7) _ _ reduces_S8192x7_S8192 shapeCasts_S8192_S8192x1 _ _ r u).trans ?_
  congr 1
  funext j
  exact slice2_axis1_eq 0 x0 slices_S8192x65_o0_0_S8192x7 r j

theorem pay7_apply (u : Fin 1) : k0_pay7 (F := Ideal) x0 (ix2 r u) = mean (seg (row x0 r) 7 23 (by omega)) 0x41B80000#32 := by
  unfold k0_pay7 k0_pay5
  refine (kmean_apply (N := 8192) (W := 23) _ _ reduces_S8192x23_S8192 shapeCasts_S8192_S8192x1 _ _ r u).trans ?_
  congr 1
  funext j
  exact slice2_axis1_eq 7 x0 slices_S8192x65_o0_7_S8192x23 r j

theorem pay12_apply (u : Fin 1) :
    k0_pay12 (F := Ideal) (k0_pay8 x0) (ix2 r u) = mean (seg (row x0 r) 30 18 (by omega)) 0x41900000#32 := by
  unfold k0_pay12 k0_pay8
  refine (kmean_apply (N := 8192) (W := 18) _ _ reduces_S8192x18_S8192 shapeCasts_S8192_S8192x1 _ _ r u).trans ?_
  congr 1
  funext j
  exact slice2_axis1_eq 30 x0 slices_S8192x65_o0_30_S8192x18 r j

theorem pay15_apply (u : Fin 1) : k0_pay15 (F := Ideal) x0 (ix2 r u) = mean (seg (row x0 r) 48 5 (by omega)) 0x40A00000#32 := by
  unfold k0_pay15 k0_pay13
  refine (kmean_apply (N := 8192) (W := 5) _ _ reduces_S8192x5_S8192 shapeCasts_S8192_S8192x1 _ _ r u).trans ?_
  congr 1
  funext j
  exact slice2_axis1_eq 48 x0 slices_S8192x65_o0_48_S8192x5 r j

theorem pay18_apply (u : Fin 1) : k0_pay18 (F := Ideal) x0 (ix2 r u) = mean (seg (row x0 r) 53 5 (by omega)) 0x40A00000#32 := by
  unfold k0_pay18 k0_pay16
  refine (kmean_apply (N := 8192) (W := 5) _ _ reduces_S8192x5_S8192 shapeCasts_S8192_S8192x1 _ _ r u).trans ?_
  congr 1
  funext j
  exact slice2_axis1_eq 53 x0 slices_S8192x65_o0_53_S8192x5 r j

/-- Eight single columns side by side. -/
abbrev cat1x8 (q0 q1 q2 q3 q4 q5 q6 q7 : FVec Ideal S8192x1 .f32) : FVec Ideal S8192x8 .f32 :=
  concatenate S8192x8 1 [⟨S8192x1, q0⟩, ⟨S8192x1, q1⟩, ⟨S8192x1, q2⟩, ⟨S8192x1, q3⟩, ⟨S8192x1, q4⟩, ⟨S8192x1, q5⟩, ⟨S8192x1, q6⟩, ⟨S8192x1, q7⟩]
    concatenates_S8192x1_S8192x1_S8192x1_S8192x1_S8192x1_S8192x1_S8192x1_S8192x1_S8192x8_d1

/-- The block of the groups' means at `(r, j)`. -/
theorem vMeans_apply (j : Fin 8) : vMeans x0 (ix2 r j) = means (row x0 r) j := by
  match j with
  | ⟨0, _⟩ =>
    unfold vMeans k0_pay25
    refine (concatCols_apply _ _ r _ 0 (by simp) 1 _ rfl 0 rfl (0 : Fin 1) rfl).trans ?_
    exact pay4_apply x0 r 0
  | ⟨1, _⟩ =>
    unfold vMeans k0_pay25
    refine (concatCols_apply _ _ r _ 1 (by simp) 1 _ rfl 1 rfl (0 : Fin 1) rfl).trans ?_
    exact pay7_apply x0 r 0
  | ⟨2, _⟩ =>
    unfold vMeans k0_pay25
    refine (concatCols_apply _ _ r _ 2 (by simp) 1 _ rfl 2 rfl (0 : Fin 1) rfl).trans ?_
    exact pay12_apply x0 r 0
  | ⟨3, _⟩ =>
    unfold vMeans k0_pay25
    refine (concatCols_apply _ _ r _ 3 (by simp) 1 _ rfl 3 rfl (0 : Fin 1) rfl).trans ?_
    exact pay15_apply x0 r 0
  | ⟨4, _⟩ =>
    unfold vMeans k0_pay25
    refine (concatCols_apply _ _ r _ 4 (by simp) 1 _ rfl 4 rfl (0 : Fin 1) rfl).trans ?_
    exact pay18_apply x0 r 0
  | ⟨5, _⟩ =>
    unfold vMeans k0_pay25
    refine (concatCols_apply _ _ r _ 5 (by simp) 1 _ rfl 5 rfl (0 : Fin 1) rfl).trans ?_
    unfold k0_pay19
    refine (kmean_apply (N := 8192) (W := 1) _ _ reduces_S8192x1_S8192 shapeCasts_S8192_S8192x1 _ _ r 0).trans ?_
    show mean _ _ = mean (seg (row x0 r) 58 1 (by omega)) 0x3F800000#32
    congr 1
    funext j
    exact slice2_axis1_eq 58 x0 slices_S8192x65_o0_58_S8192x1 r j
  | ⟨6, _⟩ =>
    unfold vMeans k0_pay25
    refine (concatCols_apply _ _ r _ 6 (by simp) 1 _ rfl 6 rfl (0 : Fin 1) rfl).trans ?_
    unfold k0_pay22
    refine (kmean_apply (N := 8192) (W := 3) _ _ reduces_S8192x3_S8192 shapeCasts_S8192_S8192x1 _ _ r 0).trans ?_
    show mean _ _ = mean (seg (row x0 r) 59 3 (by omega)) 0x40400000#32
    congr 1
    funext j
    exact slice2_axis1_eq 59 x0 slices_S8192x65_o0_59_S8192x3 r j
  | ⟨7, _⟩ =>
    unfold vMeans k0_pay25
    refine (concatCols_apply _ _ r _ 7 (by simp) 1 _ rfl 7 rfl (0 : Fin 1) rfl).trans ?_
    unfold k0_pay23
    refine (kmean_apply (N := 8192) (W := 3) _ _ reduces_S8192x3_S8192 shapeCasts_S8192_S8192x1 _ _ r 0).trans ?_
    show mean _ _ = mean (seg (row x0 r) 62 3 (by omega)) 0x40400000#32
    congr 1
    funext j
    exact slice2_axis1_eq 62 x0 slices_S8192x65_o0_62_S8192x3 r j

/-- Every column of the 8 lies in the first or in the second half, at some offset. -/
theorem col8_cases (j : Fin 8) :
    (∃ i : Fin 4, j = ⟨0 + i.val, by have := i.isLt; omega⟩) ∨ (∃ i : Fin 4, j = ⟨4 + i.val, by have := i.isLt; omega⟩) := by
  have hj := j.isLt
  by_cases h : j.val < 4
  · exact .inl ⟨⟨j.val, h⟩, Fin.ext (by simp)⟩
  · exact .inr ⟨⟨j.val - 4, by omega⟩, Fin.ext (by simp; omega)⟩

/-- The block of group probabilities at `(r, j)`. -/
theorem vLvl2_apply (j : Fin 8) : vLvl2 x0 (ix2 r j) = lvl2 (row x0 r) j := by
  rcases col8_cases j with ⟨i, rfl⟩ | ⟨i, rfl⟩
  · rw [lvl2_lo (row x0 r) i]
    unfold vLvl2 k0_pay29
    refine (concatCols_apply _ _ r _ 0 (by simp) 4 _ rfl 0 rfl i rfl).trans ?_
    refine (ksoftmax_apply (N := 8192) (W := 4) _ reduces_S8192x4_S8192 shapeCasts_S8192_S8192x1 broadcasts_S8192x1_S8192x4 _ _ _ _ r _).trans ?_
    congr 1
    funext k
    exact (slice2_axis1_eq 0 (vMeans x0) slices_S8192x8_o0_0_S8192x4 r k).trans (vMeans_apply x0 r _)
  · rw [lvl2_hi (row x0 r) i]
    unfold vLvl2 k0_pay29
    refine (concatCols_apply _ _ r _ 1 (by simp) 4 _ rfl 4 rfl i rfl).trans ?_
    refine (ksoftmax_apply (N := 8192) (W := 4) _ reduces_S8192x4_S8192 shapeCasts_S8192_S8192x1 broadcasts_S8192x1_S8192x4 _ _ _ _ r _).trans ?_
    congr 1
    funext k
    exact (slice2_axis1_eq 4 (vMeans x0) slices_S8192x8_o0_4_S8192x4 r k).trans (vMeans_apply x0 r _)

theorem pay26_apply (u : Fin 1) : k0_pay26 (F := Ideal) x0 (ix2 r u) = mean (seg (row x0 r) 0 53 (by omega)) 0x42540000#32 := by
  unfold k0_pay26
  refine (kmean_apply (N := 8192) (W := 53) _ _ reduces_S8192x53_S8192 shapeCasts_S8192_S8192x1 _ _ r u).trans ?_
  congr 1
  funext j
  exact slice2_axis1_eq 0 x0 slices_S8192x65_o0_0_S8192x53 r j

/-- The block of top probabilities at `(r, j)`. -/
theorem vTop_apply (j : Fin 2) : vTop x0 (ix2 r j) = ptop (row x0 r) j := by
  unfold vTop k0_pay28
  refine (ksoftmax_apply (N := 8192) (W := 2) _ reduces_S8192x2_S8192 shapeCasts_S8192_S8192x1 broadcasts_S8192x1_S8192x2 _ _ _ _ r j).trans ?_
  unfold ptop
  congr 1
  funext k
  match k with
  | ⟨0, _⟩ =>
    refine (concatCols_apply _ _ r _ 0 (by simp) 1 _ rfl 0 rfl (0 : Fin 1) rfl).trans ?_
    exact pay26_apply x0 r 0
  | ⟨1, _⟩ =>
    refine (concatCols_apply _ _ r _ 1 (by simp) 1 _ rfl 1 rfl (0 : Fin 1) rfl).trans ?_
    unfold k0_pay27
    refine (kmean_apply (N := 8192) (W := 12) _ _ reduces_S8192x12_S8192 shapeCasts_S8192_S8192x1 _ _ r 0).trans ?_
    show mean _ _ = mean (seg (row x0 r) 53 12 (by omega)) 0x41400000#32
    congr 1
    funext j
    exact slice2_axis1_eq 53 x0 slices_S8192x65_o0_53_S8192x12 r j

end means

/-! ## The path block -/

section path

/-- One column `g` of a block with 8192 rows, cast to itself and broadcast over `W` columns: every entry of row `r` reads `(r, g)`. -/
theorem bsel {M W : Nat} (g : Nat) (hg : g < M) (X : FVec Ideal ⟨2, ![8192, M]⟩ .f32)
    (hS : (⟨2, ![8192, M]⟩ : Shape).Slices ![0, g] S8192x1) (hC : S8192x1.ShapeCasts S8192x1)
    (hB : S8192x1.Broadcasts ⟨2, ![8192, W]⟩) (r : Fin 8192) (k : Fin W) :
    broadcastTo ⟨2, ![8192, W]⟩ (shapeCast S8192x1 (extractStridedSlice S8192x1 ![0, g] X hS) hC) hB (ix2 r k) = X (ix2 r ⟨g, hg⟩) := by
  refine (bcastCol_apply _ hB r k).trans ?_
  rw [shapeCast_self]
  exact slice2_axis1_eq g X hS r (0 : Fin 1)

/-- The group probabilities spread over the leaves' columns. -/
def grpOf (v175 : FVec Ideal S8192x8 .f32) (v180 : FVec Ideal S8192x7 .f32) (v182 : FVec Ideal S8192x1 .f32) : FVec Ideal S8192x65 .f32 :=
  cat8 v180 (broadcastTo S8192x23 v182 broadcasts_S8192x1_S8192x23)
    (broadcastTo S8192x18 (shapeCast S8192x1 (extractStridedSlice S8192x1 ![0, 2] v175 slices_S8192x8_o0_2_S8192x1) shapeCasts_S8192x1_S8192x1) broadcasts_S8192x1_S8192x18)
    (broadcastTo S8192x5 (shapeCast S8192x1 (extractStridedSlice S8192x1 ![0, 3] v175 slices_S8192x8_o0_3_S8192x1) shapeCasts_S8192x1_S8192x1) broadcasts_S8192x1_S8192x5)
    (broadcastTo S8192x5 (shapeCast S8192x1 (extractStridedSlice S8192x1 ![0, 4] v175 slices_S8192x8_o0_4_S8192x1) shapeCasts_S8192x1_S8192x1) broadcasts_S8192x1_S8192x5)
    (extractStridedSlice S8192x1 ![0, 5] v175 slices_S8192x8_o0_5_S8192x1)
    (broadcastTo S8192x3 (shapeCast S8192x1 (extractStridedSlice S8192x1 ![0, 6] v175 slices_S8192x8_o0_6_S8192x1) shapeCasts_S8192x1_S8192x1) broadcasts_S8192x1_S8192x3)
    (broadcastTo S8192x3 (shapeCast S8192x1 (extractStridedSlice S8192x1 ![0, 7] v175 slices_S8192x8_o0_7_S8192x1) shapeCasts_S8192x1_S8192x1) broadcasts_S8192x1_S8192x3)

/-- The top probabilities spread over the leaves' columns. -/
def topOf (v150 : FVec Ideal S8192x2 .f32) : FVec Ideal S8192x65 .f32 :=
  concatenate S8192x65 1
    [⟨S8192x53, broadcastTo S8192x53 (shapeCast S8192x1 (extractStridedSlice S8192x1 ![0, 0] v150 slices_S8192x2_o0_0_S8192x1) shapeCasts_S8192x1_S8192x1) broadcasts_S8192x1_S8192x53⟩,
     ⟨S8192x12, broadcastTo S8192x12 (shapeCast S8192x1 (extractStridedSlice S8192x1 ![0, 1] v150 slices_S8192x2_o0_1_S8192x1) shapeCasts_S8192x1_S8192x1) broadcasts_S8192x1_S8192x12⟩]
    concatenates_S8192x53_S8192x12_S8192x65_d1

/-- The stored path block is the product leaf × group × top, entry by entry. -/
theorem pay1_apply (v127 : FVec Ideal S8192x65 .f32) (v150 : FVec Ideal S8192x2 .f32) (v175 : FVec Ideal S8192x8 .f32)
    (v180 : FVec Ideal S8192x7 .f32) (v182 : FVec Ideal S8192x1 .f32) (i : S8192x65.Idx) :
    k0_pay1 (F := Ideal) v127 v150 v175 v180 v182 i = v127 i * grpOf v175 v180 v182 i * topOf v150 i := rfl

variable (x0 : FVec Ideal S8192x65 .f32) (r : Fin 8192)

/-- The spread group probabilities at `(r, c)`: the probability of `c`'s group. -/
theorem grp_apply (c : Fin 65) :
    grpOf (vLvl2 x0) (k0_pay31 (vMeans x0)) (k0_pay32 (vMeans x0)) (ix2 r c) = lvl2 (row x0 r) (gidx c) := by
  rcases col_cases c with ⟨k, rfl⟩ | ⟨k, rfl⟩ | ⟨k, rfl⟩ | ⟨k, rfl⟩ | ⟨k, rfl⟩ | ⟨k, rfl⟩ | ⟨k, rfl⟩ | ⟨k, rfl⟩
  · rw [gidx_at 0 7 0 (by omega) k (.inl ⟨rfl, rfl, rfl⟩)]
    unfold grpOf
    refine (cat8_0 _ _ _ _ _ _ _ _ r k).trans ?_
    unfold k0_pay31
    exact (bsel 0 (by omega) (k0_pay29 (vMeans x0)) _ _ _ r k).trans (vLvl2_apply x0 r _)
  · rw [gidx_at 7 23 1 (by omega) k (.inr (.inl ⟨rfl, rfl, rfl⟩))]
    unfold grpOf
    refine (cat8_1 _ _ _ _ _ _ _ _ r k).trans ?_
    unfold k0_pay32
    exact (bsel 1 (by omega) (k0_pay29 (vMeans x0)) _ _ _ r k).trans (vLvl2_apply x0 r _)
  · rw [gidx_at 30 18 2 (by omega) k (.inr (.inr (.inl ⟨rfl, rfl, rfl⟩)))]
    unfold grpOf
    refine (cat8_2 _ _ _ _ _ _ _ _ r k).trans ?_
    exact (bsel 2 (by omega) (vLvl2 x0) _ _ _ r k).trans (vLvl2_apply x0 r _)
  · rw [gidx_at 48 5 3 (by omega) k (.inr (.inr (.inr (.inl ⟨rfl, rfl, rfl⟩))))]
    unfold grpOf
    refine (cat8_3 _ _ _ _ _ _ _ _ r k).trans ?_
    exact (bsel 3 (by omega) (vLvl2 x0) _ _ _ r k).trans (vLvl2_apply x0 r _)
  · rw [gidx_at 53 5 4 (by omega) k (.inr (.inr (.inr (.inr (.inl ⟨rfl, rfl, rfl⟩)))))]
    unfold grpOf
    refine (cat8_4 _ _ _ _ _ _ _ _ r k).trans ?_
    exact (bsel 4 (by omega) (vLvl2 x0) _ _ _ r k).trans (vLvl2_apply x0 r _)
  · rw [gidx_at 58 1 5 (by omega) k (.inr (.inr (.inr (.inr (.inr (.inl ⟨rfl, rfl, rfl⟩))))))]
    unfold grpOf
    refine (cat8_5 _ _ _ _ _ _ _ _ r k).trans ?_
    have hk : k = 0 := Subsingleton.elim _ _
    subst hk
    exact (slice2_axis1_eq 5 (vLvl2 x0) slices_S8192x8_o0_5_S8192x1 r (0 : Fin 1)).trans (vLvl2_apply x0 r _)
  · rw [gidx_at 59 3 6 (by omega) k (.inr (.inr (.inr (.inr (.inr (.inr (.inl ⟨rfl, rfl, rfl⟩)))))))]
    unfold grpOf
    refine (cat8_6 _ _ _ _ _ _ _ _ r k).trans ?_
    exact (bsel 6 (by omega) (vLvl2 x0) _ _ _ r k).trans (vLvl2_apply x0 r _)
  · rw [gidx_at 62 3 7 (by omega) k (.inr (.inr (.inr (.inr (.inr (.inr (.inr ⟨rfl, rfl, rfl⟩)))))))]
    unfold grpOf
    refine (cat8_7 _ _ _ _ _ _ _ _ r k).trans ?_
    exact (bsel 7 (by omega) (vLvl2 x0) _ _ _ r k).trans (vLvl2_apply x0 r _)

/-- The spread top probabilities at `(r, c)`: the probability of the top node above `c`. -/
theorem top_apply (c : Fin 65) : topOf (vTop x0) (ix2 r c) = ptop (row x0 r) (tidx c) := by
  have hc := c.isLt
  by_cases h : c.val < 53
  · rw [tidx_lo c h]
    unfold topOf
    refine (concatCols_apply _ _ r c 0 (by simp) 53 _ rfl 0 rfl (⟨c.val, h⟩ : Fin 53) (Nat.zero_add _)).trans ?_
    exact (bsel 0 (by omega) (vTop x0) _ _ _ r _).trans (vTop_apply x0 r _)
  · rw [tidx_hi c h]
    unfold topOf
    refine (concatCols_apply _ _ r c 1 (by simp) 12 _ rfl 53 rfl (⟨c.val - 53, by omega⟩ : Fin 12) (by show 53 + (c.val - 53) = c.val; omega)).trans ?_
    exact (bsel 1 (by omega) (vTop x0) _ _ _ r _).trans (vTop_apply x0 r _)

end path

/-- Output block 1 (the leaves' path probabilities) at `(r, c)`. -/
theorem out0_1_apply (x0 : FVec Ideal S8192x65 .f32) (r : Fin 8192) (c : Fin 65) :
    out0_1 (F := Ideal) x0 (ix2 r c) = pathRow (fun k => x0 (ix2 r k)) c := by
  rw [out0_1_eq, pay1_apply, vLeaf_apply x0 r c, grp_apply x0 r c, top_apply x0 r c]
  rfl

/-- Output block 2 (the node probabilities) at `(r, c)`. -/
theorem out0_2_apply (x0 : FVec Ideal S8192x65 .f32) (r : Fin 8192) (c : Fin 76) :
    out0_2 (F := Ideal) x0 (ix2 r c) = nodeRow (fun k => x0 (ix2 r k)) c := by
  rw [out0_2_eq]
  unfold k0_pay30
  rcases col76_cases c with ⟨k, rfl⟩ | ⟨k, rfl⟩ | ⟨k, rfl⟩ | rfl
  · refine (concatCols_apply _ _ r _ 0 (by simp) 65 _ rfl 0 rfl k rfl).trans ?_
    rw [nodeRow_leaf]
    exact vLeaf_apply x0 r k
  · refine (concatCols_apply _ _ r _ 1 (by simp) 8 _ rfl 65 rfl k rfl).trans ?_
    rw [nodeRow_lvl2]
    exact vLvl2_apply x0 r k
  · refine (concatCols_apply _ _ r _ 2 (by simp) 2 _ rfl 73 rfl k rfl).trans ?_
    rw [nodeRow_top]
    exact vTop_apply x0 r k
  · refine (concatCols_apply _ _ r _ 3 (by simp) 1 _ rfl 75 rfl (0 : Fin 1) rfl).trans ?_
    rw [nodeRow_root]
    rfl

end Cert.KernelIdeal.KV

end
-- ==== Proof.Blocks.lean ====
import proofs.«121205_j47253230191392_1_alg».proof.Proof.Gen.KernelIdeal.Value
import proofs.«121205_j47253230191392_1_alg».proof.Proof.KernelValue
import proofs.«121205_j47253230191392_1_alg».proof.Proof.Spec

/-!
# From the blocks to the two result arrays

Grid point `t` of the 64 reads rows `8192 t … 8192 t + 8191` of the argument (all 65 columns) and writes the same rows of
both results. Every entry of a block depends on its own row only, so block `t` of each result is block `t` of the
array-level specification (`pathArr`, `nodeArr`: each row's function of the same row of the argument), and the 64 blocks
cover every row.
-/

set_option backward.isDefEq.respectTransparency.types false

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx HSpec
open Idealize.ShloMosaic.Pipeline (Dat)

variable (m : (ℓ : Loc nD τ sig) → Buf (Elt Ideal) ℓ) (ρ : Dev nD → PrngReg)

/-- The three index maps, decided over the grid: point `t` is at block row `t`, block column 0, for every window. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `p` of the input block at point `t` is row `8192 t + p` of the argument array. -/
theorem iblk_row (c : Dev nD) (t : Fin cfg0.N) (p : Fin 8192) (k : Fin 65) :
    iblk m c 0 t (ix2 p k) = V m c main_arg0 (ix2 (⟨t.val * 8192 + p.val, by have ht : t.val < 64 := t.isLt; have := p.isLt; show _ < 524288; omega⟩ : Fin 524288) k) := by
  obtain ⟨e0, e1, -⟩ := idx_facts t
  show V m c main_arg0 (((cfg0.win 0).blk t).view.emb (ix2 p k)) = _
  refine congrArg (V m c main_arg0) ?_
  funext a; apply Fin.ext
  match a with
  | ⟨0, _⟩ => show win0_0.index t (0 : Fin 2) * 8192 + 1 * p.val = t.val * 8192 + p.val; rw [e0]; omega
  | ⟨1, _⟩ => show win0_0.index t (1 : Fin 2) * 65 + 1 * k.val = k.val; rw [e1]; omega

/-- WHAT POINT `t` WRITES BACK to the first result is block `t` of the path array of the argument. -/
theorem flushed1_eq (c : Dev nD) (t : Fin cfg0.N) :
    (dats m 0 c).flushed 1 t = ((cfg0.win 1).blk t).view.read (Elt Ideal) (pathArr (V m c main_arg0)) := by
  rw [Value.flushed1]
  obtain ⟨-, -, e2, e3, -⟩ := idx_facts t
  funext y
  obtain ⟨p, q, rfl⟩ : ∃ (p : Fin 8192) (q : Fin 65), y = ix2 p q := ⟨y 0, y 1, eq_ix2 y⟩
  show out0_1 (iblk m c 0 t) (ix2 p q) = pathArr (V m c main_arg0) (((cfg0.win 1).blk t).view.emb (ix2 p q))
  have hemb : ((cfg0.win 1).blk t).view.emb (ix2 p q)
      = ix2 (⟨t.val * 8192 + p.val, by have ht : t.val < 64 := t.isLt; have := p.isLt; show _ < 524288; omega⟩ : Fin 524288) q := by
    funext a; apply Fin.ext
    match a with
    | ⟨0, _⟩ => show win0_1.index t (0 : Fin 2) * 8192 + 1 * p.val = t.val * 8192 + p.val; rw [e2]; omega
    | ⟨1, _⟩ => show win0_1.index t (1 : Fin 2) * 65 + 1 * q.val = q.val; rw [e3]; omega
  rw [hemb, pathArr_ix2]
  refine (KV.out0_1_apply (iblk m c 0 t) p q).trans ?_
  congr 1
  funext k
  exact iblk_row m c t p k

/-- WHAT POINT `t` WRITES BACK to the second result is block `t` of the node array of the argument. -/
theorem flushed2_eq (c : Dev nD) (t : Fin cfg0.N) :
    (dats m 0 c).flushed 2 t = ((cfg0.win 2).blk t).view.read (Elt Ideal) (nodeArr (V m c main_arg0)) := by
  rw [Value.flushed2]
  obtain ⟨-, -, -, -, e4, e5⟩ := idx_facts t
  funext y
  obtain ⟨p, q, rfl⟩ : ∃ (p : Fin 8192) (q : Fin 76), y = ix2 p q := ⟨y 0, y 1, eq_ix2 y⟩
  show out0_2 (iblk m c 0 t) (ix2 p q) = nodeArr (V m c main_arg0) (((cfg0.win 2).blk t).view.emb (ix2 p q))
  have hemb : ((cfg0.win 2).blk t).view.emb (ix2 p q)
      = ix2 (⟨t.val * 8192 + p.val, by have ht : t.val < 64 := t.isLt; have := p.isLt; show _ < 524288; omega⟩ : Fin 524288) q := by
    funext a; apply Fin.ext
    match a with
    | ⟨0, _⟩ => show win0_2.index t (0 : Fin 2) * 8192 + 1 * p.val = t.val * 8192 + p.val; rw [e4]; omega
    | ⟨1, _⟩ => show win0_2.index t (1 : Fin 2) * 76 + 1 * q.val = q.val; rw [e5]; omega
  rw [hemb, nodeArr_ix2]
  refine (KV.out0_2_apply (iblk m c 0 t) p q).trans ?_
  congr 1
  funext k
  exact iblk_row m c t p k

/-- An index of the first result is in point `t`'s block iff each coordinate is in the block's range on its axis. -/
theorem mem_blk1 (t : Fin cfg0.N) (i : S524288x65.Idx) :
    i ∈ ((cfg0.win 1).blk t).view.set ↔ ∀ a : Fin 2, win0_1.index t a * S8192x65.size a ≤ (i a).val ∧ (i a).val < win0_1.index t a * S8192x65.size a + S8192x65.size a := by
  show i ∈ ((View.whole main_v0_0).slice (win0_1.rect t)).set ↔ _
  rw [View.set_slice_whole, Rect.mem_set_unit]
  exact Iff.rfl

theorem mem_blk2 (t : Fin cfg0.N) (i : S524288x76.Idx) :
    i ∈ ((cfg0.win 2).blk t).view.set ↔ ∀ a : Fin 2, win0_2.index t a * S8192x76.size a ≤ (i a).val ∧ (i a).val < win0_2.index t a * S8192x76.size a + S8192x76.size a := by
  show i ∈ ((View.whole main_v0_1).slice (win0_2.rect t)).set ↔ _
  rw [View.set_slice_whole, Rect.mem_set_unit]
  exact Iff.rfl

/-- Every row lies in the block of the point `row / 8192`. -/
theorem cover1 (i : S524288x65.Idx) : ∃ t : Fin cfg0.N, (cfg0.win 1).flush t = true ∧ i ∈ ((cfg0.win 1).blk t).view.set := by
  have hi0 : (i 0).val < 524288 := (i 0).isLt
  have hi1 : (i 1).val < 65 := (i 1).isLt
  let t : Fin cfg0.N := ⟨(i 0).val / 8192, by show _ < 64; omega⟩
  obtain ⟨-, -, e2, e3, -⟩ := idx_facts t
  have ht : t.val = (i 0).val / 8192 := rfl
  refine ⟨t, flush0_1 t, ?_⟩
  rw [mem_blk1]
  intro a
  match a with
  | ⟨0, _⟩ => show win0_1.index t (0 : Fin 2) * 8192 ≤ (i 0).val ∧ (i 0).val < win0_1.index t (0 : Fin 2) * 8192 + 8192; rw [e2, ht]; omega
  | ⟨1, _⟩ => show win0_1.index t (1 : Fin 2) * 65 ≤ (i 1).val ∧ (i 1).val < win0_1.index t (1 : Fin 2) * 65 + 65; rw [e3]; omega

theorem cover2 (i : S524288x76.Idx) : ∃ t : Fin cfg0.N, (cfg0.win 2).flush t = true ∧ i ∈ ((cfg0.win 2).blk t).view.set := by
  have hi0 : (i 0).val < 524288 := (i 0).isLt
  have hi1 : (i 1).val < 76 := (i 1).isLt
  let t : Fin cfg0.N := ⟨(i 0).val / 8192, by show _ < 64; omega⟩
  obtain ⟨-, -, -, -, e4, e5⟩ := idx_facts t
  have ht : t.val = (i 0).val / 8192 := rfl
  refine ⟨t, flush0_2 t, ?_⟩
  rw [mem_blk2]
  intro a
  match a with
  | ⟨0, _⟩ => show win0_2.index t (0 : Fin 2) * 8192 ≤ (i 0).val ∧ (i 0).val < win0_2.index t (0 : Fin 2) * 8192 + 8192; rw [e4, ht]; omega
  | ⟨1, _⟩ => show win0_2.index t (1 : Fin 2) * 76 ≤ (i 1).val ∧ (i 1).val < win0_2.index t (1 : Fin 2) * 76 + 76; rw [e5]; omega

/-- The first result after the run: the path array of the argument. -/
theorem final1 (c : Dev nD) : (dats m 0 c).arrAt 1 cfg0.N = pathArr (m ((c : Thread nD τ).loc main_arg0)) :=
  (dats m 0 c).arrAt_eq_of_cover 1 (pathArr (V m c main_arg0)) (fun t _ => flushed1_eq m c t) cover1

/-- The second result after the run: the node array of the argument. -/
theorem final2 (c : Dev nD) : (dats m 0 c).arrAt 2 cfg0.N = nodeArr (m ((c : Thread nD τ).loc main_arg0)) :=
  (dats m 0 c).arrAt_eq_of_cover 2 (nodeArr (V m c main_arg0)) (fun t _ => flushed2_eq m c t) cover2

/-- The kernel's run at the ideal values: both results at the specification of the argument, the argument unchanged. -/
theorem run : θ_run defs (onTc (τ := τ) (main (F := Ideal))) ⟨m, fun _ => 0, ρ⟩ fun r => ∀ c : Dev nD,
      r.2.mem ((c : Thread nD τ).loc main_v0_0) = pathArr (m ((c : Thread nD τ).loc main_arg0))
      ∧ r.2.mem ((c : Thread nD τ).loc main_v0_1) = nodeArr (m ((c : Thread nD τ).loc main_arg0))
      ∧ r.2.mem ((c : Thread nD τ).loc main_arg0) = m ((c : Thread nD τ).loc main_arg0) :=
  (θ_run defs _ _).mono (fun r h c => ⟨(h c).1.trans (final1 m c), (h c).2.1.trans (final2 m c), (h c).2.2⟩)
    (Value.run_blocks m ρ)

end Cert.KernelIdeal.Blocks

end
-- ==== Proof.RefOps.lean ====
import proofs.«121205_j47253230191392_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 60 of 257 (window `main_part0`). -/
abbrev ops_part0 : List (HloOp τ sig (Elt F)) :=
  [ nullary main_c (fun i => lit0 (S65.rowMajor i)),
    nullary main_c_0 (constantI S65 1 0#1),
    nullary main_c_1 (fun i => lit1 (S65.rowMajor i)),
    nullary main_c_2 (constantI S65 1 0#1),
    unary main_arg0 main_v0 ((extractStridedSlice S524288x7 ![0, 0] · slices_S524288x65_S524288x7_0_0) : (⟨S524288x65, .f32⟩ : BufTy).Contents (Elt F) → (⟨S524288x7, .f32⟩ : BufTy).Contents (Elt F)),
    nullary main_cst (constant S_ .f32 0xFF800000#32),
    binary main_v0 main_cst main_v1 ((fun x v => Host.reduce FloatOps.maximumf x v reducesTo_S524288x7_S524288_d1 h_S_) : (⟨S524288x7, .f32⟩ : BufTy).Contents (Elt F) → (⟨S_, .f32⟩ : BufTy).Contents (Elt F) → (⟨S524288, .f32⟩ : BufTy).Contents (Elt F)),
    nullary main_cst_3 (constant S_ .f32 0xFF800000#32),
    unary main_cst_3 main_v2 (broadcastInDim S524288 ![] bcast_S_S524288 : (⟨S_, .f32⟩ : BufTy).Contents (Elt F) → (⟨S524288, .f32⟩ : BufTy).Contents (Elt F)),
    binary main_v2 main_v1 main_v3 (maximumf : (⟨S524288, .f32⟩ : BufTy).Contents (Elt F) → (⟨S524288, .f32⟩ : BufTy).Contents (Elt F) → (⟨S524288, .f32⟩ : BufTy).Contents (Elt F)),
    unary main_v3 main_v4 (broadcastInDim S524288x1 ![0] bcast_S524288_S524288x1_0 : (⟨S524288, .f32⟩ : BufTy).Contents (Elt F) → (⟨S524288x1, .f32⟩ : BufTy).Contents (Elt F)),
    unary main_v4 main_v5 (broadcastInDim S524288x7 ![0, 1] bcast_S524288x1_S524288x7_0_1 : (⟨S524288x1, .f32⟩ : BufTy).Contents (Elt F) → (⟨S524288x7, .f32⟩ : BufTy).Contents (Elt F)),
    binary main_v0 main_v5 main_v6 (subf : (⟨S524288x7, .f32⟩ : BufTy).Contents (Elt F) → (⟨S524288x7, .f32⟩ : BufTy).Contents (Elt F) → (⟨S524288x7, .f32⟩ : BufTy).Contents (Elt F)),
    unary main_v6 main_v7 (Host.exp : (⟨S524288x7, .f32⟩ : BufTy).Contents (Elt F) → (⟨S524288x7, .f32⟩ : BufTy).Contents (Elt F)),
    nullary main_cst_4 (constant S_ .f32 0x00000000#32),
    binary main_v7 main_cst_4 main_v8 ((fun x v => Host.reduceAdd x v reducesTo_S524288x7_S524288_d1 h_S_) : (⟨S524288x7, .f32⟩ : BufTy).Contents (Elt F) → (⟨S_, .f32⟩ : BufTy).Contents (Elt F) → (⟨S524288, .f32⟩ : BufTy).Contents (Elt F)),
    unary main_v8 main_v9 (broadcastInDim S524288x1 ![0] bcast_S524288_S524288x1_0 : (⟨S524288, .f32⟩ : BufTy).Contents (Elt F) → (⟨S524288x1, .f32⟩ : BufTy).Contents (Elt F)),
    unary main_v9 main_v10 (broadcastInDim S524288x7 ![0, 1] bcast_S524288x1_S524288x7_0_1 : (⟨S524288x1, .f32⟩ : BufTy).Contents (Elt F) → (⟨S524288x7, .f32⟩ : BufTy).Contents (Elt F)),
    binary main_v7 main_v10 main_v11 (Host.divf : (⟨S524288x7, .f32⟩ : BufTy).Contents (Elt F) → (⟨S524288x7, .f32⟩ : BufTy).Contents (Elt F) → (⟨S524288x7, .f32⟩ : BufTy).Contents (Elt F)),
    unary main_arg0 main_v12 ((extractStridedSlice S524288x23 ![0, 7] · slices_S524288x65_S524288x23_0_7) : (⟨S524288x65, .f32⟩ : BufTy).Contents (Elt F) → (⟨S524288x23, .f32⟩ : BufTy).Contents (Elt F)),
    nullary main_cst_5 (constant S_ .f32 0xFF800000#32),
    binary main_v12 main_cst_5 main_v13 ((fun x v => Host.reduce FloatOps.maximumf x v reducesTo_S524288x23_S524288_d1 h_S_) : (⟨S524288x23, .f32⟩ : BufTy).Contents (Elt F) → (⟨S_, .f32⟩ : BufTy).Contents (Elt F) → (⟨S524288, .f32⟩ : BufTy).Contents (Elt F)),
    nullary main_cst_6 (constant S_ .f32 0xFF800000#32),
    unary main_cst_6 main_v14 (broadcastInDim S524288 ![] bcast_S_S524288 : (⟨S_, .f32⟩ : BufTy).Contents (Elt F) → (⟨S524288, .f32⟩ : BufTy).Contents (Elt F)),
    binary main_v14 main_v13 main_v15 (maximumf : (⟨S524288, .f32⟩ : BufTy).Contents (Elt F) → (⟨S524288, .f32⟩ : BufTy).Contents (Elt F) → (⟨S524288, .f32⟩ : BufTy).Contents (Elt F)),
    unary main_v15 main_v16 (broadcastInDim S524288x1 ![0] bcast_S524288_S524288x1_0 : (⟨S524288, .f32⟩ : BufTy).Contents (Elt F) → (⟨S524288x1, .f32⟩ : BufTy).Contents (Elt F)),
    unary main_v16 main_v17 (broadcastInDim S524288x23 ![0, 1] bcast_S524288x1_S524288x23_0_1 : (⟨S524288x1, .f32⟩ : BufTy).Contents (Elt F) → (⟨S524288x23, .f32⟩ : BufTy).Contents (Elt F)),
    binary main_v12 main_v17 main_v18 (subf : (⟨S524288x23, .f32⟩ : BufTy).Contents (Elt F) → (⟨S524288x23, .f32⟩ : BufTy).Contents (Elt F) → (⟨S524288x23, .f32⟩ : BufTy).Contents (Elt F)),
    unary main_v18 main_v19 (Host.exp : (⟨S524288x23, .f32⟩ : BufTy).Contents (Elt F) → (⟨S524288x23, .f32⟩ : BufTy).Contents (Elt F)),
    nullary main_cst_7 (constant S_ .f32 0x00000000#32),
    binary main_v19 main_cst_7 main_v20 ((fun x v => Host.reduceAdd x v reducesTo_S524288x23_S524288_d1 h_S_) : (⟨S524288x23, .f32⟩ : BufTy).Contents (Elt F) → (⟨S_, .f32⟩ : BufTy).Contents (Elt F) → (⟨S524288, .f32⟩ : BufTy).Contents (Elt F)),
    unary main_v20 main_v21 (broadcastInDim S524288x1 ![0] bcast_S524288_S524288x1_0 : (⟨S524288, .f32⟩ : BufTy).Contents (Elt F) → (⟨S524288x1, .f32⟩ : BufTy).Contents (Elt F)),
    unary main_v21 main_v22 (broadcastInDim S524288x23 ![0, 1] bcast_S524288x1_S524288x23_0_1 : (⟨S524288x1, .f32⟩ : BufTy).Contents (Elt F) → (⟨S524288x23, .f32⟩ : BufTy).Contents (Elt F)),
    binary main_v19 main_v22 main_v23 (Host.divf : (⟨S524288x23, .f32⟩ : BufTy).Contents (Elt F) → (⟨S524288x23, .f32⟩ : BufTy).Contents (Elt F) → (⟨S524288x23, .f32⟩ : BufTy).Contents (Elt F)),
    unary main_arg0 main_v24 ((extractStridedSlice S524288x18 ![0, 30] · slices_S524288x65_S524288x18_0_30) : (⟨S524288x65, .f32⟩ : BufTy).Contents (Elt F) → (⟨S524288x18, .f32⟩ : BufTy).Contents (Elt F)),
    nullary main_cst_8 (constant S_ .f32 0xFF800000#32),
    binary main_v24 main_cst_8 main_v25 ((fun x v => Host.reduce FloatOps.maximumf x v reducesTo_S524288x18_S524288_d1 h_S_) : (⟨S524288x18, .f32⟩ : BufTy).Contents (Elt F) → (⟨S_, .f32⟩ : BufTy).Contents (Elt F) → (⟨S524288, .f32⟩ : BufTy).Contents (Elt F)),
    nullary main_cst_9 (constant S_ .f32 0xFF800000#32),
    unary main_cst_9 main_v26 (broadcastInDim S524288 ![] bcast_S_S524288 : (⟨S_, .f32⟩ : BufTy).Contents (Elt F) → (⟨S524288, .f32⟩ : BufTy).Contents (Elt F)),
    binary main_v26 main_v25 main_v27 (maximumf : (⟨S524288, .f32⟩ : BufTy).Contents (Elt F) → (⟨S524288, .f32⟩ : BufTy).Contents (Elt F) → (⟨S524288, .f32⟩ : BufTy).Contents (Elt F)),
    unary main_v27 main_v28 (broadcastInDim S524288x1 ![0] bcast_S524288_S524288x1_0 : (⟨S524288, .f32⟩ : BufTy).Contents (Elt F) → (⟨S524288x1, .f32⟩ : BufTy).Contents (Elt F)),
    unary main_v28 main_v29 (broadcastInDim S524288x18 ![0, 1] bcast_S524288x1_S524288x18_0_1 : (⟨S524288x1, .f32⟩ : BufTy).Contents (Elt F) → (⟨S524288x18, .f32⟩ : BufTy).Contents (Elt F)),
    binary main_v24 main_v29 main_v30 (subf : (⟨S524288x18, .f32⟩ : BufTy).Contents (Elt F) → (⟨S524288x18, .f32⟩ : BufTy).Contents (Elt F) → (⟨S524288x18, .f32⟩ : BufTy).Contents (Elt F)),
    unary main_v30 main_v31 (Host.exp : (⟨S524288x18, .f32⟩ : BufTy).Contents (Elt F) → (⟨S524288x18, .f32⟩ : BufTy).Contents (Elt F)),
    nullary main_cst_10 (constant S_ .f32 0x00000000#32),
    binary main_v31 main_cst_10 main_v32 ((fun x v => Host.reduceAdd x v reducesTo_S524288x18_S524288_d1 h_S_) : (⟨S524288x18, .f32⟩ : BufTy).Contents (Elt F) → (⟨S_, .f32⟩ : BufTy).Contents (Elt F) → (⟨S524288, .f32⟩ : BufTy).Contents (Elt F)),
    unary main_v32 main_v33 (broadcastInDim S524288x1 ![0] bcast_S524288_S524288x1_0 : (⟨S524288, .f32⟩ : BufTy).Contents (Elt F) → (⟨S524288x1, .f32⟩ : BufTy).Contents (Elt F)),
    unary main_v33 main_v34 (broadcastInDim S524288x18 ![0, 1] bcast_S524288x1_S524288x18_0_1 : (⟨S524288x1, .f32⟩ : BufTy).Contents (Elt F) → (⟨S524288x18, .f32⟩ : BufTy).Contents (Elt F)),
    binary main_v31 main_v34 main_v35 (Host.divf : (⟨S524288x18, .f32⟩ : BufTy).Contents (Elt F) → (⟨S524288x18, .f32⟩ : BufTy).Contents (Elt F) → (⟨S524288x18, .f32⟩ : BufTy).Contents (Elt F)),
    unary main_arg0 main_v36 ((extractStridedSlice S524288x5 ![0, 48] · slices_S524288x65_S524288x5_0_48) : (⟨S524288x65, .f32⟩ : BufTy).Contents (Elt F) → (⟨S524288x5, .f32⟩ : BufTy).Contents (Elt F)),
    nullary main_cst_11 (constant S_ .f32 0xFF800000#32),
    binary main_v36 main_cst_11 main_v37 ((fun x v => Host.reduce FloatOps.maximumf x v reducesTo_S524288x5_S524288_d1 h_S_) : (⟨S524288x5, .f32⟩ : BufTy).Contents (Elt F) → (⟨S_, .f32⟩ : BufTy).Contents (Elt F) → (⟨S524288, .f32⟩ : BufTy).Contents (Elt F)),
    nullary main_cst_12 (constant S_ .f32 0xFF800000#32),
    unary main_cst_12 main_v38 (broadcastInDim S524288 ![] bcast_S_S524288 : (⟨S_, .f32⟩ : BufTy).Contents (Elt F) → (⟨S524288, .f32⟩ : BufTy).Contents (Elt F)),
    binary main_v38 main_v37 main_v39 (maximumf : (⟨S524288, .f32⟩ : BufTy).Contents (Elt F) → (⟨S524288, .f32⟩ : BufTy).Contents (Elt F) → (⟨S524288, .f32⟩ : BufTy).Contents (Elt F)),
    unary main_v39 main_v40 (broadcastInDim S524288x1 ![0] bcast_S524288_S524288x1_0 : (⟨S524288, .f32⟩ : BufTy).Contents (Elt F) → (⟨S524288x1, .f32⟩ : BufTy).Contents (Elt F)),
    unary main_v40 main_v41 (broadcastInDim S524288x5 ![0, 1] bcast_S524288x1_S524288x5_0_1 : (⟨S524288x1, .f32⟩ : BufTy).Contents (Elt F) → (⟨S524288x5, .f32⟩ : BufTy).Contents (Elt F)),
    binary main_v36 main_v41 main_v42 (subf : (⟨S524288x5, .f32⟩ : BufTy).Contents (Elt F) → (⟨S524288x5, .f32⟩ : BufTy).Contents (Elt F) → (⟨S524288x5, .f32⟩ : BufTy).Contents (Elt F)),
    unary main_v42 main_v43 (Host.exp : (⟨S524288x5, .f32⟩ : BufTy).Contents (Elt F) → (⟨S524288x5, .f32⟩ : BufTy).Contents (Elt F)),
    nullary main_cst_13 (constant S_ .f32 0x00000000#32) ]

/-- @main's operations 61 … 120 of 257 (window `main_part1`). -/
abbrev ops_part1 : List (HloOp τ sig (Elt F)) :=
  [ binary main_v43 main_cst_13 main_v44 ((fun x v => Host.reduceAdd x v reducesTo_S524288x5_S524288_d1 h_S_) : (⟨S524288x5, .f32⟩ : BufTy).Contents (Elt F) → (⟨S_, .f32⟩ : BufTy).Contents (Elt F) → (⟨S524288, .f32⟩ : BufTy).Contents (Elt F)),
    unary main_v44 main_v45 (broadcastInDim S524288x1 ![0] bcast_S524288_S524288x1_0 : (⟨S524288, .f32⟩ : BufTy).Contents (Elt F) → (⟨S524288x1, .f32⟩ : BufTy).Contents (Elt F)),
    unary main_v45 main_v46 (broadcastInDim S524288x5 ![0, 1] bcast_S524288x1_S524288x5_0_1 : (⟨S524288x1, .f32⟩ : BufTy).Contents (Elt F) → (⟨S524288x5, .f32⟩ : BufTy).Contents (Elt F)),
    binary main_v43 main_v46 main_v47 (Host.divf : (⟨S524288x5, .f32⟩ : BufTy).Contents (Elt F) → (⟨S524288x5, .f32⟩ : BufTy).Contents (Elt F) → (⟨S524288x5, .f32⟩ : BufTy).Contents (Elt F)),
    unary main_arg0 main_v48 ((extractStridedSlice S524288x5 ![0, 53] · slices_S524288x65_S524288x5_0_53) : (⟨S524288x65, .f32⟩ : BufTy).Contents (Elt F) → (⟨S524288x5, .f32⟩ : BufTy).Contents (Elt F)),
    nullary main_cst_14 (constant S_ .f32 0xFF800000#32),
    binary main_v48 main_cst_14 main_v49 ((fun x v => Host.reduce FloatOps.maximumf x v reducesTo_S524288x5_S524288_d1 h_S_) : (⟨S524288x5, .f32⟩ : BufTy).Contents (Elt F) → (⟨S_, .f32⟩ : BufTy).Contents (Elt F) → (⟨S524288, .f32⟩ : BufTy).Contents (Elt F)),
    nullary main_cst_15 (constant S_ .f32 0xFF800000#32),
    unary main_cst_15 main_v50 (broadcastInDim S524288 ![] bcast_S_S524288 : (⟨S_, .f32⟩ : BufTy).Contents (Elt F) → (⟨S524288, .f32⟩ : BufTy).Contents (Elt F)),
    binary main_v50 main_v49 main_v51 (maximumf : (⟨S524288, .f32⟩ : BufTy).Contents (Elt F) → (⟨S524288, .f32⟩ : BufTy).Contents (Elt F) → (⟨S524288, .f32⟩ : BufTy).Contents (Elt F)),
    unary main_v51 main_v52 (broadcastInDim S524288x1 ![0] bcast_S524288_S524288x1_0 : (⟨S524288, .f32⟩ : BufTy).Contents (Elt F) → (⟨S524288x1, .f32⟩ : BufTy).Contents (Elt F)),
    unary main_v52 main_v53 (broadcastInDim S524288x5 ![0, 1] bcast_S524288x1_S524288x5_0_1 : (⟨S524288x1, .f32⟩ : BufTy).Contents (Elt F) → (⟨S524288x5, .f32⟩ : BufTy).Contents (Elt F)),
    binary main_v48 main_v53 main_v54 (subf : (⟨S524288x5, .f32⟩ : BufTy).Contents (Elt F) → (⟨S524288x5, .f32⟩ : BufTy).Contents (Elt F) → (⟨S524288x5, .f32⟩ : BufTy).Contents (Elt F)),
    unary main_v54 main_v55 (Host.exp : (⟨S524288x5, .f32⟩ : BufTy).Contents (Elt F) → (⟨S524288x5, .f32⟩ : BufTy).Contents (Elt F)),
    nullary main_cst_16 (constant S_ .f32 0x00000000#32),
    binary main_v55 main_cst_16 main_v56 ((fun x v => Host.reduceAdd x v reducesTo_S524288x5_S524288_d1 h_S_) : (⟨S524288x5, .f32⟩ : BufTy).Contents (Elt F) → (⟨S_, .f32⟩ : BufTy).Contents (Elt F) → (⟨S524288, .f32⟩ : BufTy).Contents (Elt F)),
    unary main_v56 main_v57 (broadcastInDim S524288x1 ![0] bcast_S524288_S524288x1_0 : (⟨S524288, .f32⟩ : BufTy).Contents (Elt F) → (⟨S524288x1, .f32⟩ : BufTy).Contents (Elt F)),
    unary main_v57 main_v58 (broadcastInDim S524288x5 ![0, 1] bcast_S524288x1_S524288x5_0_1 : (⟨S524288x1, .f32⟩ : BufTy).Contents (Elt F) → (⟨S524288x5, .f32⟩ : BufTy).Contents (Elt F)),
    binary main_v55 main_v58 main_v59 (Host.divf : (⟨S524288x5, .f32⟩ : BufTy).Contents (Elt F) → (⟨S524288x5, .f32⟩ : BufTy).Contents (Elt F) → (⟨S524288x5, .f32⟩ : BufTy).Contents (Elt F)),
    unary main_arg0 main_v60 ((extractStridedSlice S524288x1 ![0, 58] · slices_S524288x65_S524288x1_0_58) : (⟨S524288x65, .f32⟩ : BufTy).Contents (Elt F) → (⟨S524288x1, .f32⟩ : BufTy).Contents (Elt F)),
    nullary main_cst_17 (constant S_ .f32 0xFF800000#32),
    binary main_v60 main_cst_17 main_v61 ((fun x v => Host.reduce FloatOps.maximumf x v reducesTo_S524288x1_S524288_d1 h_S_) : (⟨S524288x1, .f32⟩ : BufTy).Contents (Elt F) → (⟨S_, .f32⟩ : BufTy).Contents (Elt F) → (⟨S524288, .f32⟩ : BufTy).Contents (Elt F)),
    nullary main_cst_18 (constant S_ .f32 0xFF800000#32),
    unary main_cst_18 main_v62 (broadcastInDim S524288 ![] bcast_S_S524288 : (⟨S_, .f32⟩ : BufTy).Contents (Elt F) → (⟨S524288, .f32⟩ : BufTy).Contents (Elt F)),
    binary main_v62 main_v61 main_v63 (maximumf : (⟨S524288, .f32⟩ : BufTy).Contents (Elt F) → (⟨S524288, .f32⟩ : BufTy).Contents (Elt F) → (⟨S524288, .f32⟩ : BufTy).Contents (Elt F)),
    unary main_v63 main_v64 (broadcastInDim S524288x1 ![0] bcast_S524288_S524288x1_0 : (⟨S524288, .f32⟩ : BufTy).Contents (Elt F) → (⟨S524288x1, .f32⟩ : BufTy).Contents (Elt F)),
    binary main_v60 main_v64 main_v65 (subf : (⟨S524288x1, .f32⟩ : BufTy).Contents (Elt F) → (⟨S524288x1, .f32⟩ : BufTy).Contents (Elt F) → (⟨S524288x1, .f32⟩ : BufTy).Contents (Elt F)),
    unary main_v65 main_v66 (Host.exp : (⟨S524288x1, .f32⟩ : BufTy).Contents (Elt F) → (⟨S524288x1, .f32⟩ : BufTy).Contents (Elt F)),
    nullary main_cst_19 (constant S_ .f32 0x00000000#32),
    binary main_v66 main_cst_19 main_v67 ((fun x v => Host.reduceAdd x v reducesTo_S524288x1_S524288_d1 h_S_) : (⟨S524288x1, .f32⟩ : BufTy).Contents (Elt F) → (⟨S_, .f32⟩ : BufTy).Contents (Elt F) → (⟨S524288, .f32⟩ : BufTy).Contents (Elt F)),
    unary main_v67 main_v68 (broadcastInDim S524288x1 ![0] bcast_S524288_S524288x1_0 : (⟨S524288, .f32⟩ : BufTy).Contents (Elt F) → (⟨S524288x1, .f32⟩ : BufTy).Contents (Elt F)),
    binary main_v66 main_v68 main_v69 (Host.divf : (⟨S524288x1, .f32⟩ : BufTy).Contents (Elt F) → (⟨S524288x1, .f32⟩ : BufTy).Contents (Elt F) → (⟨S524288x1, .f32⟩ : BufTy).Contents (Elt F)),
    unary main_arg0 main_v70 ((extractStridedSlice S524288x3 ![0, 59] · slices_S524288x65_S524288x3_0_59) : (⟨S524288x65, .f32⟩ : BufTy).Contents (Elt F) → (⟨S524288x3, .f32⟩ : BufTy).Contents (Elt F)),
    nullary main_cst_20 (constant S_ .f32 0xFF800000#32),
    binary main_v70 main_cst_20 main_v71 ((fun x v => Host.reduce FloatOps.maximumf x v reducesTo_S524288x3_S524288_d1 h_S_) : (⟨S524288x3, .f32⟩ : BufTy).Contents (Elt F) → (⟨S_, .f32⟩ : BufTy).Contents (Elt F) → (⟨S524288, .f32⟩ : BufTy).Contents (Elt F)),
    nullary main_cst_21 (constant S_ .f32 0xFF800000#32),
    unary main_cst_21 main_v72 (broadcastInDim S524288 ![] bcast_S_S524288 : (⟨S_, .f32⟩ : BufTy).Contents (Elt F) → (⟨S524288, .f32⟩ : BufTy).Contents (Elt F)),
    binary main_v72 main_v71 main_v73 (maximumf : (⟨S524288, .f32⟩ : BufTy).Contents (Elt F) → (⟨S524288, .f32⟩ : BufTy).Contents (Elt F) → (⟨S524288, .f32⟩ : BufTy).Contents (Elt F)),
    unary main_v73 main_v74 (broadcastInDim S524288x1 ![0] bcast_S524288_S524288x1_0 : (⟨S524288, .f32⟩ : BufTy).Contents (Elt F) → (⟨S524288x1, .f32⟩ : BufTy).Contents (Elt F)),
    unary main_v74 main_v75 (broadcastInDim S524288x3 ![0, 1] bcast_S524288x1_S524288x3_0_1 : (⟨S524288x1, .f32⟩ : BufTy).Contents (Elt F) → (⟨S524288x3, .f32⟩ : BufTy).Contents (Elt F)),
    binary main_v70 main_v75 main_v76 (subf : (⟨S524288x3, .f32⟩ : BufTy).Contents (Elt F) → (⟨S524288x3, .f32⟩ : BufTy).Contents (Elt F) → (⟨S524288x3, .f32⟩ : BufTy).Contents (Elt F)),
    unary main_v76 main_v77 (Host.exp : (⟨S524288x3, .f32⟩ : BufTy).Contents (Elt F) → (⟨S524288x3, .f32⟩ : BufTy).Contents (Elt F)),
    nullary main_cst_22 (constant S_ .f32 0x00000000#32),
    binary main_v77 main_cst_22 main_v78 ((fun x v => Host.reduceAdd x v reducesTo_S524288x3_S524288_d1 h_S_) : (⟨S524288x3, .f32⟩ : BufTy).Contents (Elt F) → (⟨S_, .f32⟩ : BufTy).Contents (Elt F) → (⟨S524288, .f32⟩ : BufTy).Contents (Elt F)),
    unary main_v78 main_v79 (broadcastInDim S524288x1 ![0] bcast_S524288_S524288x1_0 : (⟨S524288, .f32⟩ : BufTy).Contents (Elt F) → (⟨S524288x1, .f32⟩ : BufTy).Contents (Elt F)),
    unary main_v79 main_v80 (broadcastInDim S524288x3 ![0, 1] bcast_S524288x1_S524288x3_0_1 : (⟨S524288x1, .f32⟩ : BufTy).Contents (Elt F) → (⟨S524288x3, .f32⟩ : BufTy).Contents (Elt F)),
    binary main_v77 main_v80 main_v81 (Host.divf : (⟨S524288x3, .f32⟩ : BufTy).Contents (Elt F) → (⟨S524288x3, .f32⟩ : BufTy).Contents (Elt F) → (⟨S524288x3, .f32⟩ : BufTy).Contents (Elt F)),
    unary main_arg0 main_v82 ((extractStridedSlice S524288x3 ![0, 62] · slices_S524288x65_S524288x3_0_62) : (⟨S524288x65, .f32⟩ : BufTy).Contents (Elt F) → (⟨S524288x3, .f32⟩ : BufTy).Contents (Elt F)),
    nullary main_cst_23 (constant S_ .f32 0xFF800000#32),
    binary main_v82 main_cst_23 main_v83 ((fun x v => Host.reduce FloatOps.maximumf x v reducesTo_S524288x3_S524288_d1 h_S_) : (⟨S524288x3, .f32⟩ : BufTy).Contents (Elt F) → (⟨S_, .f32⟩ : BufTy).Contents (Elt F) → (⟨S524288, .f32⟩ : BufTy).Contents (Elt F)),
    nullary main_cst_24 (constant S_ .f32 0xFF800000#32),
    unary main_cst_24 main_v84 (broadcastInDim S524288 ![] bcast_S_S524288 : (⟨S_, .f32⟩ : BufTy).Contents (Elt F) → (⟨S524288, .f32⟩ : BufTy).Contents (Elt F)),
    binary main_v84 main_v83 main_v85 (maximumf : (⟨S524288, .f32⟩ : BufTy).Contents (Elt F) → (⟨S524288, .f32⟩ : BufTy).Contents (Elt F) → (⟨S524288, .f32⟩ : BufTy).Contents (Elt F)),
    unary main_v85 main_v86 (broadcastInDim S524288x1 ![0] bcast_S524288_S524288x1_0 : (⟨S524288, .f32⟩ : BufTy).Contents (Elt F) → (⟨S524288x1, .f32⟩ : BufTy).Contents (Elt F)),
    unary main_v86 main_v87 (broadcastInDim S524288x3 ![0, 1] bcast_S524288x1_S524288x3_0_1 : (⟨S524288x1, .f32⟩ : BufTy).Contents (Elt F) → (⟨S524288x3, .f32⟩ : BufTy).Contents (Elt F)),
    binary main_v82 main_v87 main_v88 (subf : (⟨S524288x3, .f32⟩ : BufTy).Contents (Elt F) → (⟨S524288x3, .f32⟩ : BufTy).Contents (Elt F) → (⟨S524288x3, .f32⟩ : BufTy).Contents (Elt F)),
    unary main_v88 main_v89 (Host.exp : (⟨S524288x3, .f32⟩ : BufTy).Contents (Elt F) → (⟨S524288x3, .f32⟩ : BufTy).Contents (Elt F)),
    nullary main_cst_25 (constant S_ .f32 0x00000000#32),
    binary main_v89 main_cst_25 main_v90 ((fun x v => Host.reduceAdd x v reducesTo_S524288x3_S524288_d1 h_S_) : (⟨S524288x3, .f32⟩ : BufTy).Contents (Elt F) → (⟨S_, .f32⟩ : BufTy).Contents (Elt F) → (⟨S524288, .f32⟩ : BufTy).Contents (Elt F)),
    unary main_v90 main_v91 (broadcastInDim S524288x1 ![0] bcast_S524288_S524288x1_0 : (⟨S524288, .f32⟩ : BufTy).Contents (Elt F) → (⟨S524288x1, .f32⟩ : BufTy).Contents (Elt F)) ]

/-- @main's operations 121 … 180 of 257 (window `main_part2`). -/
abbrev ops_part2 : List (HloOp τ sig (Elt F)) :=
  [ unary main_v91 main_v92 (broadcastInDim S524288x3 ![0, 1] bcast_S524288x1_S524288x3_0_1 : (⟨S524288x1, .f32⟩ : BufTy).Contents (Elt F) → (⟨S524288x3, .f32⟩ : BufTy).Contents (Elt F)),
    binary main_v89 main_v92 main_v93 (Host.divf : (⟨S524288x3, .f32⟩ : BufTy).Contents (Elt F) → (⟨S524288x3, .f32⟩ : BufTy).Contents (Elt F) → (⟨S524288x3, .f32⟩ : BufTy).Contents (Elt F)),
    nary ![main_v11, main_v23, main_v35, main_v47, main_v59, main_v69, main_v81, main_v93] main_v94 (fun u => concatenate S524288x65 1 [⟨S524288x7, u 0⟩, ⟨S524288x23, u 1⟩, ⟨S524288x18, u 2⟩, ⟨S524288x5, u 3⟩, ⟨S524288x5, u 4⟩, ⟨S524288x1, u 5⟩, ⟨S524288x3, u 6⟩, ⟨S524288x3, u 7⟩] concatenates_S524288x7_S524288x23_S524288x18_S524288x5_S524288x5_S524288x1_S524288x3_S524288x3_S524288x65_d1),
    unary main_arg0 main_v95 ((extractStridedSlice S524288x7 ![0, 0] · slices_S524288x65_S524288x7_0_0) : (⟨S524288x65, .f32⟩ : BufTy).Contents (Elt F) → (⟨S524288x7, .f32⟩ : BufTy).Contents (Elt F)),
    nullary main_cst_26 (constant S_ .f32 0x00000000#32),
    binary main_v95 main_cst_26 main_v96 ((fun x v => Host.reduceAdd x v reducesTo_S524288x7_S524288_d1 h_S_) : (⟨S524288x7, .f32⟩ : BufTy).Contents (Elt F) → (⟨S_, .f32⟩ : BufTy).Contents (Elt F) → (⟨S524288, .f32⟩ : BufTy).Contents (Elt F)),
    nullary main_cst_27 (constant S_ .f32 0x40E00000#32),
    unary main_cst_27 main_v97 (broadcastInDim S524288 ![] bcast_S_S524288 : (⟨S_, .f32⟩ : BufTy).Contents (Elt F) → (⟨S524288, .f32⟩ : BufTy).Contents (Elt F)),
    binary main_v96 main_v97 main_v98 (Host.divf : (⟨S524288, .f32⟩ : BufTy).Contents (Elt F) → (⟨S524288, .f32⟩ : BufTy).Contents (Elt F) → (⟨S524288, .f32⟩ : BufTy).Contents (Elt F)),
    unary main_arg0 main_v99 ((extractStridedSlice S524288x23 ![0, 7] · slices_S524288x65_S524288x23_0_7) : (⟨S524288x65, .f32⟩ : BufTy).Contents (Elt F) → (⟨S524288x23, .f32⟩ : BufTy).Contents (Elt F)),
    nullary main_cst_28 (constant S_ .f32 0x00000000#32),
    binary main_v99 main_cst_28 main_v100 ((fun x v => Host.reduceAdd x v reducesTo_S524288x23_S524288_d1 h_S_) : (⟨S524288x23, .f32⟩ : BufTy).Contents (Elt F) → (⟨S_, .f32⟩ : BufTy).Contents (Elt F) → (⟨S524288, .f32⟩ : BufTy).Contents (Elt F)),
    nullary main_cst_29 (constant S_ .f32 0x41B80000#32),
    unary main_cst_29 main_v101 (broadcastInDim S524288 ![] bcast_S_S524288 : (⟨S_, .f32⟩ : BufTy).Contents (Elt F) → (⟨S524288, .f32⟩ : BufTy).Contents (Elt F)),
    binary main_v100 main_v101 main_v102 (Host.divf : (⟨S524288, .f32⟩ : BufTy).Contents (Elt F) → (⟨S524288, .f32⟩ : BufTy).Contents (Elt F) → (⟨S524288, .f32⟩ : BufTy).Contents (Elt F)),
    unary main_arg0 main_v103 ((extractStridedSlice S524288x18 ![0, 30] · slices_S524288x65_S524288x18_0_30) : (⟨S524288x65, .f32⟩ : BufTy).Contents (Elt F) → (⟨S524288x18, .f32⟩ : BufTy).Contents (Elt F)),
    nullary main_cst_30 (constant S_ .f32 0x00000000#32),
    binary main_v103 main_cst_30 main_v104 ((fun x v => Host.reduceAdd x v reducesTo_S524288x18_S524288_d1 h_S_) : (⟨S524288x18, .f32⟩ : BufTy).Contents (Elt F) → (⟨S_, .f32⟩ : BufTy).Contents (Elt F) → (⟨S524288, .f32⟩ : BufTy).Contents (Elt F)),
    nullary main_cst_31 (constant S_ .f32 0x41900000#32),
    unary main_cst_31 main_v105 (broadcastInDim S524288 ![] bcast_S_S524288 : (⟨S_, .f32⟩ : BufTy).Contents (Elt F) → (⟨S524288, .f32⟩ : BufTy).Contents (Elt F)),
    binary main_v104 main_v105 main_v106 (Host.divf : (⟨S524288, .f32⟩ : BufTy).Contents (Elt F) → (⟨S524288, .f32⟩ : BufTy).Contents (Elt F) → (⟨S524288, .f32⟩ : BufTy).Contents (Elt F)),
    unary main_arg0 main_v107 ((extractStridedSlice S524288x5 ![0, 48] · slices_S524288x65_S524288x5_0_48) : (⟨S524288x65, .f32⟩ : BufTy).Contents (Elt F) → (⟨S524288x5, .f32⟩ : BufTy).Contents (Elt F)),
    nullary main_cst_32 (constant S_ .f32 0x00000000#32),
    binary main_v107 main_cst_32 main_v108 ((fun x v => Host.reduceAdd x v reducesTo_S524288x5_S524288_d1 h_S_) : (⟨S524288x5, .f32⟩ : BufTy).Contents (Elt F) → (⟨S_, .f32⟩ : BufTy).Contents (Elt F) → (⟨S524288, .f32⟩ : BufTy).Contents (Elt F)),
    nullary main_cst_33 (constant S_ .f32 0x40A00000#32),
    unary main_cst_33 main_v109 (broadcastInDim S524288 ![] bcast_S_S524288 : (⟨S_, .f32⟩ : BufTy).Contents (Elt F) → (⟨S524288, .f32⟩ : BufTy).Contents (Elt F)),
    binary main_v108 main_v109 main_v110 (Host.divf : (⟨S524288, .f32⟩ : BufTy).Contents (Elt F) → (⟨S524288, .f32⟩ : BufTy).Contents (Elt F) → (⟨S524288, .f32⟩ : BufTy).Contents (Elt F)),
    unary main_arg0 main_v111 ((extractStridedSlice S524288x5 ![0, 53] · slices_S524288x65_S524288x5_0_53) : (⟨S524288x65, .f32⟩ : BufTy).Contents (Elt F) → (⟨S524288x5, .f32⟩ : BufTy).Contents (Elt F)),
    nullary main_cst_34 (constant S_ .f32 0x00000000#32),
    binary main_v111 main_cst_34 main_v112 ((fun x v => Host.reduceAdd x v reducesTo_S524288x5_S524288_d1 h_S_) : (⟨S524288x5, .f32⟩ : BufTy).Contents (Elt F) → (⟨S_, .f32⟩ : BufTy).Contents (Elt F) → (⟨S524288, .f32⟩ : BufTy).Contents (Elt F)),
    nullary main_cst_35 (constant S_ .f32 0x40A00000#32),
    unary main_cst_35 main_v113 (broadcastInDim S524288 ![] bcast_S_S524288 : (⟨S_, .f32⟩ : BufTy).Contents (Elt F) → (⟨S524288, .f32⟩ : BufTy).Contents (Elt F)),
    binary main_v112 main_v113 main_v114 (Host.divf : (⟨S524288, .f32⟩ : BufTy).Contents (Elt F) → (⟨S524288, .f32⟩ : BufTy).Contents (Elt F) → (⟨S524288, .f32⟩ : BufTy).Contents (Elt F)),
    unary main_arg0 main_v115 ((extractStridedSlice S524288x1 ![0, 58] · slices_S524288x65_S524288x1_0_58) : (⟨S524288x65, .f32⟩ : BufTy).Contents (Elt F) → (⟨S524288x1, .f32⟩ : BufTy).Contents (Elt F)),
    nullary main_cst_36 (constant S_ .f32 0x00000000#32),
    binary main_v115 main_cst_36 main_v116 ((fun x v => Host.reduceAdd x v reducesTo_S524288x1_S524288_d1 h_S_) : (⟨S524288x1, .f32⟩ : BufTy).Contents (Elt F) → (⟨S_, .f32⟩ : BufTy).Contents (Elt F) → (⟨S524288, .f32⟩ : BufTy).Contents (Elt F)),
    nullary main_cst_37 (constant S_ .f32 0x3F800000#32),
    unary main_cst_37 main_v117 (broadcastInDim S524288 ![] bcast_S_S524288 : (⟨S_, .f32⟩ : BufTy).Contents (Elt F) → (⟨S524288, .f32⟩ : BufTy).Contents (Elt F)),
    binary main_v116 main_v117 main_v118 (Host.divf : (⟨S524288, .f32⟩ : BufTy).Contents (Elt F) → (⟨S524288, .f32⟩ : BufTy).Contents (Elt F) → (⟨S524288, .f32⟩ : BufTy).Contents (Elt F)),
    unary main_arg0 main_v119 ((extractStridedSlice S524288x3 ![0, 59] · slices_S524288x65_S524288x3_0_59) : (⟨S524288x65, .f32⟩ : BufTy).Contents (Elt F) → (⟨S524288x3, .f32⟩ : BufTy).Contents (Elt F)),
    nullary main_cst_38 (constant S_ .f32 0x00000000#32),
    binary main_v119 main_cst_38 main_v120 ((fun x v => Host.reduceAdd x v reducesTo_S524288x3_S524288_d1 h_S_) : (⟨S524288x3, .f32⟩ : BufTy).Contents (Elt F) → (⟨S_, .f32⟩ : BufTy).Contents (Elt F) → (⟨S524288, .f32⟩ : BufTy).Contents (Elt F)),
    nullary main_cst_39 (constant S_ .f32 0x40400000#32),
    unary main_cst_39 main_v121 (broadcastInDim S524288 ![] bcast_S_S524288 : (⟨S_, .f32⟩ : BufTy).Contents (Elt F) → (⟨S524288, .f32⟩ : BufTy).Contents (Elt F)),
    binary main_v120 main_v121 main_v122 (Host.divf : (⟨S524288, .f32⟩ : BufTy).Contents (Elt F) → (⟨S524288, .f32⟩ : BufTy).Contents (Elt F) → (⟨S524288, .f32⟩ : BufTy).Contents (Elt F)),
    unary main_arg0 main_v123 ((extractStridedSlice S524288x3 ![0, 62] · slices_S524288x65_S524288x3_0_62) : (⟨S524288x65, .f32⟩ : BufTy).Contents (Elt F) → (⟨S524288x3, .f32⟩ : BufTy).Contents (Elt F)),
    nullary main_cst_40 (constant S_ .f32 0x00000000#32),
    binary main_v123 main_cst_40 main_v124 ((fun x v => Host.reduceAdd x v reducesTo_S524288x3_S524288_d1 h_S_) : (⟨S524288x3, .f32⟩ : BufTy).Contents (Elt F) → (⟨S_, .f32⟩ : BufTy).Contents (Elt F) → (⟨S524288, .f32⟩ : BufTy).Contents (Elt F)),
    nullary main_cst_41 (constant S_ .f32 0x40400000#32),
    unary main_cst_41 main_v125 (broadcastInDim S524288 ![] bcast_S_S524288 : (⟨S_, .f32⟩ : BufTy).Contents (Elt F) → (⟨S524288, .f32⟩ : BufTy).Contents (Elt F)),
    binary main_v124 main_v125 main_v126 (Host.divf : (⟨S524288, .f32⟩ : BufTy).Contents (Elt F) → (⟨S524288, .f32⟩ : BufTy).Contents (Elt F) → (⟨S524288, .f32⟩ : BufTy).Contents (Elt F)),
    unary main_v98 main_v127 (broadcastInDim S524288x1 ![0] bcast_S524288_S524288x1_0 : (⟨S524288, .f32⟩ : BufTy).Contents (Elt F) → (⟨S524288x1, .f32⟩ : BufTy).Contents (Elt F)),
    unary main_v102 main_v128 (broadcastInDim S524288x1 ![0] bcast_S524288_S524288x1_0 : (⟨S524288, .f32⟩ : BufTy).Contents (Elt F) → (⟨S524288x1, .f32⟩ : BufTy).Contents (Elt F)),
    unary main_v106 main_v129 (broadcastInDim S524288x1 ![0] bcast_S524288_S524288x1_0 : (⟨S524288, .f32⟩ : BufTy).Contents (Elt F) → (⟨S524288x1, .f32⟩ : BufTy).Contents (Elt F)),
    unary main_v110 main_v130 (broadcastInDim S524288x1 ![0] bcast_S524288_S524288x1_0 : (⟨S524288, .f32⟩ : BufTy).Contents (Elt F) → (⟨S524288x1, .f32⟩ : BufTy).Contents (Elt F)),
    unary main_v114 main_v131 (broadcastInDim S524288x1 ![0] bcast_S524288_S524288x1_0 : (⟨S524288, .f32⟩ : BufTy).Contents (Elt F) → (⟨S524288x1, .f32⟩ : BufTy).Contents (Elt F)),
    unary main_v118 main_v132 (broadcastInDim S524288x1 ![0] bcast_S524288_S524288x1_0 : (⟨S524288, .f32⟩ : BufTy).Contents (Elt F) → (⟨S524288x1, .f32⟩ : BufTy).Contents (Elt F)),
    unary main_v122 main_v133 (broadcastInDim S524288x1 ![0] bcast_S524288_S524288x1_0 : (⟨S524288, .f32⟩ : BufTy).Contents (Elt F) → (⟨S524288x1, .f32⟩ : BufTy).Contents (Elt F)),
    unary main_v126 main_v134 (broadcastInDim S524288x1 ![0] bcast_S524288_S524288x1_0 : (⟨S524288, .f32⟩ : BufTy).Contents (Elt F) → (⟨S524288x1, .f32⟩ : BufTy).Contents (Elt F)),
    nary ![main_v127, main_v128, main_v129, main_v130, main_v131, main_v132, main_v133, main_v134] main_v135 (fun u => concatenate S524288x8 1 [⟨S524288x1, u 0⟩, ⟨S524288x1, u 1⟩, ⟨S524288x1, u 2⟩, ⟨S524288x1, u 3⟩, ⟨S524288x1, u 4⟩, ⟨S524288x1, u 5⟩, ⟨S524288x1, u 6⟩, ⟨S524288x1, u 7⟩] concatenates_S524288x1_S524288x1_S524288x1_S524288x1_S524288x1_S524288x1_S524288x1_S524288x1_S524288x8_d1) ]

/-- @main's operations 181 … 240 of 257 (window `main_part3`). -/
abbrev ops_part3 : List (HloOp τ sig (Elt F)) :=
  [ unary main_arg0 main_v136 ((extractStridedSlice S524288x53 ![0, 0] · slices_S524288x65_S524288x53_0_0) : (⟨S524288x65, .f32⟩ : BufTy).Contents (Elt F) → (⟨S524288x53, .f32⟩ : BufTy).Contents (Elt F)),
    nullary main_cst_42 (constant S_ .f32 0x00000000#32),
    binary main_v136 main_cst_42 main_v137 ((fun x v => Host.reduceAdd x v reducesTo_S524288x53_S524288_d1 h_S_) : (⟨S524288x53, .f32⟩ : BufTy).Contents (Elt F) → (⟨S_, .f32⟩ : BufTy).Contents (Elt F) → (⟨S524288, .f32⟩ : BufTy).Contents (Elt F)),
    nullary main_cst_43 (constant S_ .f32 0x42540000#32),
    unary main_cst_43 main_v138 (broadcastInDim S524288 ![] bcast_S_S524288 : (⟨S_, .f32⟩ : BufTy).Contents (Elt F) → (⟨S524288, .f32⟩ : BufTy).Contents (Elt F)),
    binary main_v137 main_v138 main_v139 (Host.divf : (⟨S524288, .f32⟩ : BufTy).Contents (Elt F) → (⟨S524288, .f32⟩ : BufTy).Contents (Elt F) → (⟨S524288, .f32⟩ : BufTy).Contents (Elt F)),
    unary main_arg0 main_v140 ((extractStridedSlice S524288x12 ![0, 53] · slices_S524288x65_S524288x12_0_53) : (⟨S524288x65, .f32⟩ : BufTy).Contents (Elt F) → (⟨S524288x12, .f32⟩ : BufTy).Contents (Elt F)),
    nullary main_cst_44 (constant S_ .f32 0x00000000#32),
    binary main_v140 main_cst_44 main_v141 ((fun x v => Host.reduceAdd x v reducesTo_S524288x12_S524288_d1 h_S_) : (⟨S524288x12, .f32⟩ : BufTy).Contents (Elt F) → (⟨S_, .f32⟩ : BufTy).Contents (Elt F) → (⟨S524288, .f32⟩ : BufTy).Contents (Elt F)),
    nullary main_cst_45 (constant S_ .f32 0x41400000#32),
    unary main_cst_45 main_v142 (broadcastInDim S524288 ![] bcast_S_S524288 : (⟨S_, .f32⟩ : BufTy).Contents (Elt F) → (⟨S524288, .f32⟩ : BufTy).Contents (Elt F)),
    binary main_v141 main_v142 main_v143 (Host.divf : (⟨S524288, .f32⟩ : BufTy).Contents (Elt F) → (⟨S524288, .f32⟩ : BufTy).Contents (Elt F) → (⟨S524288, .f32⟩ : BufTy).Contents (Elt F)),
    unary main_v139 main_v144 (broadcastInDim S524288x1 ![0] bcast_S524288_S524288x1_0 : (⟨S524288, .f32⟩ : BufTy).Contents (Elt F) → (⟨S524288x1, .f32⟩ : BufTy).Contents (Elt F)),
    unary main_v143 main_v145 (broadcastInDim S524288x1 ![0] bcast_S524288_S524288x1_0 : (⟨S524288, .f32⟩ : BufTy).Contents (Elt F) → (⟨S524288x1, .f32⟩ : BufTy).Contents (Elt F)),
    binary main_v144 main_v145 main_v146 ((fun a b => concatenate S524288x2 1 [⟨S524288x1, a⟩, ⟨S524288x1, b⟩] concatenates_S524288x1_S524288x1_S524288x2_d1) : (⟨S524288x1, .f32⟩ : BufTy).Contents (Elt F) → (⟨S524288x1, .f32⟩ : BufTy).Contents (Elt F) → (⟨S524288x2, .f32⟩ : BufTy).Contents (Elt F)),
    nullary main_cst_46 (constant S_ .f32 0xFF800000#32),
    binary main_v146 main_cst_46 main_v147 ((fun x v => Host.reduce FloatOps.maximumf x v reducesTo_S524288x2_S524288_d1 h_S_) : (⟨S524288x2, .f32⟩ : BufTy).Contents (Elt F) → (⟨S_, .f32⟩ : BufTy).Contents (Elt F) → (⟨S524288, .f32⟩ : BufTy).Contents (Elt F)),
    nullary main_cst_47 (constant S_ .f32 0xFF800000#32),
    unary main_cst_47 main_v148 (broadcastInDim S524288 ![] bcast_S_S524288 : (⟨S_, .f32⟩ : BufTy).Contents (Elt F) → (⟨S524288, .f32⟩ : BufTy).Contents (Elt F)),
    binary main_v148 main_v147 main_v149 (maximumf : (⟨S524288, .f32⟩ : BufTy).Contents (Elt F) → (⟨S524288, .f32⟩ : BufTy).Contents (Elt F) → (⟨S524288, .f32⟩ : BufTy).Contents (Elt F)),
    unary main_v149 main_v150 (broadcastInDim S524288x1 ![0] bcast_S524288_S524288x1_0 : (⟨S524288, .f32⟩ : BufTy).Contents (Elt F) → (⟨S524288x1, .f32⟩ : BufTy).Contents (Elt F)),
    unary main_v150 main_v151 (broadcastInDim S524288x2 ![0, 1] bcast_S524288x1_S524288x2_0_1 : (⟨S524288x1, .f32⟩ : BufTy).Contents (Elt F) → (⟨S524288x2, .f32⟩ : BufTy).Contents (Elt F)),
    binary main_v146 main_v151 main_v152 (subf : (⟨S524288x2, .f32⟩ : BufTy).Contents (Elt F) → (⟨S524288x2, .f32⟩ : BufTy).Contents (Elt F) → (⟨S524288x2, .f32⟩ : BufTy).Contents (Elt F)),
    unary main_v152 main_v153 (Host.exp : (⟨S524288x2, .f32⟩ : BufTy).Contents (Elt F) → (⟨S524288x2, .f32⟩ : BufTy).Contents (Elt F)),
    nullary main_cst_48 (constant S_ .f32 0x00000000#32),
    binary main_v153 main_cst_48 main_v154 ((fun x v => Host.reduceAdd x v reducesTo_S524288x2_S524288_d1 h_S_) : (⟨S524288x2, .f32⟩ : BufTy).Contents (Elt F) → (⟨S_, .f32⟩ : BufTy).Contents (Elt F) → (⟨S524288, .f32⟩ : BufTy).Contents (Elt F)),
    unary main_v154 main_v155 (broadcastInDim S524288x1 ![0] bcast_S524288_S524288x1_0 : (⟨S524288, .f32⟩ : BufTy).Contents (Elt F) → (⟨S524288x1, .f32⟩ : BufTy).Contents (Elt F)),
    unary main_v155 main_v156 (broadcastInDim S524288x2 ![0, 1] bcast_S524288x1_S524288x2_0_1 : (⟨S524288x1, .f32⟩ : BufTy).Contents (Elt F) → (⟨S524288x2, .f32⟩ : BufTy).Contents (Elt F)),
    binary main_v153 main_v156 main_v157 (Host.divf : (⟨S524288x2, .f32⟩ : BufTy).Contents (Elt F) → (⟨S524288x2, .f32⟩ : BufTy).Contents (Elt F) → (⟨S524288x2, .f32⟩ : BufTy).Contents (Elt F)),
    unary main_v135 main_v158 ((extractStridedSlice S524288x4 ![0, 0] · slices_S524288x8_S524288x4_0_0) : (⟨S524288x8, .f32⟩ : BufTy).Contents (Elt F) → (⟨S524288x4, .f32⟩ : BufTy).Contents (Elt F)),
    nullary main_cst_49 (constant S_ .f32 0xFF800000#32),
    binary main_v158 main_cst_49 main_v159 ((fun x v => Host.reduce FloatOps.maximumf x v reducesTo_S524288x4_S524288_d1 h_S_) : (⟨S524288x4, .f32⟩ : BufTy).Contents (Elt F) → (⟨S_, .f32⟩ : BufTy).Contents (Elt F) → (⟨S524288, .f32⟩ : BufTy).Contents (Elt F)),
    nullary main_cst_50 (constant S_ .f32 0xFF800000#32),
    unary main_cst_50 main_v160 (broadcastInDim S524288 ![] bcast_S_S524288 : (⟨S_, .f32⟩ : BufTy).Contents (Elt F) → (⟨S524288, .f32⟩ : BufTy).Contents (Elt F)),
    binary main_v160 main_v159 main_v161 (maximumf : (⟨S524288, .f32⟩ : BufTy).Contents (Elt F) → (⟨S524288, .f32⟩ : BufTy).Contents (Elt F) → (⟨S524288, .f32⟩ : BufTy).Contents (Elt F)),
    unary main_v161 main_v162 (broadcastInDim S524288x1 ![0] bcast_S524288_S524288x1_0 : (⟨S524288, .f32⟩ : BufTy).Contents (Elt F) → (⟨S524288x1, .f32⟩ : BufTy).Contents (Elt F)),
    unary main_v162 main_v163 (broadcastInDim S524288x4 ![0, 1] bcast_S524288x1_S524288x4_0_1 : (⟨S524288x1, .f32⟩ : BufTy).Contents (Elt F) → (⟨S524288x4, .f32⟩ : BufTy).Contents (Elt F)),
    binary main_v158 main_v163 main_v164 (subf : (⟨S524288x4, .f32⟩ : BufTy).Contents (Elt F) → (⟨S524288x4, .f32⟩ : BufTy).Contents (Elt F) → (⟨S524288x4, .f32⟩ : BufTy).Contents (Elt F)),
    unary main_v164 main_v165 (Host.exp : (⟨S524288x4, .f32⟩ : BufTy).Contents (Elt F) → (⟨S524288x4, .f32⟩ : BufTy).Contents (Elt F)),
    nullary main_cst_51 (constant S_ .f32 0x00000000#32),
    binary main_v165 main_cst_51 main_v166 ((fun x v => Host.reduceAdd x v reducesTo_S524288x4_S524288_d1 h_S_) : (⟨S524288x4, .f32⟩ : BufTy).Contents (Elt F) → (⟨S_, .f32⟩ : BufTy).Contents (Elt F) → (⟨S524288, .f32⟩ : BufTy).Contents (Elt F)),
    unary main_v166 main_v167 (broadcastInDim S524288x1 ![0] bcast_S524288_S524288x1_0 : (⟨S524288, .f32⟩ : BufTy).Contents (Elt F) → (⟨S524288x1, .f32⟩ : BufTy).Contents (Elt F)),
    unary main_v167 main_v168 (broadcastInDim S524288x4 ![0, 1] bcast_S524288x1_S524288x4_0_1 : (⟨S524288x1, .f32⟩ : BufTy).Contents (Elt F) → (⟨S524288x4, .f32⟩ : BufTy).Contents (Elt F)),
    binary main_v165 main_v168 main_v169 (Host.divf : (⟨S524288x4, .f32⟩ : BufTy).Contents (Elt F) → (⟨S524288x4, .f32⟩ : BufTy).Contents (Elt F) → (⟨S524288x4, .f32⟩ : BufTy).Contents (Elt F)),
    unary main_v135 main_v170 ((extractStridedSlice S524288x4 ![0, 4] · slices_S524288x8_S524288x4_0_4) : (⟨S524288x8, .f32⟩ : BufTy).Contents (Elt F) → (⟨S524288x4, .f32⟩ : BufTy).Contents (Elt F)),
    nullary main_cst_52 (constant S_ .f32 0xFF800000#32),
    binary main_v170 main_cst_52 main_v171 ((fun x v => Host.reduce FloatOps.maximumf x v reducesTo_S524288x4_S524288_d1 h_S_) : (⟨S524288x4, .f32⟩ : BufTy).Contents (Elt F) → (⟨S_, .f32⟩ : BufTy).Contents (Elt F) → (⟨S524288, .f32⟩ : BufTy).Contents (Elt F)),
    nullary main_cst_53 (constant S_ .f32 0xFF800000#32),
    unary main_cst_53 main_v172 (broadcastInDim S524288 ![] bcast_S_S524288 : (⟨S_, .f32⟩ : BufTy).Contents (Elt F) → (⟨S524288, .f32⟩ : BufTy).Contents (Elt F)),
    binary main_v172 main_v171 main_v173 (maximumf : (⟨S524288, .f32⟩ : BufTy).Contents (Elt F) → (⟨S524288, .f32⟩ : BufTy).Contents (Elt F) → (⟨S524288, .f32⟩ : BufTy).Contents (Elt F)),
    unary main_v173 main_v174 (broadcastInDim S524288x1 ![0] bcast_S524288_S524288x1_0 : (⟨S524288, .f32⟩ : BufTy).Contents (Elt F) → (⟨S524288x1, .f32⟩ : BufTy).Contents (Elt F)),
    unary main_v174 main_v175 (broadcastInDim S524288x4 ![0, 1] bcast_S524288x1_S524288x4_0_1 : (⟨S524288x1, .f32⟩ : BufTy).Contents (Elt F) → (⟨S524288x4, .f32⟩ : BufTy).Contents (Elt F)),
    binary main_v170 main_v175 main_v176 (subf : (⟨S524288x4, .f32⟩ : BufTy).Contents (Elt F) → (⟨S524288x4, .f32⟩ : BufTy).Contents (Elt F) → (⟨S524288x4, .f32⟩ : BufTy).Contents (Elt F)),
    unary main_v176 main_v177 (Host.exp : (⟨S524288x4, .f32⟩ : BufTy).Contents (Elt F) → (⟨S524288x4, .f32⟩ : BufTy).Contents (Elt F)),
    nullary main_cst_54 (constant S_ .f32 0x00000000#32),
    binary main_v177 main_cst_54 main_v178 ((fun x v => Host.reduceAdd x v reducesTo_S524288x4_S524288_d1 h_S_) : (⟨S524288x4, .f32⟩ : BufTy).Contents (Elt F) → (⟨S_, .f32⟩ : BufTy).Contents (Elt F) → (⟨S524288, .f32⟩ : BufTy).Contents (Elt F)),
    unary main_v178 main_v179 (broadcastInDim S524288x1 ![0] bcast_S524288_S524288x1_0 : (⟨S524288, .f32⟩ : BufTy).Contents (Elt F) → (⟨S524288x1, .f32⟩ : BufTy).Contents (Elt F)),
    unary main_v179 main_v180 (broadcastInDim S524288x4 ![0, 1] bcast_S524288x1_S524288x4_0_1 : (⟨S524288x1, .f32⟩ : BufTy).Contents (Elt F) → (⟨S524288x4, .f32⟩ : BufTy).Contents (Elt F)),
    binary main_v177 main_v180 main_v181 (Host.divf : (⟨S524288x4, .f32⟩ : BufTy).Contents (Elt F) → (⟨S524288x4, .f32⟩ : BufTy).Contents (Elt F) → (⟨S524288x4, .f32⟩ : BufTy).Contents (Elt F)),
    binary main_v169 main_v181 main_v182 ((fun a b => concatenate S524288x8 1 [⟨S524288x4, a⟩, ⟨S524288x4, b⟩] concatenates_S524288x4_S524288x4_S524288x8_d1) : (⟨S524288x4, .f32⟩ : BufTy).Contents (Elt F) → (⟨S524288x4, .f32⟩ : BufTy).Contents (Elt F) → (⟨S524288x8, .f32⟩ : BufTy).Contents (Elt F)) ]

/-- @main's operations 241 … 257 of 257 (window `main_part4`). -/
abbrev ops_part4 : List (HloOp τ sig (Elt F)) :=
  [ nullary main_cst_55 (constant S_ .f32 0x3F800000#32),
    unary main_cst_55 main_v183 (broadcastInDim S524288x1 ![] bcast_S_S524288x1 : (⟨S_, .f32⟩ : BufTy).Contents (Elt F) → (⟨S524288x1, .f32⟩ : BufTy).Contents (Elt F)),
    nary ![main_v94, main_v182, main_v157, main_v183] main_v184 (fun u => concatenate S524288x76 1 [⟨S524288x65, u 0⟩, ⟨S524288x8, u 1⟩, ⟨S524288x2, u 2⟩, ⟨S524288x1, u 3⟩] concatenates_S524288x65_S524288x8_S524288x2_S524288x1_S524288x76_d1),
    nullary main_c_56 (constantI S_ 32 8#32),
    unary main_c_56 main_v185 (broadcastInDim S65 ![] bcast_S_S65 : (⟨S_, .i32⟩ : BufTy).Contents (Elt F) → (⟨S65, .i32⟩ : BufTy).Contents (Elt F)),
    binary main_c main_v185 main_v186 (addi : (⟨S65, .i32⟩ : BufTy).Contents (Elt F) → (⟨S65, .i32⟩ : BufTy).Contents (Elt F) → (⟨S65, .i32⟩ : BufTy).Contents (Elt F)),
    ternary main_c_0 main_v186 main_c main_v187 (select : (⟨S65, .i1⟩ : BufTy).Contents (Elt F) → (⟨S65, .i32⟩ : BufTy).Contents (Elt F) → (⟨S65, .i32⟩ : BufTy).Contents (Elt F) → (⟨S65, .i32⟩ : BufTy).Contents (Elt F)),
    unary main_v187 main_v188 (broadcastInDim S65x1 ![0] bcast_S65_S65x1_0 : (⟨S65, .i32⟩ : BufTy).Contents (Elt F) → (⟨S65x1, .i32⟩ : BufTy).Contents (Elt F)),
    binary main_v182 main_v188 main_v189 ((fun x i => Host.gather gather_S524288x8_S65x1_S524288x65_0_1_n_n_1_1_5242881 x i) : (⟨S524288x8, .f32⟩ : BufTy).Contents (Elt F) → (⟨S65x1, .i32⟩ : BufTy).Contents (Elt F) → (⟨S524288x65, .f32⟩ : BufTy).Contents (Elt F)),
    binary main_v94 main_v189 main_v190 (mulf : (⟨S524288x65, .f32⟩ : BufTy).Contents (Elt F) → (⟨S524288x65, .f32⟩ : BufTy).Contents (Elt F) → (⟨S524288x65, .f32⟩ : BufTy).Contents (Elt F)),
    nullary main_c_57 (constantI S_ 32 2#32),
    unary main_c_57 main_v191 (broadcastInDim S65 ![] bcast_S_S65 : (⟨S_, .i32⟩ : BufTy).Contents (Elt F) → (⟨S65, .i32⟩ : BufTy).Contents (Elt F)),
    binary main_c_1 main_v191 main_v192 (addi : (⟨S65, .i32⟩ : BufTy).Contents (Elt F) → (⟨S65, .i32⟩ : BufTy).Contents (Elt F) → (⟨S65, .i32⟩ : BufTy).Contents (Elt F)),
    ternary main_c_2 main_v192 main_c_1 main_v193 (select : (⟨S65, .i1⟩ : BufTy).Contents (Elt F) → (⟨S65, .i32⟩ : BufTy).Contents (Elt F) → (⟨S65, .i32⟩ : BufTy).Contents (Elt F) → (⟨S65, .i32⟩ : BufTy).Contents (Elt F)),
    unary main_v193 main_v194 (broadcastInDim S65x1 ![0] bcast_S65_S65x1_0 : (⟨S65, .i32⟩ : BufTy).Contents (Elt F) → (⟨S65x1, .i32⟩ : BufTy).Contents (Elt F)),
    binary main_v157 main_v194 main_v195 ((fun x i => Host.gather gather_S524288x2_S65x1_S524288x65_0_1_n_n_1_1_5242881 x i) : (⟨S524288x2, .f32⟩ : BufTy).Contents (Elt F) → (⟨S65x1, .i32⟩ : BufTy).Contents (Elt F) → (⟨S524288x65, .f32⟩ : BufTy).Contents (Elt F)),
    binary main_v190 main_v195 main_v196 (mulf : (⟨S524288x65, .f32⟩ : BufTy).Contents (Elt F) → (⟨S524288x65, .f32⟩ : BufTy).Contents (Elt F) → (⟨S524288x65, .f32⟩ : BufTy).Contents (Elt F)) ]

/-- @main's operations, in order. -/
abbrev ops : List (HloOp τ sig (Elt F)) :=
  ops_part0 ++ ops_part1 ++ ops_part2 ++ ops_part3 ++ ops_part4

end Cert.ReferenceIdeal.RefOps

end
-- ==== Proof.RefTerms.lean ====
import proofs.«121205_j47253230191392_1_alg».proof.Proof.Gen.ReferenceIdeal

noncomputable section

namespace Cert.ReferenceIdeal.RT

open Cert.ReferenceIdeal Cert.ReferenceIdeal.Gen Idealize.ShloMosaic

variable {F : FTy → Type} [FloatOps F]

/-- Buffer `main_v11`. -/
def v11 (x : FVec F S524288x65 .f32) : FVec F S524288x7 .f32 :=
  Host.divf (Host.exp (subf (extractStridedSlice S524288x7 ![0, 0] (x) slices_S524288x65_S524288x7_0_0) (broadcastInDim S524288x7 ![0, 1] bcast_S524288x1_S524288x7_0_1 (broadcastInDim S524288x1 ![0] bcast_S524288_S524288x1_0 (maximumf (broadcastInDim S524288 ![] bcast_S_S524288 (constant (F := F) S_ .f32 0xFF800000#32)) (Host.reduce FloatOps.maximumf (extractStridedSlice S524288x7 ![0, 0] (x) slices_S524288x65_S524288x7_0_0) (constant (F := F) S_ .f32 0xFF800000#32) reducesTo_S524288x7_S524288_d1 h_S_)))))) (broadcastInDim S524288x7 ![0, 1] bcast_S524288x1_S524288x7_0_1 (broadcastInDim S524288x1 ![0] bcast_S524288_S524288x1_0 (Host.reduceAdd (Host.exp (subf (extractStridedSlice S524288x7 ![0, 0] (x) slices_S524288x65_S524288x7_0_0) (broadcastInDim S524288x7 ![0, 1] bcast_S524288x1_S524288x7_0_1 (broadcastInDim S524288x1 ![0] bcast_S524288_S524288x1_0 (maximumf (broadcastInDim S524288 ![] bcast_S_S524288 (constant (F := F) S_ .f32 0xFF800000#32)) (Host.reduce FloatOps.maximumf (extractStridedSlice S524288x7 ![0, 0] (x) slices_S524288x65_S524288x7_0_0) (constant (F := F) S_ .f32 0xFF800000#32) reducesTo_S524288x7_S524288_d1 h_S_)))))) (constant (F := F) S_ .f32 0x00000000#32) reducesTo_S524288x7_S524288_d1 h_S_)))

/-- Buffer `main_v23`. -/
def v23 (x : FVec F S524288x65 .f32) : FVec F S524288x23 .f32 :=
  Host.divf (Host.exp (subf (extractStridedSlice S524288x23 ![0, 7] (x) slices_S524288x65_S524288x23_0_7) (broadcastInDim S524288x23 ![0, 1] bcast_S524288x1_S524288x23_0_1 (broadcastInDim S524288x1 ![0] bcast_S524288_S524288x1_0 (maximumf (broadcastInDim S524288 ![] bcast_S_S524288 (constant (F := F) S_ .f32 0xFF800000#32)) (Host.reduce FloatOps.maximumf (extractStridedSlice S524288x23 ![0, 7] (x) slices_S524288x65_S524288x23_0_7) (constant (F := F) S_ .f32 0xFF800000#32) reducesTo_S524288x23_S524288_d1 h_S_)))))) (broadcastInDim S524288x23 ![0, 1] bcast_S524288x1_S524288x23_0_1 (broadcastInDim S524288x1 ![0] bcast_S524288_S524288x1_0 (Host.reduceAdd (Host.exp (subf (extractStridedSlice S524288x23 ![0, 7] (x) slices_S524288x65_S524288x23_0_7) (broadcastInDim S524288x23 ![0, 1] bcast_S524288x1_S524288x23_0_1 (broadcastInDim S524288x1 ![0] bcast_S524288_S524288x1_0 (maximumf (broadcastInDim S524288 ![] bcast_S_S524288 (constant (F := F) S_ .f32 0xFF800000#32)) (Host.reduce FloatOps.maximumf (extractStridedSlice S524288x23 ![0, 7] (x) slices_S524288x65_S524288x23_0_7) (constant (F := F) S_ .f32 0xFF800000#32) reducesTo_S524288x23_S524288_d1 h_S_)))))) (constant (F := F) S_ .f32 0x00000000#32) reducesTo_S524288x23_S524288_d1 h_S_)))

/-- Buffer `main_v35`. -/
def v35 (x : FVec F S524288x65 .f32) : FVec F S524288x18 .f32 :=
  Host.divf (Host.exp (subf (extractStridedSlice S524288x18 ![0, 30] (x) slices_S524288x65_S524288x18_0_30) (broadcastInDim S524288x18 ![0, 1] bcast_S524288x1_S524288x18_0_1 (broadcastInDim S524288x1 ![0] bcast_S524288_S524288x1_0 (maximumf (broadcastInDim S524288 ![] bcast_S_S524288 (constant (F := F) S_ .f32 0xFF800000#32)) (Host.reduce FloatOps.maximumf (extractStridedSlice S524288x18 ![0, 30] (x) slices_S524288x65_S524288x18_0_30) (constant (F := F) S_ .f32 0xFF800000#32) reducesTo_S524288x18_S524288_d1 h_S_)))))) (broadcastInDim S524288x18 ![0, 1] bcast_S524288x1_S524288x18_0_1 (broadcastInDim S524288x1 ![0] bcast_S524288_S524288x1_0 (Host.reduceAdd (Host.exp (subf (extractStridedSlice S524288x18 ![0, 30] (x) slices_S524288x65_S524288x18_0_30) (broadcastInDim S524288x18 ![0, 1] bcast_S524288x1_S524288x18_0_1 (broadcastInDim S524288x1 ![0] bcast_S524288_S524288x1_0 (maximumf (broadcastInDim S524288 ![] bcast_S_S524288 (constant (F := F) S_ .f32 0xFF800000#32)) (Host.reduce FloatOps.maximumf (extractStridedSlice S524288x18 ![0, 30] (x) slices_S524288x65_S524288x18_0_30) (constant (F := F) S_ .f32 0xFF800000#32) reducesTo_S524288x18_S524288_d1 h_S_)))))) (constant (F := F) S_ .f32 0x00000000#32) reducesTo_S524288x18_S524288_d1 h_S_)))

/-- Buffer `main_v47`. -/
def v47 (x : FVec F S524288x65 .f32) : FVec F S524288x5 .f32 :=
  Host.divf (Host.exp (subf (extractStridedSlice S524288x5 ![0, 48] (x) slices_S524288x65_S524288x5_0_48) (broadcastInDim S524288x5 ![0, 1] bcast_S524288x1_S524288x5_0_1 (broadcastInDim S524288x1 ![0] bcast_S524288_S524288x1_0 (maximumf (broadcastInDim S524288 ![] bcast_S_S524288 (constant (F := F) S_ .f32 0xFF800000#32)) (Host.reduce FloatOps.maximumf (extractStridedSlice S524288x5 ![0, 48] (x) slices_S524288x65_S524288x5_0_48) (constant (F := F) S_ .f32 0xFF800000#32) reducesTo_S524288x5_S524288_d1 h_S_)))))) (broadcastInDim S524288x5 ![0, 1] bcast_S524288x1_S524288x5_0_1 (broadcastInDim S524288x1 ![0] bcast_S524288_S524288x1_0 (Host.reduceAdd (Host.exp (subf (extractStridedSlice S524288x5 ![0, 48] (x) slices_S524288x65_S524288x5_0_48) (broadcastInDim S524288x5 ![0, 1] bcast_S524288x1_S524288x5_0_1 (broadcastInDim S524288x1 ![0] bcast_S524288_S524288x1_0 (maximumf (broadcastInDim S524288 ![] bcast_S_S524288 (constant (F := F) S_ .f32 0xFF800000#32)) (Host.reduce FloatOps.maximumf (extractStridedSlice S524288x5 ![0, 48] (x) slices_S524288x65_S524288x5_0_48) (constant (F := F) S_ .f32 0xFF800000#32) reducesTo_S524288x5_S524288_d1 h_S_)))))) (constant (F := F) S_ .f32 0x00000000#32) reducesTo_S524288x5_S524288_d1 h_S_)))

/-- Buffer `main_v59`. -/
def v59 (x : FVec F S524288x65 .f32) : FVec F S524288x5 .f32 :=
  Host.divf (Host.exp (subf (extractStridedSlice S524288x5 ![0, 53] (x) slices_S524288x65_S524288x5_0_53) (broadcastInDim S524288x5 ![0, 1] bcast_S524288x1_S524288x5_0_1 (broadcastInDim S524288x1 ![0] bcast_S524288_S524288x1_0 (maximumf (broadcastInDim S524288 ![] bcast_S_S524288 (constant (F := F) S_ .f32 0xFF800000#32)) (Host.reduce FloatOps.maximumf (extractStridedSlice S524288x5 ![0, 53] (x) slices_S524288x65_S524288x5_0_53) (constant (F := F) S_ .f32 0xFF800000#32) reducesTo_S524288x5_S524288_d1 h_S_)))))) (broadcastInDim S524288x5 ![0, 1] bcast_S524288x1_S524288x5_0_1 (broadcastInDim S524288x1 ![0] bcast_S524288_S524288x1_0 (Host.reduceAdd (Host.exp (subf (extractStridedSlice S524288x5 ![0, 53] (x) slices_S524288x65_S524288x5_0_53) (broadcastInDim S524288x5 ![0, 1] bcast_S524288x1_S524288x5_0_1 (broadcastInDim S524288x1 ![0] bcast_S524288_S524288x1_0 (maximumf (broadcastInDim S524288 ![] bcast_S_S524288 (constant (F := F) S_ .f32 0xFF800000#32)) (Host.reduce FloatOps.maximumf (extractStridedSlice S524288x5 ![0, 53] (x) slices_S524288x65_S524288x5_0_53) (constant (F := F) S_ .f32 0xFF800000#32) reducesTo_S524288x5_S524288_d1 h_S_)))))) (constant (F := F) S_ .f32 0x00000000#32) reducesTo_S524288x5_S524288_d1 h_S_)))

/-- Buffer `main_v69`. -/
def v69 (x : FVec F S524288x65 .f32) : FVec F S524288x1 .f32 :=
  Host.divf (Host.exp (subf (extractStridedSlice S524288x1 ![0, 58] (x) slices_S524288x65_S524288x1_0_58) (broadcastInDim S524288x1 ![0] bcast_S524288_S524288x1_0 (maximumf (broadcastInDim S524288 ![] bcast_S_S524288 (constant (F := F) S_ .f32 0xFF800000#32)) (Host.reduce FloatOps.maximumf (extractStridedSlice S524288x1 ![0, 58] (x) slices_S524288x65_S524288x1_0_58) (constant (F := F) S_ .f32 0xFF800000#32) reducesTo_S524288x1_S524288_d1 h_S_))))) (broadcastInDim S524288x1 ![0] bcast_S524288_S524288x1_0 (Host.reduceAdd (Host.exp (subf (extractStridedSlice S524288x1 ![0, 58] (x) slices_S524288x65_S524288x1_0_58) (broadcastInDim S524288x1 ![0] bcast_S524288_S524288x1_0 (maximumf (broadcastInDim S524288 ![] bcast_S_S524288 (constant (F := F) S_ .f32 0xFF800000#32)) (Host.reduce FloatOps.maximumf (extractStridedSlice S524288x1 ![0, 58] (x) slices_S524288x65_S524288x1_0_58) (constant (F := F) S_ .f32 0xFF800000#32) reducesTo_S524288x1_S524288_d1 h_S_))))) (constant (F := F) S_ .f32 0x00000000#32) reducesTo_S524288x1_S524288_d1 h_S_))

/-- Buffer `main_v81`. -/
def v81 (x : FVec F S524288x65 .f32) : FVec F S524288x3 .f32 :=
  Host.divf (Host.exp (subf (extractStridedSlice S524288x3 ![0, 59] (x) slices_S524288x65_S524288x3_0_59) (broadcastInDim S524288x3 ![0, 1] bcast_S524288x1_S524288x3_0_1 (broadcastInDim S524288x1 ![0] bcast_S524288_S524288x1_0 (maximumf (broadcastInDim S524288 ![] bcast_S_S524288 (constant (F := F) S_ .f32 0xFF800000#32)) (Host.reduce FloatOps.maximumf (extractStridedSlice S524288x3 ![0, 59] (x) slices_S524288x65_S524288x3_0_59) (constant (F := F) S_ .f32 0xFF800000#32) reducesTo_S524288x3_S524288_d1 h_S_)))))) (broadcastInDim S524288x3 ![0, 1] bcast_S524288x1_S524288x3_0_1 (broadcastInDim S524288x1 ![0] bcast_S524288_S524288x1_0 (Host.reduceAdd (Host.exp (subf (extractStridedSlice S524288x3 ![0, 59] (x) slices_S524288x65_S524288x3_0_59) (broadcastInDim S524288x3 ![0, 1] bcast_S524288x1_S524288x3_0_1 (broadcastInDim S524288x1 ![0] bcast_S524288_S524288x1_0 (maximumf (broadcastInDim S524288 ![] bcast_S_S524288 (constant (F := F) S_ .f32 0xFF800000#32)) (Host.reduce FloatOps.maximumf (extractStridedSlice S524288x3 ![0, 59] (x) slices_S524288x65_S524288x3_0_59) (constant (F := F) S_ .f32 0xFF800000#32) reducesTo_S524288x3_S524288_d1 h_S_)))))) (constant (F := F) S_ .f32 0x00000000#32) reducesTo_S524288x3_S524288_d1 h_S_)))

/-- Buffer `main_v93`. -/
def v93 (x : FVec F S524288x65 .f32) : FVec F S524288x3 .f32 :=
  Host.divf (Host.exp (subf (extractStridedSlice S524288x3 ![0, 62] (x) slices_S524288x65_S524288x3_0_62) (broadcastInDim S524288x3 ![0, 1] bcast_S524288x1_S524288x3_0_1 (broadcastInDim S524288x1 ![0] bcast_S524288_S524288x1_0 (maximumf (broadcastInDim S524288 ![] bcast_S_S524288 (constant (F := F) S_ .f32 0xFF800000#32)) (Host.reduce FloatOps.maximumf (extractStridedSlice S524288x3 ![0, 62] (x) slices_S524288x65_S524288x3_0_62) (constant (F := F) S_ .f32 0xFF800000#32) reducesTo_S524288x3_S524288_d1 h_S_)))))) (broadcastInDim S524288x3 ![0, 1] bcast_S524288x1_S524288x3_0_1 (broadcastInDim S524288x1 ![0] bcast_S524288_S524288x1_0 (Host.reduceAdd (Host.exp (subf (extractStridedSlice S524288x3 ![0, 62] (x) slices_S524288x65_S524288x3_0_62) (broadcastInDim S524288x3 ![0, 1] bcast_S524288x1_S524288x3_0_1 (broadcastInDim S524288x1 ![0] bcast_S524288_S524288x1_0 (maximumf (broadcastInDim S524288 ![] bcast_S_S524288 (constant (F := F) S_ .f32 0xFF800000#32)) (Host.reduce FloatOps.maximumf (extractStridedSlice S524288x3 ![0, 62] (x) slices_S524288x65_S524288x3_0_62) (constant (F := F) S_ .f32 0xFF800000#32) reducesTo_S524288x3_S524288_d1 h_S_)))))) (constant (F := F) S_ .f32 0x00000000#32) reducesTo_S524288x3_S524288_d1 h_S_)))

/-- Buffer `main_v94`. -/
def v94 (x : FVec F S524288x65 .f32) : FVec F S524288x65 .f32 :=
  concatenate S524288x65 1 [⟨S524288x7, v11 x⟩, ⟨S524288x23, v23 x⟩, ⟨S524288x18, v35 x⟩, ⟨S524288x5, v47 x⟩, ⟨S524288x5, v59 x⟩, ⟨S524288x1, v69 x⟩, ⟨S524288x3, v81 x⟩, ⟨S524288x3, v93 x⟩] concatenates_S524288x7_S524288x23_S524288x18_S524288x5_S524288x5_S524288x1_S524288x3_S524288x3_S524288x65_d1

/-- Buffer `main_v98`. -/
def v98 (x : FVec F S524288x65 .f32) : FVec F S524288 .f32 :=
  Host.divf (Host.reduceAdd (extractStridedSlice S524288x7 ![0, 0] (x) slices_S524288x65_S524288x7_0_0) (constant (F := F) S_ .f32 0x00000000#32) reducesTo_S524288x7_S524288_d1 h_S_) (broadcastInDim S524288 ![] bcast_S_S524288 (constant (F := F) S_ .f32 0x40E00000#32))

/-- Buffer `main_v102`. -/
def v102 (x : FVec F S524288x65 .f32) : FVec F S524288 .f32 :=
  Host.divf (Host.reduceAdd (extractStridedSlice S524288x23 ![0, 7] (x) slices_S524288x65_S524288x23_0_7) (constant (F := F) S_ .f32 0x00000000#32) reducesTo_S524288x23_S524288_d1 h_S_) (broadcastInDim S524288 ![] bcast_S_S524288 (constant (F := F) S_ .f32 0x41B80000#32))

/-- Buffer `main_v106`. -/
def v106 (x : FVec F S524288x65 .f32) : FVec F S524288 .f32 :=
  Host.divf (Host.reduceAdd (extractStridedSlice S524288x18 ![0, 30] (x) slices_S524288x65_S524288x18_0_30) (constant (F := F) S_ .f32 0x00000000#32) reducesTo_S524288x18_S524288_d1 h_S_) (broadcastInDim S524288 ![] bcast_S_S524288 (constant (F := F) S_ .f32 0x41900000#32))

/-- Buffer `main_v110`. -/
def v110 (x : FVec F S524288x65 .f32) : FVec F S524288 .f32 :=
  Host.divf (Host.reduceAdd (extractStridedSlice S524288x5 ![0, 48] (x) slices_S524288x65_S524288x5_0_48) (constant (F := F) S_ .f32 0x00000000#32) reducesTo_S524288x5_S524288_d1 h_S_) (broadcastInDim S524288 ![] bcast_S_S524288 (constant (F := F) S_ .f32 0x40A00000#32))

/-- Buffer `main_v114`. -/
def v114 (x : FVec F S524288x65 .f32) : FVec F S524288 .f32 :=
  Host.divf (Host.reduceAdd (extractStridedSlice S524288x5 ![0, 53] (x) slices_S524288x65_S524288x5_0_53) (constant (F := F) S_ .f32 0x00000000#32) reducesTo_S524288x5_S524288_d1 h_S_) (broadcastInDim S524288 ![] bcast_S_S524288 (constant (F := F) S_ .f32 0x40A00000#32))

/-- Buffer `main_v118`. -/
def v118 (x : FVec F S524288x65 .f32) : FVec F S524288 .f32 :=
  Host.divf (Host.reduceAdd (extractStridedSlice S524288x1 ![0, 58] (x) slices_S524288x65_S524288x1_0_58) (constant (F := F) S_ .f32 0x00000000#32) reducesTo_S524288x1_S524288_d1 h_S_) (broadcastInDim S524288 ![] bcast_S_S524288 (constant (F := F) S_ .f32 0x3F800000#32))

/-- Buffer `main_v122`. -/
def v122 (x : FVec F S524288x65 .f32) : FVec F S524288 .f32 :=
  Host.divf (Host.reduceAdd (extractStridedSlice S524288x3 ![0, 59] (x) slices_S524288x65_S524288x3_0_59) (constant (F := F) S_ .f32 0x00000000#32) reducesTo_S524288x3_S524288_d1 h_S_) (broadcastInDim S524288 ![] bcast_S_S524288 (constant (F := F) S_ .f32 0x40400000#32))

/-- Buffer `main_v126`. -/
def v126 (x : FVec F S524288x65 .f32) : FVec F S524288 .f32 :=
  Host.divf (Host.reduceAdd (extractStridedSlice S524288x3 ![0, 62] (x) slices_S524288x65_S524288x3_0_62) (constant (F := F) S_ .f32 0x00000000#32) reducesTo_S524288x3_S524288_d1 h_S_) (broadcastInDim S524288 ![] bcast_S_S524288 (constant (F := F) S_ .f32 0x40400000#32))

/-- Buffer `main_v135`. -/
def v135 (x : FVec F S524288x65 .f32) : FVec F S524288x8 .f32 :=
  concatenate S524288x8 1 [⟨S524288x1, broadcastInDim S524288x1 ![0] bcast_S524288_S524288x1_0 (v98 x)⟩, ⟨S524288x1, broadcastInDim S524288x1 ![0] bcast_S524288_S524288x1_0 (v102 x)⟩, ⟨S524288x1, broadcastInDim S524288x1 ![0] bcast_S524288_S524288x1_0 (v106 x)⟩, ⟨S524288x1, broadcastInDim S524288x1 ![0] bcast_S524288_S524288x1_0 (v110 x)⟩, ⟨S524288x1, broadcastInDim S524288x1 ![0] bcast_S524288_S524288x1_0 (v114 x)⟩, ⟨S524288x1, broadcastInDim S524288x1 ![0] bcast_S524288_S524288x1_0 (v118 x)⟩, ⟨S524288x1, broadcastInDim S524288x1 ![0] bcast_S524288_S524288x1_0 (v122 x)⟩, ⟨S524288x1, broadcastInDim S524288x1 ![0] bcast_S524288_S524288x1_0 (v126 x)⟩] concatenates_S524288x1_S524288x1_S524288x1_S524288x1_S524288x1_S524288x1_S524288x1_S524288x1_S524288x8_d1

/-- Buffer `main_v139`. -/
def v139 (x : FVec F S524288x65 .f32) : FVec F S524288 .f32 :=
  Host.divf (Host.reduceAdd (extractStridedSlice S524288x53 ![0, 0] (x) slices_S524288x65_S524288x53_0_0) (constant (F := F) S_ .f32 0x00000000#32) reducesTo_S524288x53_S524288_d1 h_S_) (broadcastInDim S524288 ![] bcast_S_S524288 (constant (F := F) S_ .f32 0x42540000#32))

/-- Buffer `main_v143`. -/
def v143 (x : FVec F S524288x65 .f32) : FVec F S524288 .f32 :=
  Host.divf (Host.reduceAdd (extractStridedSlice S524288x12 ![0, 53] (x) slices_S524288x65_S524288x12_0_53) (constant (F := F) S_ .f32 0x00000000#32) reducesTo_S524288x12_S524288_d1 h_S_) (broadcastInDim S524288 ![] bcast_S_S524288 (constant (F := F) S_ .f32 0x41400000#32))

/-- Buffer `main_v146`. -/
def v146 (x : FVec F S524288x65 .f32) : FVec F S524288x2 .f32 :=
  concatenate S524288x2 1 [⟨S524288x1, (broadcastInDim S524288x1 ![0] bcast_S524288_S524288x1_0 (v139 x))⟩, ⟨S524288x1, (broadcastInDim S524288x1 ![0] bcast_S524288_S524288x1_0 (v143 x))⟩] concatenates_S524288x1_S524288x1_S524288x2_d1

/-- Buffer `main_v157`. -/
def v157 (x : FVec F S524288x65 .f32) : FVec F S524288x2 .f32 :=
  Host.divf (Host.exp (subf (v146 x) (broadcastInDim S524288x2 ![0, 1] bcast_S524288x1_S524288x2_0_1 (broadcastInDim S524288x1 ![0] bcast_S524288_S524288x1_0 (maximumf (broadcastInDim S524288 ![] bcast_S_S524288 (constant (F := F) S_ .f32 0xFF800000#32)) (Host.reduce FloatOps.maximumf (v146 x) (constant (F := F) S_ .f32 0xFF800000#32) reducesTo_S524288x2_S524288_d1 h_S_)))))) (broadcastInDim S524288x2 ![0, 1] bcast_S524288x1_S524288x2_0_1 (broadcastInDim S524288x1 ![0] bcast_S524288_S524288x1_0 (Host.reduceAdd (Host.exp (subf (v146 x) (broadcastInDim S524288x2 ![0, 1] bcast_S524288x1_S524288x2_0_1 (broadcastInDim S524288x1 ![0] bcast_S524288_S524288x1_0 (maximumf (broadcastInDim S524288 ![] bcast_S_S524288 (constant (F := F) S_ .f32 0xFF800000#32)) (Host.reduce FloatOps.maximumf (v146 x) (constant (F := F) S_ .f32 0xFF800000#32) reducesTo_S524288x2_S524288_d1 h_S_)))))) (constant (F := F) S_ .f32 0x00000000#32) reducesTo_S524288x2_S524288_d1 h_S_)))

/-- Buffer `main_v169`. -/
def v169 (x : FVec F S524288x65 .f32) : FVec F S524288x4 .f32 :=
  Host.divf (Host.exp (subf (extractStridedSlice S524288x4 ![0, 0] (v135 x) slices_S524288x8_S524288x4_0_0) (broadcastInDim S524288x4 ![0, 1] bcast_S524288x1_S524288x4_0_1 (broadcastInDim S524288x1 ![0] bcast_S524288_S524288x1_0 (maximumf (broadcastInDim S524288 ![] bcast_S_S524288 (constant (F := F) S_ .f32 0xFF800000#32)) (Host.reduce FloatOps.maximumf (extractStridedSlice S524288x4 ![0, 0] (v135 x) slices_S524288x8_S524288x4_0_0) (constant (F := F) S_ .f32 0xFF800000#32) reducesTo_S524288x4_S524288_d1 h_S_)))))) (broadcastInDim S524288x4 ![0, 1] bcast_S524288x1_S524288x4_0_1 (broadcastInDim S524288x1 ![0] bcast_S524288_S524288x1_0 (Host.reduceAdd (Host.exp (subf (extractStridedSlice S524288x4 ![0, 0] (v135 x) slices_S524288x8_S524288x4_0_0) (broadcastInDim S524288x4 ![0, 1] bcast_S524288x1_S524288x4_0_1 (broadcastInDim S524288x1 ![0] bcast_S524288_S524288x1_0 (maximumf (broadcastInDim S524288 ![] bcast_S_S524288 (constant (F := F) S_ .f32 0xFF800000#32)) (Host.reduce FloatOps.maximumf (extractStridedSlice S524288x4 ![0, 0] (v135 x) slices_S524288x8_S524288x4_0_0) (constant (F := F) S_ .f32 0xFF800000#32) reducesTo_S524288x4_S524288_d1 h_S_)))))) (constant (F := F) S_ .f32 0x00000000#32) reducesTo_S524288x4_S524288_d1 h_S_)))

/-- Buffer `main_v181`. -/
def v181 (x : FVec F S524288x65 .f32) : FVec F S524288x4 .f32 :=
  Host.divf (Host.exp (subf (extractStridedSlice S524288x4 ![0, 4] (v135 x) slices_S524288x8_S524288x4_0_4) (broadcastInDim S524288x4 ![0, 1] bcast_S524288x1_S524288x4_0_1 (broadcastInDim S524288x1 ![0] bcast_S524288_S524288x1_0 (maximumf (broadcastInDim S524288 ![] bcast_S_S524288 (constant (F := F) S_ .f32 0xFF800000#32)) (Host.reduce FloatOps.maximumf (extractStridedSlice S524288x4 ![0, 4] (v135 x) slices_S524288x8_S524288x4_0_4) (constant (F := F) S_ .f32 0xFF800000#32) reducesTo_S524288x4_S524288_d1 h_S_)))))) (broadcastInDim S524288x4 ![0, 1] bcast_S524288x1_S524288x4_0_1 (broadcastInDim S524288x1 ![0] bcast_S524288_S524288x1_0 (Host.reduceAdd (Host.exp (subf (extractStridedSlice S524288x4 ![0, 4] (v135 x) slices_S524288x8_S524288x4_0_4) (broadcastInDim S524288x4 ![0, 1] bcast_S524288x1_S524288x4_0_1 (broadcastInDim S524288x1 ![0] bcast_S524288_S524288x1_0 (maximumf (broadcastInDim S524288 ![] bcast_S_S524288 (constant (F := F) S_ .f32 0xFF800000#32)) (Host.reduce FloatOps.maximumf (extractStridedSlice S524288x4 ![0, 4] (v135 x) slices_S524288x8_S524288x4_0_4) (constant (F := F) S_ .f32 0xFF800000#32) reducesTo_S524288x4_S524288_d1 h_S_)))))) (constant (F := F) S_ .f32 0x00000000#32) reducesTo_S524288x4_S524288_d1 h_S_)))

/-- Buffer `main_v182`. -/
def v182 (x : FVec F S524288x65 .f32) : FVec F S524288x8 .f32 :=
  concatenate S524288x8 1 [⟨S524288x4, (v169 x)⟩, ⟨S524288x4, (v181 x)⟩] concatenates_S524288x4_S524288x4_S524288x8_d1

/-- Buffer `main_v183`. -/
def v183 : FVec F S524288x1 .f32 :=
  broadcastInDim S524288x1 ![] bcast_S_S524288x1 (constant (F := F) S_ .f32 0x3F800000#32)

/-- Buffer `main_v184`. -/
def v184 (x : FVec F S524288x65 .f32) : FVec F S524288x76 .f32 :=
  concatenate S524288x76 1 [⟨S524288x65, v94 x⟩, ⟨S524288x8, v182 x⟩, ⟨S524288x2, v157 x⟩, ⟨S524288x1, v183⟩] concatenates_S524288x65_S524288x8_S524288x2_S524288x1_S524288x76_d1

/-- Buffer `main_v188`. -/
def v188 : IVec S65x1 32 :=
  broadcastInDim S65x1 ![0] bcast_S65_S65x1_0 (select (constantI S65 1 0#1) (addi (fun i => lit0 (S65.rowMajor i)) (broadcastInDim S65 ![] bcast_S_S65 (constantI S_ 32 8#32))) (fun i => lit0 (S65.rowMajor i)))

/-- Buffer `main_v189`. -/
def v189 (x : FVec F S524288x65 .f32) : FVec F S524288x65 .f32 :=
  Host.gather gather_S524288x8_S65x1_S524288x65_0_1_n_n_1_1_5242881 (v182 x) (v188)

/-- Buffer `main_v190`. -/
def v190 (x : FVec F S524288x65 .f32) : FVec F S524288x65 .f32 :=
  mulf (v94 x) (v189 x)

/-- Buffer `main_v194`. -/
def v194 : IVec S65x1 32 :=
  broadcastInDim S65x1 ![0] bcast_S65_S65x1_0 (select (constantI S65 1 0#1) (addi (fun i => lit1 (S65.rowMajor i)) (broadcastInDim S65 ![] bcast_S_S65 (constantI S_ 32 2#32))) (fun i => lit1 (S65.rowMajor i)))

/-- Buffer `main_v195`. -/
def v195 (x : FVec F S524288x65 .f32) : FVec F S524288x65 .f32 :=
  Host.gather gather_S524288x2_S65x1_S524288x65_0_1_n_n_1_1_5242881 (v157 x) (v194)

/-- Buffer `main_v196`. -/
def v196 (x : FVec F S524288x65 .f32) : FVec F S524288x65 .f32 :=
  mulf (v190 x) (v195 x)

end Cert.ReferenceIdeal.RT

end
-- ==== Proof.RefRun.lean ====
import proofs.«121205_j47253230191392_1_alg».proof.Proof.RefOps
import proofs.«121205_j47253230191392_1_alg».proof.Proof.RefTerms
import Idealize.ShloMosaic.Lib.StableHlo.Run

/-!
# The reference's run

Every weakly fair execution of the reference's @main terminates with its two results at the composed terms of the
argument array, and the argument unchanged.
-/

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

/-! ## The program is the line of its operations -/

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_part4_eq (c : Dev nD) : main_part4 (F := F) c = seq ops_part4 := rfl

set_option maxRecDepth 8192 in
theorem main_eq (c : Dev nD) : main (F := F) c = seq ops := by
  simp only [ops, seq_append, ← main_part0_eq c, ← main_part1_eq c, ← main_part2_eq c, ← main_part3_eq c, ← main_part4_eq c]
  rfl

/-! ## Nothing is scoped; every operation touches TensorCore references only -/

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨nullary_bufs_sub .., nullary_bufs_sub .., nullary_bufs_sub .., nullary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub ..⟩
set_option maxRecDepth 8192 in
theorem ops_part1_sub : (ops_part1 : List (HloOp τ sig (Elt F))).Forall fun op => op.bufs ⊆ tcRefs τ sig :=
  ⟨binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., binary_bufs_sub .., unary_bufs_sub .., nullary_bufs_sub .., binary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub ..⟩
set_option maxRecDepth 8192 in
theorem ops_part2_sub : (ops_part2 : List (HloOp τ sig (Elt F))).Forall fun op => op.bufs ⊆ tcRefs τ sig :=
  ⟨unary_bufs_sub .., binary_bufs_sub .., nary_bufs_sub .., unary_bufs_sub .., nullary_bufs_sub .., binary_bufs_sub .., nullary_bufs_sub .., unary_bufs_sub .., binary_bufs_sub .., unary_bufs_sub .., nullary_bufs_sub .., binary_bufs_sub .., nullary_bufs_sub .., unary_bufs_sub .., binary_bufs_sub .., unary_bufs_sub .., nullary_bufs_sub .., binary_bufs_sub .., nullary_bufs_sub .., unary_bufs_sub .., binary_bufs_sub .., unary_bufs_sub .., nullary_bufs_sub .., binary_bufs_sub .., nullary_bufs_sub .., unary_bufs_sub .., binary_bufs_sub .., unary_bufs_sub .., nullary_bufs_sub .., binary_bufs_sub .., nullary_bufs_sub .., unary_bufs_sub .., binary_bufs_sub .., unary_bufs_sub .., nullary_bufs_sub .., binary_bufs_sub .., nullary_bufs_sub .., unary_bufs_sub .., binary_bufs_sub .., unary_bufs_sub .., nullary_bufs_sub .., binary_bufs_sub .., nullary_bufs_sub .., unary_bufs_sub .., binary_bufs_sub .., unary_bufs_sub .., nullary_bufs_sub .., binary_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., nary_bufs_sub ..⟩
set_option maxRecDepth 8192 in
theorem ops_part3_sub : (ops_part3 : List (HloOp τ sig (Elt F))).Forall fun op => op.bufs ⊆ tcRefs τ sig :=
  ⟨unary_bufs_sub .., nullary_bufs_sub .., binary_bufs_sub .., nullary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩
set_option maxRecDepth 8192 in
theorem ops_part4_sub : (ops_part4 : List (HloOp τ sig (Elt F))).Forall fun op => op.bufs ⊆ tcRefs τ sig :=
  ⟨nullary_bufs_sub .., unary_bufs_sub .., nary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with (((h | h) | h) | h) | h
    exacts [List.forall_iff_forall_mem.mp ops_part0_sub op h, List.forall_iff_forall_mem.mp ops_part1_sub op h,
      List.forall_iff_forall_mem.mp ops_part2_sub op h, List.forall_iff_forall_mem.mp ops_part3_sub op h,
      List.forall_iff_forall_mem.mp ops_part4_sub op h]

/-! ## Every operation determines its results -/

set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl⟩

theorem ops_fresh : ∀ op ∈ (ops : List (HloOp τ sig (Elt F))), op.fresh = ∅ := fun op h => by
  simp only [ops, List.mem_append] at h
  rcases h with (((h | h) | h) | h) | h
  exacts [List.forall_iff_forall_mem.mp ops_part0_fresh op h, List.forall_iff_forall_mem.mp ops_part1_fresh op h,
    List.forall_iff_forall_mem.mp ops_part2_fresh op h, List.forall_iff_forall_mem.mp ops_part3_fresh op h,
    List.forall_iff_forall_mem.mp ops_part4_fresh op h]

/-! ## The contents after each window -/

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The contents after the first window. -/
def val1 (V : Valuation τ sig (Elt F)) : Valuation τ sig (Elt F) := after ops_part0 V
/-- The contents after the first two windows. -/
def val2 (V : Valuation τ sig (Elt F)) : Valuation τ sig (Elt F) := after ops_part1 (val1 V)
/-- The contents after the first three windows. -/
def val3 (V : Valuation τ sig (Elt F)) : Valuation τ sig (Elt F) := after ops_part2 (val2 V)
/-- The contents after the first four windows. -/
def val4 (V : Valuation τ sig (Elt F)) : Valuation τ sig (Elt F) := after ops_part3 (val3 V)
/-- The contents after all five windows. -/
def val5 (V : Valuation τ sig (Elt F)) : Valuation τ sig (Elt F) := after ops_part4 (val4 V)

theorem after_ops (V : Valuation τ sig (Elt F)) : after ops V = val5 V := by
  simp only [ops, after_app]
  rfl

/-! ## Three intermediate arrays that one window computes and the next one reads, named -/

/-- The exponentials of columns 48–52 shifted by their row maximum (buffer `main_v43`). -/
def e43 (x : FVec F S524288x65 .f32) : FVec F S524288x5 .f32 :=
  Host.exp (subf (extractStridedSlice S524288x5 ![0, 48] (x) slices_S524288x65_S524288x5_0_48) (broadcastInDim S524288x5 ![0, 1] bcast_S524288x1_S524288x5_0_1 (broadcastInDim S524288x1 ![0] bcast_S524288_S524288x1_0 (maximumf (broadcastInDim S524288 ![] bcast_S_S524288 (constant (F := F) S_ .f32 0xFF800000#32)) (Host.reduce FloatOps.maximumf (extractStridedSlice S524288x5 ![0, 48] (x) slices_S524288x65_S524288x5_0_48) (constant (F := F) S_ .f32 0xFF800000#32) reducesTo_S524288x5_S524288_d1 h_S_)))))

/-- The exponentials of columns 62–64 shifted by their row maximum (buffer `main_v89`). -/
def e89 (x : FVec F S524288x65 .f32) : FVec F S524288x3 .f32 :=
  Host.exp (subf (extractStridedSlice S524288x3 ![0, 62] (x) slices_S524288x65_S524288x3_0_62) (broadcastInDim S524288x3 ![0, 1] bcast_S524288x1_S524288x3_0_1 (broadcastInDim S524288x1 ![0] bcast_S524288_S524288x1_0 (maximumf (broadcastInDim S524288 ![] bcast_S_S524288 (constant (F := F) S_ .f32 0xFF800000#32)) (Host.reduce FloatOps.maximumf (extractStridedSlice S524288x3 ![0, 62] (x) slices_S524288x65_S524288x3_0_62) (constant (F := F) S_ .f32 0xFF800000#32) reducesTo_S524288x3_S524288_d1 h_S_)))))

/-- Their row sums, as a column (buffer `main_v91`). -/
def s91 (x : FVec F S524288x65 .f32) : FVec F S524288x1 .f32 :=
  broadcastInDim S524288x1 ![0] bcast_S524288_S524288x1_0 (Host.reduceAdd (e89 x) (constant (F := F) S_ .f32 0x00000000#32) reducesTo_S524288x3_S524288_d1 h_S_)

/-! ## Concatenations of equal pieces are equal -/

section Cat
variable {α : Type} {t : Shape} {a : Fin t.rank}

theorem cat2_congr {s₀ s₁ : Shape} {x₀ y₀ : s₀.Idx → α} {x₁ y₁ : s₁.Idx → α}
    (h : Shape.Concatenates [s₀, s₁] t a) (e₀ : x₀ = y₀) (e₁ : x₁ = y₁) :
    concatenate t a [⟨s₀, x₀⟩, ⟨s₁, x₁⟩] h = concatenate t a [⟨s₀, y₀⟩, ⟨s₁, y₁⟩] h := by
  subst e₀ e₁; rfl

theorem cat4_congr {s₀ s₁ s₂ s₃ : Shape} {x₀ y₀ : s₀.Idx → α} {x₁ y₁ : s₁.Idx → α} {x₂ y₂ : s₂.Idx → α}
    {x₃ y₃ : s₃.Idx → α} (h : Shape.Concatenates [s₀, s₁, s₂, s₃] t a)
    (e₀ : x₀ = y₀) (e₁ : x₁ = y₁) (e₂ : x₂ = y₂) (e₃ : x₃ = y₃) :
    concatenate t a [⟨s₀, x₀⟩, ⟨s₁, x₁⟩, ⟨s₂, x₂⟩, ⟨s₃, x₃⟩] h
      = concatenate t a [⟨s₀, y₀⟩, ⟨s₁, y₁⟩, ⟨s₂, y₂⟩, ⟨s₃, y₃⟩] h := by
  subst e₀ e₁ e₂ e₃; rfl

theorem cat8_congr {s₀ s₁ s₂ s₃ s₄ s₅ s₆ s₇ : Shape} {x₀ y₀ : s₀.Idx → α} {x₁ y₁ : s₁.Idx → α}
    {x₂ y₂ : s₂.Idx → α} {x₃ y₃ : s₃.Idx → α} {x₄ y₄ : s₄.Idx → α} {x₅ y₅ : s₅.Idx → α} {x₆ y₆ : s₆.Idx → α}
    {x₇ y₇ : s₇.Idx → α} (h : Shape.Concatenates [s₀, s₁, s₂, s₃, s₄, s₅, s₆, s₇] t a)
    (e₀ : x₀ = y₀) (e₁ : x₁ = y₁) (e₂ : x₂ = y₂) (e₃ : x₃ = y₃) (e₄ : x₄ = y₄) (e₅ : x₅ = y₅) (e₆ : x₆ = y₆)
    (e₇ : x₇ = y₇) :
    concatenate t a [⟨s₀, x₀⟩, ⟨s₁, x₁⟩, ⟨s₂, x₂⟩, ⟨s₃, x₃⟩, ⟨s₄, x₄⟩, ⟨s₅, x₅⟩, ⟨s₆, x₆⟩, ⟨s₇, x₇⟩] h
      = concatenate t a [⟨s₀, y₀⟩, ⟨s₁, y₁⟩, ⟨s₂, y₂⟩, ⟨s₃, y₃⟩, ⟨s₄, y₄⟩, ⟨s₅, y₅⟩, ⟨s₆, y₆⟩, ⟨s₇, y₇⟩] h := by
  subst e₀ e₁ e₂ e₃ e₄ e₅ e₆ e₇; rfl

end Cat

/-- One simplification pass reading a buffer off a literal line of operations: each operation's result at its own buffer
    is its function's value, at any other reference what was there (the references told apart by computation). -/
local macro "results_simp" : tactic =>
  `(tactic| (simp (disch := decide) only [after_cons, after_nil,
      nullary_result', unary_result', binary_result', ternary_result', nary_result',
      nullary_result_ne', unary_result_ne', binary_result_ne', ternary_result_ne', nary_result_ne']))

/-- The same reading by rewriting, one operation and one reference at a time: each operation's result at its own buffer
    is its function's value, at any other reference what was there. Rewriting also reaches the pieces of a concatenation,
    which the simplification pass leaves as they stand. -/
local macro "rw_results" : tactic =>
  `(tactic| repeat (first
      | rw [nullary_result] | rw [unary_result] | rw [binary_result] | rw [ternary_result]
      | (rw [nullary_result_ne]; rotate_left; decide)
      | (rw [unary_result_ne]; rotate_left; decide)
      | (rw [binary_result_ne]; rotate_left; decide)
      | (rw [ternary_result_ne]; rotate_left; decide)
      | (rw [nary_result_ne]; rotate_left; decide)))

/-! ### After the first window -/

set_option maxRecDepth 8192 in
theorem val1_main_arg0 (V : Valuation τ sig (Elt F)) :
    val1 V (no_index (Proc.devRef .tc main_arg0)) = V (Proc.devRef .tc main_arg0) := by
  unfold val1
  simp only [ops_part0]
  results_simp

set_option maxRecDepth 8192 in
theorem val1_main_c (V : Valuation τ sig (Elt F)) :
    val1 V (no_index (Proc.devRef .tc main_c)) = (fun i => lit0 (S65.rowMajor i)) := by
  unfold val1
  simp only [ops_part0]
  results_simp
  rfl

set_option maxRecDepth 8192 in
theorem val1_main_c_0 (V : Valuation τ sig (Elt F)) :
    val1 V (no_index (Proc.devRef .tc main_c_0)) = constantI S65 1 0#1 := by
  unfold val1
  simp only [ops_part0]
  results_simp

set_option maxRecDepth 8192 in
theorem val1_main_c_1 (V : Valuation τ sig (Elt F)) :
    val1 V (no_index (Proc.devRef .tc main_c_1)) = (fun i => lit1 (S65.rowMajor i)) := by
  unfold val1
  simp only [ops_part0]
  results_simp
  rfl

set_option maxRecDepth 8192 in
theorem val1_main_c_2 (V : Valuation τ sig (Elt F)) :
    val1 V (no_index (Proc.devRef .tc main_c_2)) = constantI S65 1 0#1 := by
  unfold val1
  simp only [ops_part0]
  results_simp

set_option maxRecDepth 8192 in
theorem val1_main_v11 (V : Valuation τ sig (Elt F)) :
    val1 V (no_index (Proc.devRef .tc main_v11)) = RT.v11 (V (Proc.devRef .tc main_arg0)) := by
  unfold val1
  simp only [ops_part0]
  results_simp
  rfl

set_option maxRecDepth 8192 in
theorem val1_main_v23 (V : Valuation τ sig (Elt F)) :
    val1 V (no_index (Proc.devRef .tc main_v23)) = RT.v23 (V (Proc.devRef .tc main_arg0)) := by
  unfold val1
  simp only [ops_part0]
  results_simp
  rfl

set_option maxRecDepth 8192 in
theorem val1_main_v35 (V : Valuation τ sig (Elt F)) :
    val1 V (no_index (Proc.devRef .tc main_v35)) = RT.v35 (V (Proc.devRef .tc main_arg0)) := by
  unfold val1
  simp only [ops_part0]
  results_simp
  rfl

set_option maxRecDepth 8192 in
theorem val1_main_v43 (V : Valuation τ sig (Elt F)) :
    val1 V (no_index (Proc.devRef .tc main_v43)) = e43 (V (Proc.devRef .tc main_arg0)) := by
  unfold val1
  simp only [ops_part0]
  results_simp
  rfl

set_option maxRecDepth 8192 in
theorem val1_main_cst_13 (V : Valuation τ sig (Elt F)) :
    val1 V (no_index (Proc.devRef .tc main_cst_13)) = constant (F := F) S_ .f32 0x00000000#32 := by
  unfold val1
  simp only [ops_part0]
  results_simp

/-! ### After the second window -/

set_option maxRecDepth 8192 in
theorem val2_main_arg0 (V : Valuation τ sig (Elt F)) :
    val2 V (no_index (Proc.devRef .tc main_arg0)) = V (Proc.devRef .tc main_arg0) := by
  unfold val2
  simp only [ops_part1]
  results_simp
  exact val1_main_arg0 V

set_option maxRecDepth 8192 in
theorem val2_main_c (V : Valuation τ sig (Elt F)) :
    val2 V (no_index (Proc.devRef .tc main_c)) = (fun i => lit0 (S65.rowMajor i)) := by
  unfold val2
  simp only [ops_part1]
  results_simp
  exact val1_main_c V

set_option maxRecDepth 8192 in
theorem val2_main_c_0 (V : Valuation τ sig (Elt F)) :
    val2 V (no_index (Proc.devRef .tc main_c_0)) = constantI S65 1 0#1 := by
  unfold val2
  simp only [ops_part1]
  results_simp
  exact val1_main_c_0 V

set_option maxRecDepth 8192 in
theorem val2_main_c_1 (V : Valuation τ sig (Elt F)) :
    val2 V (no_index (Proc.devRef .tc main_c_1)) = (fun i => lit1 (S65.rowMajor i)) := by
  unfold val2
  simp only [ops_part1]
  results_simp
  exact val1_main_c_1 V

set_option maxRecDepth 8192 in
theorem val2_main_c_2 (V : Valuation τ sig (Elt F)) :
    val2 V (no_index (Proc.devRef .tc main_c_2)) = constantI S65 1 0#1 := by
  unfold val2
  simp only [ops_part1]
  results_simp
  exact val1_main_c_2 V

set_option maxRecDepth 8192 in
theorem val2_main_v11 (V : Valuation τ sig (Elt F)) :
    val2 V (no_index (Proc.devRef .tc main_v11)) = RT.v11 (V (Proc.devRef .tc main_arg0)) := by
  unfold val2
  simp only [ops_part1]
  results_simp
  exact val1_main_v11 V

set_option maxRecDepth 8192 in
theorem val2_main_v23 (V : Valuation τ sig (Elt F)) :
    val2 V (no_index (Proc.devRef .tc main_v23)) = RT.v23 (V (Proc.devRef .tc main_arg0)) := by
  unfold val2
  simp only [ops_part1]
  results_simp
  exact val1_main_v23 V

set_option maxRecDepth 8192 in
theorem val2_main_v35 (V : Valuation τ sig (Elt F)) :
    val2 V (no_index (Proc.devRef .tc main_v35)) = RT.v35 (V (Proc.devRef .tc main_arg0)) := by
  unfold val2
  simp only [ops_part1]
  results_simp
  exact val1_main_v35 V

set_option maxRecDepth 8192 in
theorem val2_main_v47 (V : Valuation τ sig (Elt F)) :
    val2 V (no_index (Proc.devRef .tc main_v47)) = RT.v47 (V (Proc.devRef .tc main_arg0)) := by
  unfold val2
  simp only [ops_part1]
  results_simp
  simp only [val1_main_v43, val1_main_cst_13]
  rfl

set_option maxRecDepth 8192 in
theorem val2_main_v59 (V : Valuation τ sig (Elt F)) :
    val2 V (no_index (Proc.devRef .tc main_v59)) = RT.v59 (V (Proc.devRef .tc main_arg0)) := by
  unfold val2
  simp only [ops_part1]
  results_simp
  simp only [val1_main_arg0]
  rfl

set_option maxRecDepth 8192 in
theorem val2_main_v69 (V : Valuation τ sig (Elt F)) :
    val2 V (no_index (Proc.devRef .tc main_v69)) = RT.v69 (V (Proc.devRef .tc main_arg0)) := by
  unfold val2
  simp only [ops_part1]
  results_simp
  simp only [val1_main_arg0]
  rfl

set_option maxRecDepth 8192 in
theorem val2_main_v81 (V : Valuation τ sig (Elt F)) :
    val2 V (no_index (Proc.devRef .tc main_v81)) = RT.v81 (V (Proc.devRef .tc main_arg0)) := by
  unfold val2
  simp only [ops_part1]
  results_simp
  simp only [val1_main_arg0]
  rfl

set_option maxRecDepth 8192 in
theorem val2_main_v89 (V : Valuation τ sig (Elt F)) :
    val2 V (no_index (Proc.devRef .tc main_v89)) = e89 (V (Proc.devRef .tc main_arg0)) := by
  unfold val2
  simp only [ops_part1]
  results_simp
  simp only [val1_main_arg0]
  rfl

set_option maxRecDepth 8192 in
theorem val2_main_v91 (V : Valuation τ sig (Elt F)) :
    val2 V (no_index (Proc.devRef .tc main_v91)) = s91 (V (Proc.devRef .tc main_arg0)) := by
  unfold val2
  simp only [ops_part1]
  results_simp
  simp only [val1_main_arg0]
  rfl

/-! ### After the third window -/

set_option maxRecDepth 8192 in
theorem val3_main_arg0 (V : Valuation τ sig (Elt F)) :
    val3 V (no_index (Proc.devRef .tc main_arg0)) = V (Proc.devRef .tc main_arg0) := by
  unfold val3
  simp only [ops_part2]
  results_simp
  exact val2_main_arg0 V

set_option maxRecDepth 8192 in
theorem val3_main_c (V : Valuation τ sig (Elt F)) :
    val3 V (no_index (Proc.devRef .tc main_c)) = (fun i => lit0 (S65.rowMajor i)) := by
  unfold val3
  simp only [ops_part2]
  results_simp
  exact val2_main_c V

set_option maxRecDepth 8192 in
theorem val3_main_c_0 (V : Valuation τ sig (Elt F)) :
    val3 V (no_index (Proc.devRef .tc main_c_0)) = constantI S65 1 0#1 := by
  unfold val3
  simp only [ops_part2]
  results_simp
  exact val2_main_c_0 V

set_option maxRecDepth 8192 in
theorem val3_main_c_1 (V : Valuation τ sig (Elt F)) :
    val3 V (no_index (Proc.devRef .tc main_c_1)) = (fun i => lit1 (S65.rowMajor i)) := by
  unfold val3
  simp only [ops_part2]
  results_simp
  exact val2_main_c_1 V

set_option maxRecDepth 8192 in
theorem val3_main_c_2 (V : Valuation τ sig (Elt F)) :
    val3 V (no_index (Proc.devRef .tc main_c_2)) = constantI S65 1 0#1 := by
  unfold val3
  simp only [ops_part2]
  results_simp
  exact val2_main_c_2 V

set_option maxRecDepth 8192 in
theorem val3_main_v94 (V : Valuation τ sig (Elt F)) :
    val3 V (no_index (Proc.devRef .tc main_v94)) = RT.v94 (V (Proc.devRef .tc main_arg0)) := by
  unfold val3 RT.v94
  simp only [ops_part2]
  results_simp
  refine cat8_congr _ ?_ ?_ ?_ ?_ ?_ ?_ ?_ ?_ <;> dsimp only [Matrix.cons_val] <;> results_simp
  · exact val2_main_v11 V
  · exact val2_main_v23 V
  · exact val2_main_v35 V
  · exact val2_main_v47 V
  · exact val2_main_v59 V
  · exact val2_main_v69 V
  · exact val2_main_v81 V
  · simp only [val2_main_v89, val2_main_v91]
    rfl

set_option maxRecDepth 8192 in
theorem val3_main_v135 (V : Valuation τ sig (Elt F)) :
    val3 V (no_index (Proc.devRef .tc main_v135)) = RT.v135 (V (Proc.devRef .tc main_arg0)) := by
  unfold val3 RT.v135
  simp only [ops_part2]
  results_simp
  refine cat8_congr _ ?_ ?_ ?_ ?_ ?_ ?_ ?_ ?_ <;> dsimp only [Matrix.cons_val] <;> results_simp <;>
    simp only [val2_main_arg0] <;> rfl

/-! ### After the fourth window -/

set_option maxRecDepth 8192 in
theorem val4_main_arg0 (V : Valuation τ sig (Elt F)) :
    val4 V (no_index (Proc.devRef .tc main_arg0)) = V (Proc.devRef .tc main_arg0) := by
  unfold val4
  simp only [ops_part3]
  results_simp
  exact val3_main_arg0 V

set_option maxRecDepth 8192 in
theorem val4_main_c (V : Valuation τ sig (Elt F)) :
    val4 V (no_index (Proc.devRef .tc main_c)) = (fun i => lit0 (S65.rowMajor i)) := by
  unfold val4
  simp only [ops_part3]
  results_simp
  exact val3_main_c V

set_option maxRecDepth 8192 in
theorem val4_main_c_0 (V : Valuation τ sig (Elt F)) :
    val4 V (no_index (Proc.devRef .tc main_c_0)) = constantI S65 1 0#1 := by
  unfold val4
  simp only [ops_part3]
  results_simp
  exact val3_main_c_0 V

set_option maxRecDepth 8192 in
theorem val4_main_c_1 (V : Valuation τ sig (Elt F)) :
    val4 V (no_index (Proc.devRef .tc main_c_1)) = (fun i => lit1 (S65.rowMajor i)) := by
  unfold val4
  simp only [ops_part3]
  results_simp
  exact val3_main_c_1 V

set_option maxRecDepth 8192 in
theorem val4_main_c_2 (V : Valuation τ sig (Elt F)) :
    val4 V (no_index (Proc.devRef .tc main_c_2)) = constantI S65 1 0#1 := by
  unfold val4
  simp only [ops_part3]
  results_simp
  exact val3_main_c_2 V

set_option maxRecDepth 8192 in
theorem val4_main_v94 (V : Valuation τ sig (Elt F)) :
    val4 V (no_index (Proc.devRef .tc main_v94)) = RT.v94 (V (Proc.devRef .tc main_arg0)) := by
  unfold val4
  simp only [ops_part3]
  results_simp
  exact val3_main_v94 V

set_option maxRecDepth 8192 in
theorem val4_main_v157 (V : Valuation τ sig (Elt F)) :
    val4 V (no_index (Proc.devRef .tc main_v157)) = RT.v157 (V (Proc.devRef .tc main_arg0)) := by
  unfold val4
  simp only [ops_part3]
  results_simp
  rw_results
  rw [val3_main_arg0]
  rfl

set_option maxRecDepth 8192 in
theorem val4_main_v182 (V : Valuation τ sig (Elt F)) :
    val4 V (no_index (Proc.devRef .tc main_v182)) = RT.v182 (V (Proc.devRef .tc main_arg0)) := by
  unfold val4 RT.v182
  simp only [ops_part3]
  results_simp
  refine cat2_congr _ ?_ ?_ <;> results_simp <;> simp only [val3_main_v135] <;> rfl

/-! ### After the fifth window -/

set_option maxRecDepth 8192 in
theorem val5_main_arg0 (V : Valuation τ sig (Elt F)) :
    val5 V (no_index (Proc.devRef .tc main_arg0)) = V (Proc.devRef .tc main_arg0) := by
  unfold val5
  simp only [ops_part4]
  results_simp
  exact val4_main_arg0 V

set_option maxRecDepth 8192 in
theorem val5_main_v184 (V : Valuation τ sig (Elt F)) :
    val5 V (no_index (Proc.devRef .tc main_v184)) = RT.v184 (V (Proc.devRef .tc main_arg0)) := by
  unfold val5 RT.v184
  simp only [ops_part4]
  results_simp
  refine cat4_congr _ ?_ ?_ ?_ ?_ <;> dsimp only [Matrix.cons_val] <;> results_simp
  · exact val4_main_v94 V
  · exact val4_main_v182 V
  · exact val4_main_v157 V
  · rfl

set_option maxRecDepth 8192 in
theorem val5_main_v196 (V : Valuation τ sig (Elt F)) :
    val5 V (no_index (Proc.devRef .tc main_v196)) = RT.v196 (V (Proc.devRef .tc main_arg0)) := by
  unfold val5
  simp only [ops_part4]
  results_simp
  simp only [val4_main_v94, val4_main_v182, val4_main_v157, val4_main_c, val4_main_c_0, val4_main_c_1, val4_main_c_2]
  rfl

/-! ## The run -/

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v196) = RT.v196 (m ((c.tc : Thread nD τ).loc main_arg0))
      ∧ r.2.mem ((c.tc : Thread nD τ).loc main_v184) = RT.v184 (m ((c.tc : Thread nD τ).loc main_arg0))
      ∧ r.2.mem ((c.tc : Thread nD τ).loc main_arg0) = m ((c.tc : Thread nD τ).loc main_arg0) :=
  (θ_run defs _ _).mono (fun _ h c =>
      ⟨(h c main_v196).trans (by rw [after_ops]; exact val5_main_v196 (launchContents m c)),
        (h c main_v184).trans (by rw [after_ops]; exact val5_main_v184 (launchContents m c)),
        (h c main_arg0).trans (by rw [after_ops]; exact val5_main_arg0 (launchContents m c))⟩)
    (run_seq scopedRefs_eq scopedSems_eq defs main (fun _ => ops) main_eq (fun _ => ops_sub) m ρ (fun _ => ops_fresh))

end Cert.ReferenceIdeal.RefRun

end
-- ==== Proof.RefValue.lean ====
import proofs.«121205_j47253230191392_1_alg».proof.Proof.RefTerms
import proofs.«121205_j47253230191392_1_alg».proof.Proof.LibRowOps
import proofs.«121205_j47253230191392_1_alg».proof.Proof.Spec

/-!
# The reference's results, one row at a time

The reference's two result terms read at an entry `(r, c)`: the specification's row functions of row `r` of the argument.
-/

set_option backward.isDefEq.respectTransparency.types false

noncomputable section

namespace Cert.ReferenceIdeal.RV

open Cert.ReferenceIdeal Cert.ReferenceIdeal.Gen Idealize.ShloMosaic Idealize.ShloMosaic.ValueIdx RowOps HSpec

/-! ## A row of a column slice -/

/-- Row `r` of the columns `o, …, o + W - 1` of a matrix is that segment of the matrix's row `r`. -/
theorem sliceRow {n W : Nat} (o : Nat) (X : (⟨2, ![524288, n]⟩ : Shape).Idx → EReal)
    (hsl : (⟨2, ![524288, n]⟩ : Shape).Slices ![0, o] ⟨2, ![524288, W]⟩) (hle : o + W ≤ n) (r : Fin 524288) :
    (fun k : Fin W => extractStridedSlice ⟨2, ![524288, W]⟩ ![0, o] X hsl (ix2 r k))
      = seg (fun k => X (ix2 r k)) o W hle := by
  funext j
  exact slice2_axis1_eq o X hsl r j

/-! ## The eight groups' softmaxes -/

theorem v11_apply (x : FVec Ideal S524288x65 .f32) (r : Fin 524288) (k : Fin 7) :
    RT.v11 (F := Ideal) x (ix2 r k) = smx (seg (fun k => x (ix2 r k)) 0 7 (by omega)) k := by
  unfold RT.v11
  refine (hsoftmax_apply (N := 524288) (W := 7) _ reducesTo_S524288x7_S524288_d1 (by decide) h_S_ bcast_S_S524288
    bcast_S524288_S524288x1_0 bcast_S524288x1_S524288x7_0_1 r k).trans ?_
  exact congrArg (fun f => smx f k) (sliceRow 0 x slices_S524288x65_S524288x7_0_0 (by omega) r)

theorem v23_apply (x : FVec Ideal S524288x65 .f32) (r : Fin 524288) (k : Fin 23) :
    RT.v23 (F := Ideal) x (ix2 r k) = smx (seg (fun k => x (ix2 r k)) 7 23 (by omega)) k := by
  unfold RT.v23
  refine (hsoftmax_apply (N := 524288) (W := 23) _ reducesTo_S524288x23_S524288_d1 (by decide) h_S_ bcast_S_S524288
    bcast_S524288_S524288x1_0 bcast_S524288x1_S524288x23_0_1 r k).trans ?_
  exact congrArg (fun f => smx f k) (sliceRow 7 x slices_S524288x65_S524288x23_0_7 (by omega) r)

theorem v35_apply (x : FVec Ideal S524288x65 .f32) (r : Fin 524288) (k : Fin 18) :
    RT.v35 (F := Ideal) x (ix2 r k) = smx (seg (fun k => x (ix2 r k)) 30 18 (by omega)) k := by
  unfold RT.v35
  refine (hsoftmax_apply (N := 524288) (W := 18) _ reducesTo_S524288x18_S524288_d1 (by decide) h_S_ bcast_S_S524288
    bcast_S524288_S524288x1_0 bcast_S524288x1_S524288x18_0_1 r k).trans ?_
  exact congrArg (fun f => smx f k) (sliceRow 30 x slices_S524288x65_S524288x18_0_30 (by omega) r)

theorem v47_apply (x : FVec Ideal S524288x65 .f32) (r : Fin 524288) (k : Fin 5) :
    RT.v47 (F := Ideal) x (ix2 r k) = smx (seg (fun k => x (ix2 r k)) 48 5 (by omega)) k := by
  unfold RT.v47
  refine (hsoftmax_apply (N := 524288) (W := 5) _ reducesTo_S524288x5_S524288_d1 (by decide) h_S_ bcast_S_S524288
    bcast_S524288_S524288x1_0 bcast_S524288x1_S524288x5_0_1 r k).trans ?_
  exact congrArg (fun f => smx f k) (sliceRow 48 x slices_S524288x65_S524288x5_0_48 (by omega) r)

theorem v59_apply (x : FVec Ideal S524288x65 .f32) (r : Fin 524288) (k : Fin 5) :
    RT.v59 (F := Ideal) x (ix2 r k) = smx (seg (fun k => x (ix2 r k)) 53 5 (by omega)) k := by
  unfold RT.v59
  refine (hsoftmax_apply (N := 524288) (W := 5) _ reducesTo_S524288x5_S524288_d1 (by decide) h_S_ bcast_S_S524288
    bcast_S524288_S524288x1_0 bcast_S524288x1_S524288x5_0_1 r k).trans ?_
  exact congrArg (fun f => smx f k) (sliceRow 53 x slices_S524288x65_S524288x5_0_53 (by omega) r)

theorem v69_apply (x : FVec Ideal S524288x65 .f32) (r : Fin 524288) (k : Fin 1) :
    RT.v69 (F := Ideal) x (ix2 r k) = smx (seg (fun k => x (ix2 r k)) 58 1 (by omega)) k := by
  unfold RT.v69
  refine (hsoftmax1_apply (N := 524288) _ reducesTo_S524288x1_S524288_d1 (by decide) h_S_ bcast_S_S524288
    bcast_S524288_S524288x1_0 r k).trans ?_
  exact congrArg (fun f => smx f k) (sliceRow 58 x slices_S524288x65_S524288x1_0_58 (by omega) r)

theorem v81_apply (x : FVec Ideal S524288x65 .f32) (r : Fin 524288) (k : Fin 3) :
    RT.v81 (F := Ideal) x (ix2 r k) = smx (seg (fun k => x (ix2 r k)) 59 3 (by omega)) k := by
  unfold RT.v81
  refine (hsoftmax_apply (N := 524288) (W := 3) _ reducesTo_S524288x3_S524288_d1 (by decide) h_S_ bcast_S_S524288
    bcast_S524288_S524288x1_0 bcast_S524288x1_S524288x3_0_1 r k).trans ?_
  exact congrArg (fun f => smx f k) (sliceRow 59 x slices_S524288x65_S524288x3_0_59 (by omega) r)

theorem v93_apply (x : FVec Ideal S524288x65 .f32) (r : Fin 524288) (k : Fin 3) :
    RT.v93 (F := Ideal) x (ix2 r k) = smx (seg (fun k => x (ix2 r k)) 62 3 (by omega)) k := by
  unfold RT.v93
  refine (hsoftmax_apply (N := 524288) (W := 3) _ reducesTo_S524288x3_S524288_d1 (by decide) h_S_ bcast_S_S524288
    bcast_S524288_S524288x1_0 bcast_S524288x1_S524288x3_0_1 r k).trans ?_
  exact congrArg (fun f => smx f k) (sliceRow 62 x slices_S524288x65_S524288x3_0_62 (by omega) r)

/-! ## The leaf probabilities: the eight softmaxes side by side -/

theorem v94_apply (x : FVec Ideal S524288x65 .f32) (r : Fin 524288) (c : Fin 65) :
    RT.v94 (F := Ideal) x (ix2 r c) = leaf (fun k => x (ix2 r k)) c := by
  rcases col_cases c with ⟨k, rfl⟩ | ⟨k, rfl⟩ | ⟨k, rfl⟩ | ⟨k, rfl⟩ | ⟨k, rfl⟩ | ⟨k, rfl⟩ | ⟨k, rfl⟩ | ⟨k, rfl⟩
  · unfold RT.v94
    refine (concatCols_apply _ _ r _ 0 (by show (0 : Nat) < 8; decide) 7 (RT.v11 x) rfl 0 rfl k rfl).trans ?_
    rw [v11_apply]
    exact (leaf_at _ 0 7 _ k (Or.inl ⟨rfl, rfl⟩)).symm
  · unfold RT.v94
    refine (concatCols_apply _ _ r _ 1 (by show (1 : Nat) < 8; decide) 23 (RT.v23 x) rfl 7 rfl k rfl).trans ?_
    rw [v23_apply]
    exact (leaf_at _ 7 23 _ k (Or.inr (Or.inl ⟨rfl, rfl⟩))).symm
  · unfold RT.v94
    refine (concatCols_apply _ _ r _ 2 (by show (2 : Nat) < 8; decide) 18 (RT.v35 x) rfl 30 rfl k rfl).trans ?_
    rw [v35_apply]
    exact (leaf_at _ 30 18 _ k (Or.inr (Or.inr (Or.inl ⟨rfl, rfl⟩)))).symm
  · unfold RT.v94
    refine (concatCols_apply _ _ r _ 3 (by show (3 : Nat) < 8; decide) 5 (RT.v47 x) rfl 48 rfl k rfl).trans ?_
    rw [v47_apply]
    exact (leaf_at _ 48 5 _ k (Or.inr (Or.inr (Or.inr (Or.inl ⟨rfl, rfl⟩))))).symm
  · unfold RT.v94
    refine (concatCols_apply _ _ r _ 4 (by show (4 : Nat) < 8; decide) 5 (RT.v59 x) rfl 53 rfl k rfl).trans ?_
    rw [v59_apply]
    exact (leaf_at _ 53 5 _ k (Or.inr (Or.inr (Or.inr (Or.inr (Or.inl ⟨rfl, rfl⟩)))))).symm
  · unfold RT.v94
    refine (concatCols_apply _ _ r _ 5 (by show (5 : Nat) < 8; decide) 1 (RT.v69 x) rfl 58 rfl k rfl).trans ?_
    rw [v69_apply]
    exact (leaf_at _ 58 1 _ k (Or.inr (Or.inr (Or.inr (Or.inr (Or.inr (Or.inl ⟨rfl, rfl⟩))))))).symm
  · unfold RT.v94
    refine (concatCols_apply _ _ r _ 6 (by show (6 : Nat) < 8; decide) 3 (RT.v81 x) rfl 59 rfl k rfl).trans ?_
    rw [v81_apply]
    exact (leaf_at _ 59 3 _ k (Or.inr (Or.inr (Or.inr (Or.inr (Or.inr (Or.inr (Or.inl ⟨rfl, rfl⟩)))))))).symm
  · unfold RT.v94
    refine (concatCols_apply _ _ r _ 7 (by show (7 : Nat) < 8; decide) 3 (RT.v93 x) rfl 62 rfl k rfl).trans ?_
    rw [v93_apply]
    exact (leaf_at _ 62 3 _ k (Or.inr (Or.inr (Or.inr (Or.inr (Or.inr (Or.inr (Or.inr ⟨rfl, rfl⟩)))))))).symm

/-! ## The groups' and the top nodes' logits: means of segments of the row -/

theorem v98_apply (x : FVec Ideal S524288x65 .f32) (r : Fin 524288) :
    RT.v98 (F := Ideal) x (ix1 r) = mean (seg (fun k => x (ix2 r k)) 0 7 (by omega)) 0x40E00000#32 := by
  unfold RT.v98
  refine (hmean_apply (N := 524288) (W := 7) _ 0x40E00000#32 reducesTo_S524288x7_S524288_d1 (by decide) h_S_ bcast_S_S524288 r).trans ?_
  exact congrArg (fun f => mean f 0x40E00000#32) (sliceRow 0 x slices_S524288x65_S524288x7_0_0 (by omega) r)

theorem v102_apply (x : FVec Ideal S524288x65 .f32) (r : Fin 524288) :
    RT.v102 (F := Ideal) x (ix1 r) = mean (seg (fun k => x (ix2 r k)) 7 23 (by omega)) 0x41B80000#32 := by
  unfold RT.v102
  refine (hmean_apply (N := 524288) (W := 23) _ 0x41B80000#32 reducesTo_S524288x23_S524288_d1 (by decide) h_S_ bcast_S_S524288 r).trans ?_
  exact congrArg (fun f => mean f 0x41B80000#32) (sliceRow 7 x slices_S524288x65_S524288x23_0_7 (by omega) r)

theorem v106_apply (x : FVec Ideal S524288x65 .f32) (r : Fin 524288) :
    RT.v106 (F := Ideal) x (ix1 r) = mean (seg (fun k => x (ix2 r k)) 30 18 (by omega)) 0x41900000#32 := by
  unfold RT.v106
  refine (hmean_apply (N := 524288) (W := 18) _ 0x41900000#32 reducesTo_S524288x18_S524288_d1 (by decide) h_S_ bcast_S_S524288 r).trans ?_
  exact congrArg (fun f => mean f 0x41900000#32) (sliceRow 30 x slices_S524288x65_S524288x18_0_30 (by omega) r)

theorem v110_apply (x : FVec Ideal S524288x65 .f32) (r : Fin 524288) :
    RT.v110 (F := Ideal) x (ix1 r) = mean (seg (fun k => x (ix2 r k)) 48 5 (by omega)) 0x40A00000#32 := by
  unfold RT.v110
  refine (hmean_apply (N := 524288) (W := 5) _ 0x40A00000#32 reducesTo_S524288x5_S524288_d1 (by decide) h_S_ bcast_S_S524288 r).trans ?_
  exact congrArg (fun f => mean f 0x40A00000#32) (sliceRow 48 x slices_S524288x65_S524288x5_0_48 (by omega) r)

theorem v114_apply (x : FVec Ideal S524288x65 .f32) (r : Fin 524288) :
    RT.v114 (F := Ideal) x (ix1 r) = mean (seg (fun k => x (ix2 r k)) 53 5 (by omega)) 0x40A00000#32 := by
  unfold RT.v114
  refine (hmean_apply (N := 524288) (W := 5) _ 0x40A00000#32 reducesTo_S524288x5_S524288_d1 (by decide) h_S_ bcast_S_S524288 r).trans ?_
  exact congrArg (fun f => mean f 0x40A00000#32) (sliceRow 53 x slices_S524288x65_S524288x5_0_53 (by omega) r)

theorem v118_apply (x : FVec Ideal S524288x65 .f32) (r : Fin 524288) :
    RT.v118 (F := Ideal) x (ix1 r) = mean (seg (fun k => x (ix2 r k)) 58 1 (by omega)) 0x3F800000#32 := by
  unfold RT.v118
  refine (hmean_apply (N := 524288) (W := 1) _ 0x3F800000#32 reducesTo_S524288x1_S524288_d1 (by decide) h_S_ bcast_S_S524288 r).trans ?_
  exact congrArg (fun f => mean f 0x3F800000#32) (sliceRow 58 x slices_S524288x65_S524288x1_0_58 (by omega) r)

theorem v122_apply (x : FVec Ideal S524288x65 .f32) (r : Fin 524288) :
    RT.v122 (F := Ideal) x (ix1 r) = mean (seg (fun k => x (ix2 r k)) 59 3 (by omega)) 0x40400000#32 := by
  unfold RT.v122
  refine (hmean_apply (N := 524288) (W := 3) _ 0x40400000#32 reducesTo_S524288x3_S524288_d1 (by decide) h_S_ bcast_S_S524288 r).trans ?_
  exact congrArg (fun f => mean f 0x40400000#32) (sliceRow 59 x slices_S524288x65_S524288x3_0_59 (by omega) r)

theorem v126_apply (x : FVec Ideal S524288x65 .f32) (r : Fin 524288) :
    RT.v126 (F := Ideal) x (ix1 r) = mean (seg (fun k => x (ix2 r k)) 62 3 (by omega)) 0x40400000#32 := by
  unfold RT.v126
  refine (hmean_apply (N := 524288) (W := 3) _ 0x40400000#32 reducesTo_S524288x3_S524288_d1 (by decide) h_S_ bcast_S_S524288 r).trans ?_
  exact congrArg (fun f => mean f 0x40400000#32) (sliceRow 62 x slices_S524288x65_S524288x3_0_62 (by omega) r)

theorem v139_apply (x : FVec Ideal S524288x65 .f32) (r : Fin 524288) :
    RT.v139 (F := Ideal) x (ix1 r) = mean (seg (fun k => x (ix2 r k)) 0 53 (by omega)) 0x42540000#32 := by
  unfold RT.v139
  refine (hmean_apply (N := 524288) (W := 53) _ 0x42540000#32 reducesTo_S524288x53_S524288_d1 (by decide) h_S_ bcast_S_S524288 r).trans ?_
  exact congrArg (fun f => mean f 0x42540000#32) (sliceRow 0 x slices_S524288x65_S524288x53_0_0 (by omega) r)

theorem v143_apply (x : FVec Ideal S524288x65 .f32) (r : Fin 524288) :
    RT.v143 (F := Ideal) x (ix1 r) = mean (seg (fun k => x (ix2 r k)) 53 12 (by omega)) 0x41400000#32 := by
  unfold RT.v143
  refine (hmean_apply (N := 524288) (W := 12) _ 0x41400000#32 reducesTo_S524288x12_S524288_d1 (by decide) h_S_ bcast_S_S524288 r).trans ?_
  exact congrArg (fun f => mean f 0x41400000#32) (sliceRow 53 x slices_S524288x65_S524288x12_0_53 (by omega) r)

/-- The eight group logits side by side. -/
theorem v135_apply (x : FVec Ideal S524288x65 .f32) (r : Fin 524288) (j : Fin 8) :
    RT.v135 (F := Ideal) x (ix2 r j) = means (fun k => x (ix2 r k)) j := by
  fin_cases j
  · unfold RT.v135
    refine (concatCols_apply _ _ r _ 0 (by show (0 : Nat) < 8; decide) 1 (broadcastInDim S524288x1 ![0] bcast_S524288_S524288x1_0 (RT.v98 x)) rfl 0 rfl (0 : Fin 1) rfl).trans ?_
    refine (hBcastCol_apply (N := 524288) (RT.v98 x) bcast_S524288_S524288x1_0 r (0 : Fin 1)).trans ?_
    exact v98_apply x r
  · unfold RT.v135
    refine (concatCols_apply _ _ r _ 1 (by show (1 : Nat) < 8; decide) 1 (broadcastInDim S524288x1 ![0] bcast_S524288_S524288x1_0 (RT.v102 x)) rfl 1 rfl (0 : Fin 1) rfl).trans ?_
    refine (hBcastCol_apply (N := 524288) (RT.v102 x) bcast_S524288_S524288x1_0 r (0 : Fin 1)).trans ?_
    exact v102_apply x r
  · unfold RT.v135
    refine (concatCols_apply _ _ r _ 2 (by show (2 : Nat) < 8; decide) 1 (broadcastInDim S524288x1 ![0] bcast_S524288_S524288x1_0 (RT.v106 x)) rfl 2 rfl (0 : Fin 1) rfl).trans ?_
    refine (hBcastCol_apply (N := 524288) (RT.v106 x) bcast_S524288_S524288x1_0 r (0 : Fin 1)).trans ?_
    exact v106_apply x r
  · unfold RT.v135
    refine (concatCols_apply _ _ r _ 3 (by show (3 : Nat) < 8; decide) 1 (broadcastInDim S524288x1 ![0] bcast_S524288_S524288x1_0 (RT.v110 x)) rfl 3 rfl (0 : Fin 1) rfl).trans ?_
    refine (hBcastCol_apply (N := 524288) (RT.v110 x) bcast_S524288_S524288x1_0 r (0 : Fin 1)).trans ?_
    exact v110_apply x r
  · unfold RT.v135
    refine (concatCols_apply _ _ r _ 4 (by show (4 : Nat) < 8; decide) 1 (broadcastInDim S524288x1 ![0] bcast_S524288_S524288x1_0 (RT.v114 x)) rfl 4 rfl (0 : Fin 1) rfl).trans ?_
    refine (hBcastCol_apply (N := 524288) (RT.v114 x) bcast_S524288_S524288x1_0 r (0 : Fin 1)).trans ?_
    exact v114_apply x r
  · unfold RT.v135
    refine (concatCols_apply _ _ r _ 5 (by show (5 : Nat) < 8; decide) 1 (broadcastInDim S524288x1 ![0] bcast_S524288_S524288x1_0 (RT.v118 x)) rfl 5 rfl (0 : Fin 1) rfl).trans ?_
    refine (hBcastCol_apply (N := 524288) (RT.v118 x) bcast_S524288_S524288x1_0 r (0 : Fin 1)).trans ?_
    exact v118_apply x r
  · unfold RT.v135
    refine (concatCols_apply _ _ r _ 6 (by show (6 : Nat) < 8; decide) 1 (broadcastInDim S524288x1 ![0] bcast_S524288_S524288x1_0 (RT.v122 x)) rfl 6 rfl (0 : Fin 1) rfl).trans ?_
    refine (hBcastCol_apply (N := 524288) (RT.v122 x) bcast_S524288_S524288x1_0 r (0 : Fin 1)).trans ?_
    exact v122_apply x r
  · unfold RT.v135
    refine (concatCols_apply _ _ r _ 7 (by show (7 : Nat) < 8; decide) 1 (broadcastInDim S524288x1 ![0] bcast_S524288_S524288x1_0 (RT.v126 x)) rfl 7 rfl (0 : Fin 1) rfl).trans ?_
    refine (hBcastCol_apply (N := 524288) (RT.v126 x) bcast_S524288_S524288x1_0 r (0 : Fin 1)).trans ?_
    exact v126_apply x r

/-- The two top logits side by side. -/
theorem v146_apply (x : FVec Ideal S524288x65 .f32) (r : Fin 524288) (j : Fin 2) :
    RT.v146 (F := Ideal) x (ix2 r j) = mtop (fun k => x (ix2 r k)) j := by
  fin_cases j
  · unfold RT.v146
    refine (concatCols_apply _ _ r _ 0 (by show (0 : Nat) < 2; decide) 1 (broadcastInDim S524288x1 ![0] bcast_S524288_S524288x1_0 (RT.v139 x)) rfl 0 rfl (0 : Fin 1) rfl).trans ?_
    refine (hBcastCol_apply (N := 524288) (RT.v139 x) bcast_S524288_S524288x1_0 r (0 : Fin 1)).trans ?_
    exact v139_apply x r
  · unfold RT.v146
    refine (concatCols_apply _ _ r _ 1 (by show (1 : Nat) < 2; decide) 1 (broadcastInDim S524288x1 ![0] bcast_S524288_S524288x1_0 (RT.v143 x)) rfl 1 rfl (0 : Fin 1) rfl).trans ?_
    refine (hBcastCol_apply (N := 524288) (RT.v143 x) bcast_S524288_S524288x1_0 r (0 : Fin 1)).trans ?_
    exact v143_apply x r

/-- The two top probabilities. -/
theorem v157_apply (x : FVec Ideal S524288x65 .f32) (r : Fin 524288) (j : Fin 2) :
    RT.v157 (F := Ideal) x (ix2 r j) = ptop (fun k => x (ix2 r k)) j := by
  unfold RT.v157
  refine (hsoftmax_apply (N := 524288) (W := 2) _ reducesTo_S524288x2_S524288_d1 (by decide) h_S_ bcast_S_S524288
    bcast_S524288_S524288x1_0 bcast_S524288x1_S524288x2_0_1 r j).trans ?_
  exact congrArg (fun f => smx f j) (funext fun k => v146_apply x r k)

/-- Row `r` of the group logits. -/
theorem v135_row (x : FVec Ideal S524288x65 .f32) (r : Fin 524288) :
    (fun k : Fin 8 => RT.v135 (F := Ideal) x (ix2 r k)) = means (fun k => x (ix2 r k)) :=
  funext fun k => v135_apply x r k

/-- The probabilities of groups 0–3. -/
theorem v169_apply (x : FVec Ideal S524288x65 .f32) (r : Fin 524288) (j : Fin 4) :
    RT.v169 (F := Ideal) x (ix2 r j) = smx (seg (means (fun k => x (ix2 r k))) 0 4 (by omega)) j := by
  unfold RT.v169
  refine (hsoftmax_apply (N := 524288) (W := 4) _ reducesTo_S524288x4_S524288_d1 (by decide) h_S_ bcast_S_S524288
    bcast_S524288_S524288x1_0 bcast_S524288x1_S524288x4_0_1 r j).trans ?_
  refine (congrArg (fun f => smx f j) (sliceRow 0 (RT.v135 x) slices_S524288x8_S524288x4_0_0 (by omega) r)).trans ?_
  exact congrArg (fun f => smx (seg f 0 4 (by omega)) j) (v135_row x r)

/-- The probabilities of groups 4–7. -/
theorem v181_apply (x : FVec Ideal S524288x65 .f32) (r : Fin 524288) (j : Fin 4) :
    RT.v181 (F := Ideal) x (ix2 r j) = smx (seg (means (fun k => x (ix2 r k))) 4 4 (by omega)) j := by
  unfold RT.v181
  refine (hsoftmax_apply (N := 524288) (W := 4) _ reducesTo_S524288x4_S524288_d1 (by decide) h_S_ bcast_S_S524288
    bcast_S524288_S524288x1_0 bcast_S524288x1_S524288x4_0_1 r j).trans ?_
  refine (congrArg (fun f => smx f j) (sliceRow 4 (RT.v135 x) slices_S524288x8_S524288x4_0_4 (by omega) r)).trans ?_
  exact congrArg (fun f => smx (seg f 4 4 (by omega)) j) (v135_row x r)

/-- Every column of the 8 lies in the first or the second four. -/
theorem col8_cases (j : Fin 8) :
    (∃ k : Fin 4, j = ⟨0 + k.val, by have := k.isLt; omega⟩) ∨ (∃ k : Fin 4, j = ⟨4 + k.val, by have := k.isLt; omega⟩) := by
  have hj := j.isLt
  by_cases h : j.val < 4
  · exact .inl ⟨⟨j.val, h⟩, Fin.ext (by simp)⟩
  · exact .inr ⟨⟨j.val - 4, by omega⟩, Fin.ext (by simp; omega)⟩

/-- The eight group probabilities side by side. -/
theorem v182_apply (x : FVec Ideal S524288x65 .f32) (r : Fin 524288) (j : Fin 8) :
    RT.v182 (F := Ideal) x (ix2 r j) = lvl2 (fun k => x (ix2 r k)) j := by
  rcases col8_cases j with ⟨k, rfl⟩ | ⟨k, rfl⟩
  · unfold RT.v182
    refine (concatCols_apply _ _ r _ 0 (by show (0 : Nat) < 2; decide) 4 (RT.v169 x) rfl 0 rfl k rfl).trans ?_
    rw [v169_apply]
    exact (lvl2_lo _ k).symm
  · unfold RT.v182
    refine (concatCols_apply _ _ r _ 1 (by show (1 : Nat) < 2; decide) 4 (RT.v181 x) rfl 4 rfl k rfl).trans ?_
    rw [v181_apply]
    exact (lvl2_hi _ k).symm

/-! ## The index columns and the takes -/

/-- The group index column: its entry `c` is the group table's entry `c`. -/
theorem v188_apply (c : Fin 65) : RT.v188 (ix2 c (0 : Fin 1)) = lit0 c := by
  unfold RT.v188
  refine (hBcastCol_apply (N := 65) _ bcast_S65_S65x1_0 c (0 : Fin 1)).trans ?_
  rw [select_apply, constantI_apply, select_zero]
  exact congrArg lit0 (Fin.ext ((Shape.rowMajor_val_one (ix1 c)).trans rfl))

/-- The top index column: its entry `c` is the top table's entry `c`. -/
theorem v194_apply (c : Fin 65) : RT.v194 (ix2 c (0 : Fin 1)) = lit1 c := by
  unfold RT.v194
  refine (hBcastCol_apply (N := 65) _ bcast_S65_S65x1_0 c (0 : Fin 1)).trans ?_
  rw [select_apply, constantI_apply, select_zero]
  exact congrArg lit1 (Fin.ext ((Shape.rowMajor_val_one (ix1 c)).trans rfl))

/-- The group table lists each leaf's group. -/
theorem lit0_gidx : ∀ c : Fin 65, (lit0 c).toInt.toNat = (gidx c).val := by decide

/-- The top table lists the top node above each leaf. -/
theorem lit1_tidx : ∀ c : Fin 65, (lit1 c).toInt.toNat = (tidx c).val := by decide

/-- The group probability taken for leaf `c`: that of the leaf's group. -/
theorem v189_apply (x : FVec Ideal S524288x65 .f32) (r : Fin 524288) (c : Fin 65) :
    RT.v189 (F := Ideal) x (ix2 r c) = lvl2 (fun k => x (ix2 r k)) (gidx c) := by
  unfold RT.v189
  refine (gatherCols_apply (N := 524288) (K := 8) (C := 65) (by decide)
    gather_S524288x8_S65x1_S524288x65_0_1_n_n_1_1_5242881_wf (RT.v182 x) RT.v188 r c).trans ?_
  refine (v182_apply x r _).trans ?_
  refine congrArg (lvl2 _) (Fin.ext ?_)
  show min (RT.v188 (ix2 c (0 : Fin 1))).toInt.toNat (8 - 1) = (gidx c).val
  rw [v188_apply, lit0_gidx]
  have := (gidx c).isLt
  omega

/-- The top probability taken for leaf `c`: that of the top node above the leaf. -/
theorem v195_apply (x : FVec Ideal S524288x65 .f32) (r : Fin 524288) (c : Fin 65) :
    RT.v195 (F := Ideal) x (ix2 r c) = ptop (fun k => x (ix2 r k)) (tidx c) := by
  unfold RT.v195
  refine (gatherCols_apply (N := 524288) (K := 2) (C := 65) (by decide)
    gather_S524288x2_S65x1_S524288x65_0_1_n_n_1_1_5242881_wf (RT.v157 x) RT.v194 r c).trans ?_
  refine (v157_apply x r _).trans ?_
  refine congrArg (ptop _) (Fin.ext ?_)
  show min (RT.v194 (ix2 c (0 : Fin 1))).toInt.toNat (2 - 1) = (tidx c).val
  rw [v194_apply, lit1_tidx]
  have := (tidx c).isLt
  omega

/-- The path probabilities at `(r, c)`. -/
theorem v196_apply (x : FVec Ideal S524288x65 .f32) (r : Fin 524288) (c : Fin 65) :
    RT.v196 (F := Ideal) x (ix2 r c) = pathRow (fun k => x (ix2 r k)) c := by
  unfold RT.v196 RT.v190
  rw [mulf_apply, mulf_apply, v94_apply, v189_apply, v195_apply]
  rfl

/-- The node probabilities at `(r, c)`. -/
theorem v184_apply (x : FVec Ideal S524288x65 .f32) (r : Fin 524288) (c : Fin 76) :
    RT.v184 (F := Ideal) x (ix2 r c) = nodeRow (fun k => x (ix2 r k)) c := by
  rcases col76_cases c with ⟨k, rfl⟩ | ⟨k, rfl⟩ | ⟨k, rfl⟩ | rfl
  · unfold RT.v184
    refine (concatCols_apply _ _ r _ 0 (by show (0 : Nat) < 4; decide) 65 (RT.v94 x) rfl 0 rfl k rfl).trans ?_
    rw [v94_apply]
    exact (nodeRow_leaf _ k).symm
  · unfold RT.v184
    refine (concatCols_apply _ _ r _ 1 (by show (1 : Nat) < 4; decide) 8 (RT.v182 x) rfl 65 rfl k rfl).trans ?_
    rw [v182_apply]
    exact (nodeRow_lvl2 _ k).symm
  · unfold RT.v184
    refine (concatCols_apply _ _ r _ 2 (by show (2 : Nat) < 4; decide) 2 (RT.v157 x) rfl 73 rfl k rfl).trans ?_
    rw [v157_apply]
    exact (nodeRow_top _ k).symm
  · unfold RT.v184
    refine (concatCols_apply _ _ r _ 3 (by show (3 : Nat) < 4; decide) 1 (RT.v183 (F := Ideal)) rfl 75 rfl (0 : Fin 1) rfl).trans ?_
    unfold RT.v183
    refine (hBcast0_2_apply (N := 524288) (W := 1) _ bcast_S_S524288x1 r (0 : Fin 1)).trans ?_
    rw [constant_apply]
    exact (nodeRow_root _).symm

end Cert.ReferenceIdeal.RV

end
-- ==== Proof.lean ====
import proofs.«121205_j47253230191392_1_alg».proof.Defs
import proofs.«121205_j47253230191392_1_alg».proof.Proof.Gen.Kernel
import proofs.«121205_j47253230191392_1_alg».proof.Proof.Gen.Kernel.Skeleton
import proofs.«121205_j47253230191392_1_alg».proof.Proof.Gen.Kernel.Launch
import proofs.«121205_j47253230191392_1_alg».proof.Proof.Gen.Kernel.Points
import proofs.«121205_j47253230191392_1_alg».proof.Proof.Gen.Kernel.Frame
import proofs.«121205_j47253230191392_1_alg».proof.Proof.Gen.KernelIdeal
import proofs.«121205_j47253230191392_1_alg».proof.Proof.Gen.KernelIdeal.Skeleton
import proofs.«121205_j47253230191392_1_alg».proof.Proof.Gen.KernelIdeal.Launch
import proofs.«121205_j47253230191392_1_alg».proof.Proof.Gen.KernelIdeal.Points
import proofs.«121205_j47253230191392_1_alg».proof.Proof.Gen.KernelIdeal.Frame
import proofs.«121205_j47253230191392_1_alg».proof.Proof.Gen.KernelIdeal.Value
import proofs.«121205_j47253230191392_1_alg».proof.Proof.Gen.ReferenceIdeal
import proofs.«121205_j47253230191392_1_alg».proof.Proof.Gen.Pre_finite_inputs
import proofs.«121205_j47253230191392_1_alg».proof.Proof.Blocks
import proofs.«121205_j47253230191392_1_alg».proof.Proof.RefRun
import proofs.«121205_j47253230191392_1_alg».proof.Proof.RefValue
import Idealize.ShloMosaic.Adequacy
import Idealize.ShloMosaic.Init

/-!
# A hierarchical softmax over 65 leaves, row by row

The kernel reads `[524288, 65]` logits in 64 blocks of 8192 rows. In every row it takes the softmax within each of eight
sibling groups of columns (the leaves' probabilities), the mean of each group (the groups' logits) and their softmax among
groups 0–3 and among groups 4–7, the means of columns 0–52 and 53–64 (the top nodes' logits) and their softmax, and writes
the path products leaf × group × top and the row of all node probabilities followed by the root's 1.

The reference computes the same row functions on the whole array: the same subtraction of the row maximum, the same
exponentials, sums and quotients, the same divisions by the counts, and takes the group and top probability of each leaf
by a column take through the tables of the hierarchy, where the kernel broadcasts single columns and concatenates them.
At the ideal values both are, entry by entry, ONE function of the entry's row (`HSpec.pathRow`, `HSpec.nodeRow`): no law
of arithmetic is needed beyond reading each operation at an index, so finiteness of the inputs is never used.
The kernel's idealization rewrote no operation, so `preserves` has nothing to state.
-/

set_option backward.isDefEq.respectTransparency.types false

noncomputable section

namespace Cert.Proof

open Idealize.ShloMosaic Idealize.ShloMosaic.TcCoe Idealize.SL.Sem Idealize.ShloMosaic.ValueIdx HSpec

/-- The reference's first result is the path array of its argument. -/
theorem ref_path (x : FVec Ideal Cert.ReferenceIdeal.S524288x65 .f32) : Cert.ReferenceIdeal.RT.v196 (F := Ideal) x = pathArr x := by
  funext i
  obtain ⟨r, q, rfl⟩ : ∃ (r : Fin 524288) (q : Fin 65), i = ix2 r q := ⟨i 0, i 1, eq_ix2 i⟩
  rw [pathArr_ix2]
  exact Cert.ReferenceIdeal.RV.v196_apply x r q

/-- The reference's second result is the node array of its argument. -/
theorem ref_node (x : FVec Ideal Cert.ReferenceIdeal.S524288x65 .f32) : Cert.ReferenceIdeal.RT.v184 (F := Ideal) x = nodeArr x := by
  funext i
  obtain ⟨r, q, rfl⟩ : ∃ (r : Fin 524288) (q : Fin 76), i = ix2 r q := ⟨i 0, i 1, eq_ix2 i⟩
  rw [nodeArr_ix2]
  exact Cert.ReferenceIdeal.RV.v184_apply x r q

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame: its run with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.RefRun.run (F := Ideal) m ρ)

/-- Both programs end with the path array and the node array of the shared argument. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => pathArr (m ((c.tc : Thread Cert.KernelIdeal.nD Cert.KernelIdeal.τ).loc Cert.KernelIdeal.main_arg0)),
    fun c => nodeArr (m ((c.tc : Thread Cert.KernelIdeal.nD Cert.KernelIdeal.τ).loc Cert.KernelIdeal.main_arg0)),
    Cert.KernelIdeal.Blocks.run m ρ, ?_⟩
  refine (θ_run Cert.ReferenceIdeal.defs _ _).mono (fun r h c => ⟨(h c).1.trans ?_, (h c).2.1.trans ?_, (h c).2.2⟩)
    (Cert.ReferenceIdeal.RefRun.run (F := Ideal) m' ρ')
  · rw [hagree c]; exact ref_path _
  · rw [hagree c]; exact ref_node _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
